-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S16384x2048 .f32) (main_arg1 : FVec F S2048x2048 .f32) (main_arg2 : FVec F S2048 .f32) (main_arg3 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S1024x2048 : Shape := ⟨2, ![1024, 2048]⟩
abbrev S512x1024 : Shape := ⟨2, ![512, 1024]⟩
abbrev S1x1024 : Shape := ⟨2, ![1, 1024]⟩
abbrev S1024 : Shape := ⟨1, ![1024]⟩
abbrev S_ : Shape := ⟨0, ![]⟩
abbrev S1024x1024 : Shape := ⟨2, ![1024, 1024]⟩

abbrev nBuf : Space → Nat
  | .hbm => 27
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S16384x2048, .f32⟩
  | .hbm, ⟨5, _⟩ => ⟨S1x2048, .f32⟩
  | .hbm, ⟨6, _⟩ => ⟨S1x2048, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S1x2048, .f32⟩
  | .hbm, ⟨25, _⟩ => ⟨S1x2048, .f32⟩
  | .hbm, ⟨26, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1024x2048, .f32⟩
  | .local _ .vmem, ⟨3, _⟩ => ⟨S1024x2048, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v29 : BitVec 1 := Scalar.cmpi .eq arg1 c31_i32
  let v30 : BitVec 32 := Scalar.extui v29
  let c0_i32_19 : BitVec 32 := 0#32
  let v31 : BitVec 1 := Scalar.cmpi .ne v30 c0_i32_19
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S512x1024_S512x1024_0_0 : ∀ a, (![0, 0] : Fin 2 → Nat) a + S512x1024.size a ≤ S512x1024.size a
  h_S512x1024 : 0 < S512x1024.numel
  reduces_S512x1024_S1024 : S512x1024.Reduces [0] S1024
  shapeCasts_S1024_S1x1024 : S1024.ShapeCasts S1x1024
  shapeCasts_S1x2048_S2048 : S1x2048.ShapeCasts S2048
  bcast_S_S2048 : S_.BroadcastsInDim S2048 (![] : Fin 0 → Fin S2048.rank)
  shapeCasts_S2048_S1x2048 : S2048.ShapeCasts S1x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S1024x1024 : S1x1024.Broadcasts S1024x1024
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S2048x2048.size a
  hwx0_1 : ∀ i : grid0.Coords, EltTy.bits .f32 = 32 ∨ (Rect.block (s := S2048x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x2048.size a
  hwx0_2 : ∀ i : grid0.Coords, EltTy.bits .f32 = 32 ∨ (Rect.block (s := S16384x2048) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x2048.size a
  hwx0_3 : ∀ i : grid0.Coords, EltTy.bits .f32 = 32 ∨ (Rect.block (s := S1x2048) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x2048.size a
  hwx0_4 : ∀ i : grid0.Coords, EltTy.bits .f32 = 32 ∨ (Rect.block (s := S1x2048) S1x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x2048.size a
  hwx1_0 : ∀ i : grid1.Coords, EltTy.bits .f32 = 32 ∨ (Rect.block (s := S16384x2048) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x2048.size a
  hwx1_1 : ∀ i : grid1.Coords, EltTy.bits .f32 = 32 ∨ (Rect.block (s := S1x2048) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2048.size a
  hwx1_2 : ∀ i : grid1.Coords, EltTy.bits .f32 = 32 ∨ (Rect.block (s := S1x2048) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x2048.size a
  hwx1_3 : ∀ i : grid1.Coords, EltTy.bits .f32 = 32 ∨ (Rect.block (s := S16384x2048) S1024x1024.size (cc1_transform_3 i) (hinb1_3 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048x2048, .f32⟩
  | .hbm, ⟨6, _⟩ => ⟨S2048x2048, .i1⟩
  | .hbm, ⟨7, _⟩ => ⟨S_, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S16384x2048, .f32⟩
  | .hbm, ⟨14, _⟩ => ⟨S_, .f32⟩
  | .hbm, ⟨15, _⟩ => ⟨S2048, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S1x2048, .f32⟩
  | .hbm, ⟨37, _⟩ => ⟨S16384x2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  reducesTo_S16384x2048_S2048_d0 : S16384x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  dot_S16384x2048_S2048x2048_S16384x2048_1_1_0_0_n_n_wf : DotDims.WF S16384x2048 S2048x2048 S16384x2048 [1] [1] [0] [0] [] []

variable [Facts₀]

def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf

class Facts : Prop extends Facts₀ where

variable [Facts]
-- ==== Proof.Stage1Shared.lean ====
import proofs.«125851_j120259085186_1_alg».proof.Proof.Gen.KernelIdeal.Launch
import proofs.«125851_j120259085186_1_alg».proof.Proof.Gen.KernelIdeal.Skeleton
import proofs.«125851_j120259085186_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t` of the first kernel's grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    the region-entry contents and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved, and the block the point before left in place is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if` (the reset of the two accumulators), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 32). -/
theorem hcond0_0 : ∀ t : Fin cfg0.N, cond0_0 (grid0.coords t) ↔ t.val % 32 = 0 :=
  (by decide +kernel : ∀ t : Fin grid0.N, cond0_0 (grid0.coords t) ↔ t.val % 32 = 0)

/-- The condition of the body's second `scf.if` (the write of the two accumulators to their outputs). -/
abbrev cond0_1 (i : grid0.Coords) : Prop := k0_cond2 i = 1#1
/-- It holds at the points ≡ 31 (mod 32). -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

/-- Windows 0, 1 (inputs) and 2 (an output stored at every point) are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Where the second condition fails, outputs 3 and 4 are idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it holds, they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The staging and scratch memrefs -/

/-- One staging buffer of each output window, through which its contents are stated (the choice does not matter). -/
abbrev VO0_2 : View sig .tc .vmem S512x1024 .f32 := (Memref.whole cc0_stg2_0 : Memref sig .tc .vmem S512x1024 .f32).view
abbrev VO0_3 : View sig .tc .vmem S1x1024 .f32 := (Memref.whole cc0_stg3_0 : Memref sig .tc .vmem S1x1024 .f32).view
abbrev VO0_4 : View sig .tc .vmem S1x1024 .f32 := (Memref.whole cc0_stg4_0 : Memref sig .tc .vmem S1x1024 .f32).view
/-- Each window's current staging memref at point `t`, as the pipeline passes it, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1x1024 .f32 := Memref.whole cc0_scratch0
abbrev scM0_1 : Memref sig .tc .vmem S1x1024 .f32 := Memref.whole cc0_scratch1
/-- The two accumulators the kernel carries between points, as views: what they hold is stated through them. -/
abbrev VS0_0 : View sig .tc .vmem S1x1024 .f32 := scM0_0.view
abbrev VS0_1 : View sig .tc .vmem S1x1024 .f32 := scM0_1.view

/-- The other scoped buffers of the core (the second kernel's staging buffers), each whole at some contents: they
    ride along untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's invariant with the two accumulators as memrefs owned at some contents, the other scoped buffers
    and the generator register beside them: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS (F := F) c) ∗ (∃ r, prngReg c r)) := by
  unfold Pipeline.ΦA restS; rw [scopedRest0_eq]; simp only [scM0_0, scM0_1, owns_whole]; try rfl

end Cert.KernelIdeal.Hand

end
-- ==== Proof.Stage1RunA.lean ====
import proofs.«125851_j120259085186_1_alg».proof.Proof.Stage1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in output 2's staging memref and in the two accumulators, as pieces (last first), where
    the first condition holds and the second does not (the first point of each row of the grid): on whole memrefs — the
    inputs' at their contents, output 2's at anything, outputs 3 and 4 (idle here) at contents handed back untouched, the
    two accumulators at anything — the body runs to the continuation holding the inputs' as they were, output 2's buffer
    and the two accumulators with their pieces written. -/
noncomputable def kernelRun0_A (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) :
    Σ' (L2 : List (View.Piece (Elt F) S512x1024 .f32)) (LS0 : List (View.Piece (Elt F) S1x1024 .f32)), { LS1 : List (View.Piece (Elt F) S1x1024 .f32) //
      ∀ (xi3 xi4 : Vec F S1x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8) K } := by
  refine ⟨?_, ?_, ?_, fun xi3 xi4 E K => ?run⟩
  case run =>
    simp only [cc0__stage1_kernel_eq_skeleton]; unfold cc0__stage1_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.Stage1RunB.lean ====
import proofs.«125851_j120259085186_1_alg».proof.Proof.Stage1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- The same where neither condition holds (the inner points of each row of the grid): the two accumulators are handed
    over at what the point before left in them. -/
noncomputable def kernelRun0_B (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) :
    Σ' (L2 : List (View.Piece (Elt F) S512x1024 .f32)) (LS0 : List (View.Piece (Elt F) S1x1024 .f32)), { LS1 : List (View.Piece (Elt F) S1x1024 .f32) //
      ∀ (xi3 xi4 : Vec F S1x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8) K } := by
  refine ⟨?_, ?_, ?_, fun xi3 xi4 E K => ?run⟩
  case run =>
    simp only [cc0__stage1_kernel_eq_skeleton]; unfold cc0__stage1_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.Stage1RunC.lean ====
import proofs.«125851_j120259085186_1_alg».proof.Proof.Stage1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- The same where the second condition holds and the first does not (the last point of each row of the grid): outputs 3
    and 4 are live, handed over at anything and left with their pieces written. -/
noncomputable def kernelRun0_C (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) :
    Σ' (L2 : List (View.Piece (Elt F) S512x1024 .f32)) (L3 : List (View.Piece (Elt F) S1x1024 .f32)) (L4 : List (View.Piece (Elt F) S1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8) K } := by
  refine ⟨?_, ?_, ?_, ?_, ?_, fun E K => ?run⟩
  case run =>
    simp only [cc0__stage1_kernel_eq_skeleton]; unfold cc0__stage1_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Hand

end
-- ==== Proof.Stage1Frame.lean ====
import proofs.«125851_j120259085186_1_alg».proof.Proof.Stage1RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- In the case of the reset the pieces stored into output 2 tile it, so they cover it. -/
theorem cover0_A_2 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) (y : S512x1024.Idx) :
    ∃ pc ∈ (kernelRun0_A c i arg2 harg2 arg3 harg3 arg4 harg4 arg5 harg5 arg6 harg6 arg7 harg7 arg8 harg8 hc0 hc1 x0 x1).1, y ∈ pc.1.set :=
  View.cover_of_tiledL (kernelRun0_A c i arg2 harg2 arg3 harg3 arg4 harg4 arg5 harg5 arg6 harg6 arg7 harg7 arg8 harg8 hc0 hc1 x0 x1).1 S512x1024.size (by sl_kernel_rfl) y

/-- What the case of the reset leaves in output 2: its pieces read back over junk. -/
def out0_A_2 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) : Vec F S512x1024 .f32 :=
  VO0_2.read (Elt F) (VO0_2.writes (Elt F) VO0_2.junk (kernelRun0_A c i arg2 harg2 arg3 harg3 arg4 harg4 arg5 harg5 arg6 harg6 arg7 harg7 arg8 harg8 hc0 hc1 x0 x1).1)

/-- In the case of the reset the pieces stored into the first accumulator tile it, so they cover it. -/
theorem scover0_A_0 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) (y : S1x1024.Idx) :
    ∃ pc ∈ (kernelRun0_A c i arg2 harg2 arg3 harg3 arg4 harg4 arg5 harg5 arg6 harg6 arg7 harg7 arg8 harg8 hc0 hc1 x0 x1).2.1, y ∈ pc.1.set :=
  View.cover_of_tiledL (kernelRun0_A c i arg2 harg2 arg3 harg3 arg4 harg4 arg5 harg5 arg6 harg6 arg7 harg7 arg8 harg8 hc0 hc1 x0 x1).2.1 S1x1024.size (by sl_kernel_rfl) y

/-- What the case of the reset leaves in the first accumulator: its pieces read back over junk. -/
def sout0_A_0 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) : Vec F S1x1024 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1).2.1)

/-- In the case of the reset the pieces stored into the second accumulator tile it, so they cover it. -/
theorem scover0_A_1 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) (y : S1x1024.Idx) :
    ∃ pc ∈ (kernelRun0_A c i arg2 harg2 arg3 harg3 arg4 harg4 arg5 harg5 arg6 harg6 arg7 harg7 arg8 harg8 hc0 hc1 x0 x1).2.2.1, y ∈ pc.1.set :=
  View.cover_of_tiledL (kernelRun0_A c i arg2 harg2 arg3 harg3 arg4 harg4 arg5 harg5 arg6 harg6 arg7 harg7 arg8 harg8 hc0 hc1 x0 x1).2.2.1 S1x1024.size (by sl_kernel_rfl) y

/-- What the case of the reset leaves in the second accumulator: its pieces read back over junk. -/
def sout0_A_1 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) : Vec F S1x1024 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1).2.2.1)

/-- In the inner case the pieces stored into output 2 tile it, so they cover it. -/
theorem cover0_B_2 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) (y : S512x1024.Idx) :
    ∃ pc ∈ (kernelRun0_B c i arg2 harg2 arg3 harg3 arg4 harg4 arg5 harg5 arg6 harg6 arg7 harg7 arg8 harg8 hc0 hc1 x0 x1 xs0 xs1).1, y ∈ pc.1.set :=
  View.cover_of_tiledL (kernelRun0_B c i arg2 harg2 arg3 harg3 arg4 harg4 arg5 harg5 arg6 harg6 arg7 harg7 arg8 harg8 hc0 hc1 x0 x1 xs0 xs1).1 S512x1024.size (by sl_kernel_rfl) y

/-- What the inner case leaves in output 2: its pieces read back over junk. -/
def out0_B_2 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) : Vec F S512x1024 .f32 :=
  VO0_2.read (Elt F) (VO0_2.writes (Elt F) VO0_2.junk (kernelRun0_B c i arg2 harg2 arg3 harg3 arg4 harg4 arg5 harg5 arg6 harg6 arg7 harg7 arg8 harg8 hc0 hc1 x0 x1 xs0 xs1).1)

/-- In the inner case the pieces stored into the first accumulator tile it, so they cover it. -/
theorem scover0_B_0 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) (y : S1x1024.Idx) :
    ∃ pc ∈ (kernelRun0_B c i arg2 harg2 arg3 harg3 arg4 harg4 arg5 harg5 arg6 harg6 arg7 harg7 arg8 harg8 hc0 hc1 x0 x1 xs0 xs1).2.1, y ∈ pc.1.set :=
  View.cover_of_tiledL (kernelRun0_B c i arg2 harg2 arg3 harg3 arg4 harg4 arg5 harg5 arg6 harg6 arg7 harg7 arg8 harg8 hc0 hc1 x0 x1 xs0 xs1).2.1 S1x1024.size (by sl_kernel_rfl) y

/-- What the inner case leaves in the first accumulator: its pieces read back over junk. -/
def sout0_B_0 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) : Vec F S1x1024 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 xs0 xs1).2.1)

/-- In the inner case the pieces stored into the second accumulator tile it, so they cover it. -/
theorem scover0_B_1 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) (y : S1x1024.Idx) :
    ∃ pc ∈ (kernelRun0_B c i arg2 harg2 arg3 harg3 arg4 harg4 arg5 harg5 arg6 harg6 arg7 harg7 arg8 harg8 hc0 hc1 x0 x1 xs0 xs1).2.2.1, y ∈ pc.1.set :=
  View.cover_of_tiledL (kernelRun0_B c i arg2 harg2 arg3 harg3 arg4 harg4 arg5 harg5 arg6 harg6 arg7 harg7 arg8 harg8 hc0 hc1 x0 x1 xs0 xs1).2.2.1 S1x1024.size (by sl_kernel_rfl) y

/-- What the inner case leaves in the second accumulator: its pieces read back over junk. -/
def sout0_B_1 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) : Vec F S1x1024 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 xs0 xs1).2.2.1)

/-- In the case of the write-out the pieces stored into output 2 tile it, so they cover it. -/
theorem cover0_C_2 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) (y : S512x1024.Idx) :
    ∃ pc ∈ (kernelRun0_C c i arg2 harg2 arg3 harg3 arg4 harg4 arg5 harg5 arg6 harg6 arg7 harg7 arg8 harg8 hc0 hc1 x0 x1 xs0 xs1).1, y ∈ pc.1.set :=
  View.cover_of_tiledL (kernelRun0_C c i arg2 harg2 arg3 harg3 arg4 harg4 arg5 harg5 arg6 harg6 arg7 harg7 arg8 harg8 hc0 hc1 x0 x1 xs0 xs1).1 S512x1024.size (by sl_kernel_rfl) y

/-- What the case of the write-out leaves in output 2: its pieces read back over junk. -/
def out0_C_2 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) : Vec F S512x1024 .f32 :=
  VO0_2.read (Elt F) (VO0_2.writes (Elt F) VO0_2.junk (kernelRun0_C c i arg2 harg2 arg3 harg3 arg4 harg4 arg5 harg5 arg6 harg6 arg7 harg7 arg8 harg8 hc0 hc1 x0 x1 xs0 xs1).1)

/-- In the case of the write-out the pieces stored into output 3 tile it, so they cover it. -/
theorem cover0_C_3 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) (y : S1x1024.Idx) :
    ∃ pc ∈ (kernelRun0_C c i arg2 harg2 arg3 harg3 arg4 harg4 arg5 harg5 arg6 harg6 arg7 harg7 arg8 harg8 hc0 hc1 x0 x1 xs0 xs1).2.1, y ∈ pc.1.set :=
  View.cover_of_tiledL (kernelRun0_C c i arg2 harg2 arg3 harg3 arg4 harg4 arg5 harg5 arg6 harg6 arg7 harg7 arg8 harg8 hc0 hc1 x0 x1 xs0 xs1).2.1 S1x1024.size (by sl_kernel_rfl) y

/-- What the case of the write-out leaves in output 3: its pieces read back over junk. -/
def out0_C_3 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) : Vec F S1x1024 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 xs0 xs1).2.1)

/-- In the case of the write-out the pieces stored into output 4 tile it, so they cover it. -/
theorem cover0_C_4 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) (y : S1x1024.Idx) :
    ∃ pc ∈ (kernelRun0_C c i arg2 harg2 arg3 harg3 arg4 harg4 arg5 harg5 arg6 harg6 arg7 harg7 arg8 harg8 hc0 hc1 x0 x1 xs0 xs1).2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.1 S1x1024.size (by sl_kernel_rfl) y

/-- What the case of the write-out leaves in output 4: its pieces read back over junk. -/
def out0_C_4 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) : Vec F S1x1024 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 xs0 xs1).2.2.1)

/-- In the case of the write-out the pieces stored into the first accumulator tile it, so they cover it. -/
theorem scover0_C_0 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) (y : S1x1024.Idx) :
    ∃ pc ∈ (kernelRun0_C c i arg2 harg2 arg3 harg3 arg4 harg4 arg5 harg5 arg6 harg6 arg7 harg7 arg8 harg8 hc0 hc1 x0 x1 xs0 xs1).2.2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.2.1 S1x1024.size (by sl_kernel_rfl) y

/-- What the case of the write-out leaves in the first accumulator: its pieces read back over junk. -/
def sout0_C_0 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) : Vec F S1x1024 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 xs0 xs1).2.2.2.1)

/-- In the case of the write-out the pieces stored into the second accumulator tile it, so they cover it. -/
theorem scover0_C_1 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) (y : S1x1024.Idx) :
    ∃ pc ∈ (kernelRun0_C c i arg2 harg2 arg3 harg3 arg4 harg4 arg5 harg5 arg6 harg6 arg7 harg7 arg8 harg8 hc0 hc1 x0 x1 xs0 xs1).2.2.2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.2.2.1 S1x1024.size (by sl_kernel_rfl) y

/-- What the case of the write-out leaves in the second accumulator: its pieces read back over junk. -/
def sout0_C_1 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) : Vec F S1x1024 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 xs0 xs1).2.2.2.2.1)

/-! ## What the outputs and the two accumulators hold after each point -/

/-- Placeholders for outputs 3 and 4 at the points where they are idle: nothing consults them there (the window is
    neither written back at such a point nor read at the next). -/
def idle0_3 : Vec F S1x1024 .f32 := VO0_3.read (Elt F) VO0_3.junk
def idle0_4 : Vec F S1x1024 .f32 := VO0_4.read (Elt F) VO0_4.junk

/-- THE ACCUMULATION. What the three outputs' staging buffers and the two accumulators hold after the body at position
    `n` (a tuple: outputs 2, 3, 4, then the two accumulators): the case the closed forms select at `n`, run at the
    point's memrefs and input blocks, the accumulators at what this leaves at `n - 1` where the case reads them. -/
def outsAt0 (c : Dev nD) : (n : ℕ) → n < cfg0.N → Vec F S512x1024 .f32 × Vec F S1x1024 .f32 × Vec F S1x1024 .f32 × Vec F S1x1024 .f32 × Vec F S1x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), idle0_3, idle0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 32 = 0 then
      if h1 : (n + 1) % 32 = 31 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), idle0_3, idle0_4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, idle0_3, idle0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2)

/-- `outsAt0` at a point of the reset: that case's contents. -/
theorem outsAt0_A (c : Dev nD) (t : Fin cfg0.N) (h0 : t.val % 32 = 0) (h1 : ¬t.val % 32 = 31) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t), idle0_3, idle0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at an inner point: that case's contents, over what the point before left. -/
theorem outsAt0_B (c : Dev nD) (t : Fin cfg0.N) (h0 : ¬t.val % 32 = 0) (h1 : ¬t.val % 32 = 31) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, idle0_3, idle0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of the write-out: that case's contents, over what the point before left. -/
theorem outsAt0_C (c : Dev nD) (t : Fin cfg0.N) (h0 : ¬t.val % 32 = 0) (h1 : t.val % 32 = 31) :
    outsAt0 V c t.val t.isLt = (out0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no staging
    buffer at anything); afterwards the two accumulators at what the point before left in them, the other scoped buffers
    at anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restS (F := F) c) ∗ (∃ r, prngReg c r)) := by
  cases n with
  | zero => exact absurd rfl hz
  | succ n => rfl

/-! ## The pipeline's proof data -/

/-- The proof data of the first kernel on core `c`: the arrays as the region finds them; after the body at point `t`
    each input's buffer at its block and the outputs' at `outsAt0`'s components; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms say which case the point is in; the
    invariant hands the body the two accumulators at what the point before left (at anything at the first point) and
    takes them back at this point's contents; outputs 3 and 4 are handed back untouched where they are idle; the core
    owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 32 = 0
  · by_cases h1 : t.val % 32 = 31
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold out0_A_2 sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t)).2.2.2 _ _ Set.univ _)
        isplitl [H0]; · iexact H0
        isplitl [H1]; · iexact H1
        isplitl [H2]; · iexists _; iexact H2
        isplitl [H3]; · iexact H3
        isplitl [H4]; · iexact H4
        isplitl [HS0]; · iexact HS0
        isplitl [HS1]; · iexact HS1
        iintro ⟨H0, H1, ⟨%e2, H2⟩, H3, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _)
        isplitl [H3]; · iexists _; iexact H3
        iexists _; iexact H4
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t)).2.2.2 _ _ Set.univ _)
        isplitl [H0]; · iexact H0
        isplitl [H1]; · iexact H1
        isplitl [H2]; · iexists _; iexact H2
        isplitl [H3]; · iexact H3
        isplitl [H4]; · iexact H4
        isplitl [HS0]; · iexists _; iexact HS0
        isplitl [HS1]; · iexists _; iexact HS1
        iintro ⟨H0, H1, ⟨%e2, H2⟩, H3, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _)
        isplitl [H3]; · iexists _; iexact H3
        iexists _; iexact H4
  · have hz : t.val ≠ 0 := fun e => h0 (by rw [e])
    by_cases h1 : t.val % 32 = 31
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_2 out0_C_3 out0_C_4 sout0_C_0 sout0_C_1; (try dsimp only)
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) _ _).2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        iintro ⟨H0, H1, ⟨%e2, H2⟩, ⟨%e3, H3⟩, ⟨%e4, H4⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold out0_B_2 sout0_B_0 sout0_B_1; (try dsimp only)
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) _ _).2.2.2 _ _ Set.univ _)
        isplitl [H0]; · iexact H0
        isplitl [H1]; · iexact H1
        isplitl [H2]; · iexists _; iexact H2
        isplitl [H3]; · iexact H3
        isplitl [H4]; · iexact H4
        isplitl [HS0]; · iexact HS0
        isplitl [HS1]; · iexact HS1
        iintro ⟨H0, H1, ⟨%e2, H2⟩, H3, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_B_2 c _ _ _ _ _ _ _ _ _ _ _ _ _ _ _ _ _ _ _ _ _)
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.Stage1.lean ====
import proofs.«125851_j120259085186_1_alg».proof.Proof.Stage1Frame

/-! # The first kernel region: what its outputs and its two accumulators hold, in terms of the payloads

The body's stores, as the runs of its three control cases find them, are unit rectangles at offset zero of whole
buffers, so each staging buffer and each accumulator is left at a bare payload of the input blocks: output 2 at
`k0_pay3` (the product), the accumulators at `k0_pay4` / `k0_pay5` (the column sums and sums of squares added to what
they held, or to the zero row at a reset), outputs 3 and 4 at the accumulators where they are written out. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The offset of every access of the body: zero on both axes. -/
private theorem hz0 : (![0, 0] : Fin 2 → Nat) = fun _ => 0 := funext fun a => by fin_cases a <;> rfl

/-! ## One lemma per piece the runs found -/

/-- At a point of the reset output 2 is left at the product of the two input blocks: its one store covers it, and the store's operands are loads of the whole input buffers. -/
private theorem out0_A_2_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) :
    out0_A_2 c i arg2 harg2 arg3 harg3 arg4 harg4 arg5 harg5 arg6 harg6 arg7 harg7 arg8 harg8 hc0 hc1 x0 x1 = k0_pay3 x1 x0 := by
  unfold out0_A_2
  rw [View.read_writes_junk_eq_canon]
  unfold kernelRun0_A
  dsimp only
  sl_unfold_words
  rw [View.canon_unit_zero (S := S512x1024) hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- At a point of the reset the first accumulator is left at the column sums added to the zero row: the zero row is stored, read back, and the update stored over it. -/
private theorem sout0_A_0_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) :
    sout0_A_0 c i arg2 harg2 arg3 harg3 arg4 harg4 arg5 harg5 arg6 harg6 arg7 harg7 arg8 harg8 hc0 hc1 x0 x1 = k0_pay4 x1 x0 k0_pay1 := by
  unfold sout0_A_0
  rw [View.read_writes_junk_eq_canon]
  unfold kernelRun0_A
  dsimp only
  sl_unfold_words
  rw [View.canon_cons_unit_zero (S := S1x1024) hz0, View.readCov_unit_zero (S := S1x1024) _ hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- The same for the second accumulator and the column sums of squares. -/
private theorem sout0_A_1_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) :
    sout0_A_1 c i arg2 harg2 arg3 harg3 arg4 harg4 arg5 harg5 arg6 harg6 arg7 harg7 arg8 harg8 hc0 hc1 x0 x1 = k0_pay5 x1 x0 k0_pay2 := by
  unfold sout0_A_1
  rw [View.read_writes_junk_eq_canon]
  unfold kernelRun0_A
  dsimp only
  sl_unfold_words
  rw [View.canon_cons_unit_zero (S := S1x1024) hz0, View.readCov_unit_zero (S := S1x1024) _ hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- At an inner point output 2 is left at the product of the two input blocks. -/
private theorem out0_B_2_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) :
    out0_B_2 c i arg2 harg2 arg3 harg3 arg4 harg4 arg5 harg5 arg6 harg6 arg7 harg7 arg8 harg8 hc0 hc1 x0 x1 xs0 xs1 = k0_pay3 x1 x0 := by
  unfold out0_B_2
  rw [View.read_writes_junk_eq_canon]
  unfold kernelRun0_B
  dsimp only
  sl_unfold_words
  rw [View.canon_unit_zero (S := S512x1024) hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- At an inner point the first accumulator is left at the column sums added to what it held. -/
private theorem sout0_B_0_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) :
    sout0_B_0 c i arg2 harg2 arg3 harg3 arg4 harg4 arg5 harg5 arg6 harg6 arg7 harg7 arg8 harg8 hc0 hc1 x0 x1 xs0 xs1 = k0_pay4 x1 x0 xs0 := by
  unfold sout0_B_0
  rw [View.read_writes_junk_eq_canon]
  unfold kernelRun0_B
  dsimp only
  sl_unfold_words
  rw [View.canon_unit_zero (S := S1x1024) hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- The same for the second accumulator and the column sums of squares. -/
private theorem sout0_B_1_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) :
    sout0_B_1 c i arg2 harg2 arg3 harg3 arg4 harg4 arg5 harg5 arg6 harg6 arg7 harg7 arg8 harg8 hc0 hc1 x0 x1 xs0 xs1 = k0_pay5 x1 x0 xs1 := by
  unfold sout0_B_1
  rw [View.read_writes_junk_eq_canon]
  unfold kernelRun0_B
  dsimp only
  sl_unfold_words
  rw [View.canon_unit_zero (S := S1x1024) hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- At a point of the write-out output 2 is left at the product of the two input blocks. -/
private theorem out0_C_2_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) :
    out0_C_2 c i arg2 harg2 arg3 harg3 arg4 harg4 arg5 harg5 arg6 harg6 arg7 harg7 arg8 harg8 hc0 hc1 x0 x1 xs0 xs1 = k0_pay3 x1 x0 := by
  unfold out0_C_2
  rw [View.read_writes_junk_eq_canon]
  unfold kernelRun0_C
  dsimp only
  sl_unfold_words
  rw [View.canon_unit_zero (S := S512x1024) hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- At a point of the write-out the first accumulator is left at the column sums added to what it held, -/
private theorem sout0_C_0_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) :
    sout0_C_0 c i arg2 harg2 arg3 harg3 arg4 harg4 arg5 harg5 arg6 harg6 arg7 harg7 arg8 harg8 hc0 hc1 x0 x1 xs0 xs1 = k0_pay4 x1 x0 xs0 := by
  unfold sout0_C_0
  rw [View.read_writes_junk_eq_canon]
  unfold kernelRun0_C
  dsimp only
  sl_unfold_words
  rw [View.canon_unit_zero (S := S1x1024) hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- the second at the column sums of squares added to what it held, -/
private theorem sout0_C_1_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) :
    sout0_C_1 c i arg2 harg2 arg3 harg3 arg4 harg4 arg5 harg5 arg6 harg6 arg7 harg7 arg8 harg8 hc0 hc1 x0 x1 xs0 xs1 = k0_pay5 x1 x0 xs1 := by
  unfold sout0_C_1
  rw [View.read_writes_junk_eq_canon]
  unfold kernelRun0_C
  dsimp only
  sl_unfold_words
  rw [View.canon_unit_zero (S := S1x1024) hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- and outputs 3 and 4 are left at the accumulators just updated: each is one store of a load of the accumulator after its update. -/
private theorem out0_C_3_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) :
    out0_C_3 c i arg2 harg2 arg3 harg3 arg4 harg4 arg5 harg5 arg6 harg6 arg7 harg7 arg8 harg8 hc0 hc1 x0 x1 xs0 xs1 = k0_pay4 x1 x0 xs0 := by
  unfold out0_C_3
  rw [View.read_writes_junk_eq_canon]
  unfold kernelRun0_C
  dsimp only
  sl_unfold_words
  rw [View.canon_unit_zero (S := S1x1024) hz0, View.readCov_unit_zero (S := S1x1024) _ hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- The same for output 4 and the second accumulator. -/
private theorem out0_C_4_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) :
    out0_C_4 c i arg2 harg2 arg3 harg3 arg4 harg4 arg5 harg5 arg6 harg6 arg7 harg7 arg8 harg8 hc0 hc1 x0 x1 xs0 xs1 = k0_pay5 x1 x0 xs1 := by
  unfold out0_C_4
  rw [View.read_writes_junk_eq_canon]
  unfold kernelRun0_C
  dsimp only
  sl_unfold_words
  rw [View.canon_unit_zero (S := S1x1024) hz0, View.readCov_unit_zero (S := S1x1024) _ hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-! ## The accumulators after each point, and the outputs at the payloads -/

/-- What the two accumulators hold after point `n`: the last two components of the accumulation. -/
def acc0 (c : Dev nD) (n : ℕ) (hn : n < cfg0.N) : Vec F S1x1024 .f32 × Vec F S1x1024 .f32 :=
  ((outsAt0 V c n hn).2.2.2.1, (outsAt0 V c n hn).2.2.2.2)

/-- Output 2's staging buffer after the body, at every point: the product of the point's two input blocks. -/
theorem after0_2_eq (c : Dev nD) (t : Fin cfg0.N) : (dat0 V c).after 2 t = k0_pay3 (iblk0 V c 1 t) (iblk0 V c 0 t) := by
  rw [after0_2]
  by_cases h0 : t.val % 32 = 0
  · have h1 : ¬t.val % 32 = 31 := by omega
    rw [outsAt0_A V c t h0 h1]; dsimp only
    exact out0_A_2_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (fun h => h1 ((hcond0_1 t).mp h)) (iblk0 V c 0 t) (iblk0 V c 1 t)
  · by_cases h1 : t.val % 32 = 31
    · rw [outsAt0_C V c t h0 h1]; dsimp only
      exact out0_C_2_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]; dsimp only
      exact out0_B_2_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- At the first point of a row of the grid the accumulators restart from the zero rows. -/
theorem acc0_reset (c : Dev nD) (t : Fin cfg0.N) (h : t.val % 32 = 0) :
    acc0 V c t.val t.isLt = (k0_pay4 (iblk0 V c 1 t) (iblk0 V c 0 t) k0_pay1, k0_pay5 (iblk0 V c 1 t) (iblk0 V c 0 t) k0_pay2) := by
  have h0 : t.val % 32 = 0 := h
  have h1 : ¬t.val % 32 = 31 := by omega
  unfold acc0
  rw [outsAt0_A V c t h0 h1]; dsimp only
  exact congrArg₂ Prod.mk (sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (fun h => h1 ((hcond0_1 t).mp h)) (iblk0 V c 0 t) (iblk0 V c 1 t)) (sout0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (fun h => h1 ((hcond0_1 t).mp h)) (iblk0 V c 0 t) (iblk0 V c 1 t))

/-- At every other point they add the point's column sums to what the point before left. -/
theorem acc0_step (c : Dev nD) (t : Fin cfg0.N) (h : t.val % 32 ≠ 0) :
    acc0 V c t.val t.isLt = (k0_pay4 (iblk0 V c 1 t) (iblk0 V c 0 t) (acc0 V c (t.val - 1) (Nat.lt_of_le_of_lt (Nat.sub_le _ _) t.isLt)).1,
      k0_pay5 (iblk0 V c 1 t) (iblk0 V c 0 t) (acc0 V c (t.val - 1) (Nat.lt_of_le_of_lt (Nat.sub_le _ _) t.isLt)).2) := by
  have h0 : ¬t.val % 32 = 0 := h
  unfold acc0
  dsimp only
  by_cases h1 : t.val % 32 = 31
  · rw [outsAt0_C V c t h0 h1]; dsimp only
    exact congrArg₂ Prod.mk (sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
  · rw [outsAt0_B V c t h0 h1]; dsimp only
    exact congrArg₂ Prod.mk (sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (sout0_B_1_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)

/-- At the last point of a row output 3's staging buffer is left at the first accumulator, -/
theorem after0_3_flush (c : Dev nD) (t : Fin cfg0.N) (h : t.val % 32 = 31) : (dat0 V c).after 3 t = (acc0 V c t.val t.isLt).1 := by
  have h0 : ¬t.val % 32 = 0 := by omega
  have h1 : t.val % 32 = 31 := h
  rw [after0_3]; unfold acc0; dsimp only
  rw [outsAt0_C V c t h0 h1]; dsimp only
  exact (out0_C_3_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans (sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm

/-- and output 4's at the second. -/
theorem after0_4_flush (c : Dev nD) (t : Fin cfg0.N) (h : t.val % 32 = 31) : (dat0 V c).after 4 t = (acc0 V c t.val t.isLt).2 := by
  have h0 : ¬t.val % 32 = 0 := by omega
  have h1 : t.val % 32 = 31 := h
  rw [after0_4]; unfold acc0; dsimp only
  rw [outsAt0_C V c t h0 h1]; dsimp only
  exact (out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans (sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm

end Cert.KernelIdeal.Hand

end
-- ==== Proof.Stage2.lean ====
import proofs.«125851_j120259085186_1_alg».proof.Proof.Gen.KernelIdeal.Launch
import proofs.«125851_j120259085186_1_alg».proof.Proof.Gen.KernelIdeal.Skeleton
import proofs.«125851_j120259085186_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second kernel region (custom_call 1, `cc1__stage2_kernel`), its class-A half

The region is a pointwise kernel over a 16×2 grid: at every point it reads a 1024×1024 block of the first
region's result and two 1×1024 rows (a scale and a shift), and stores `max (x · scale + shift) 0` into the
1024×1024 block of its result. Every window is fetched, and the output written back, at every point. All is
stated at a parameter `V`: the TensorCore's buffer contents when the region is entered. -/

-- membership in a rectangle of 1024×1024 extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t` of the second kernel's grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1 (the scale row). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for input window 2 (the shift row). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its staging buffer -/

abbrev r1_0 : Rect S1024x1024 := Rect.unit (s := S1024x1024) ![0, 0] S1024x1024.size inb_S1024x1024_S1024x1024_0_0
abbrev r1_1 : Rect S1x1024 := Rect.unit (s := S1x1024) ![0, 0] S1x1024.size inb_S1x1024_S1x1024_0_0
abbrev r1_2 : Rect S1x1024 := Rect.unit (s := S1x1024) ![0, 0] S1x1024.size inb_S1x1024_S1x1024_0_0
abbrev r1_3 : Rect S1024x1024 := Rect.unit (s := S1024x1024) ![0, 0] S1024x1024.size inb_S1024x1024_S1024x1024_0_0

/-! ## What the body leaves in the output window's buffer -/

/-- Window 3's staging buffer after the body, from the input windows' blocks: its one store as a piece, the
    payload the skeleton's. -/
def out1_3 (x0 : Vec F S1024x1024 .f32) (x1 x2 : Vec F S1x1024 .f32) : Vec F S1024x1024 .f32 :=
  View.canon [⟨r1_3, k1_pay1 (View.ld x0 r1_0) (View.ld x1 r1_1) (View.ld x2 r1_2)⟩]

/-- The one store is the whole buffer, so it covers it. -/
theorem cover1_3 (p0 : Vec F S1024x1024 .f32) (y : S1024x1024.Idx) :
    ∃ pc ∈ ([⟨r1_3, p0⟩] : List (View.Piece (Elt F) S1024x1024 .f32)), y ∈ pc.1.set :=
  View.cover_of_tiled [⟨r1_3, p0⟩] S1024x1024.size (by rfl) y

/-! ## The body's triple -/

set_option maxHeartbeats 1000000 in
/-- The kernel body on whole staging memrefs, the inputs' at read contents and the output's at anything (the body
    loads the output's buffer before storing into it, and never uses what it loaded), runs to the continuation
    holding the inputs' as they were and the output's at `out1_3` of the inputs'. -/
theorem sound_kernel1 (c : Dev nD) (E : Set ℕ) (i : grid1.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole)
    (x0 : Vec F S1024x1024 .f32) (x1 x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__stage2_kernel i arg2 harg2 arg3 harg3 arg4 harg4 arg5 harg5) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the output's at `out1_3` of the input blocks; the invariant the class's
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.MainRun.lean ====
import proofs.«125851_j120259085186_1_alg».proof.Proof.Gen.KernelIdeal.Launch
import proofs.«125851_j120259085186_1_alg».proof.Proof.Gen.KernelIdeal.Skeleton
import proofs.«125851_j120259085186_1_alg».proof.Proof.Gen.KernelIdeal.Points
import proofs.«125851_j120259085186_1_alg».proof.Proof.Stage1
import proofs.«125851_j120259085186_1_alg».proof.Proof.Stage2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: region 0, the nineteen host operations, region 1

@main is three segments. The buffer contents at each boundary are a fold from the launch memory: a region leaves
its windows' arrays at what its write-backs fold to and every other buffer as entered; the host stretch leaves
`StableHlo.after` of its operations. Each region's proof data are taken at its entry contents. The run ends with
every unscoped buffer at the last boundary's contents, from which the argument arrays are read back to the launch
memory: no host operation writes one, and a region reads one through an input window or bypasses it. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch (region 0's entry: no host operation comes before it). -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded), every other buffer as entered. -/
def Wa (c : Dev nD) : Valuation τ sig (Elt F) :=
  Pipeline.withArrays spec0 c (W0 m ρ c) fun w => (dat0 (V0 m ρ) c).arrAt w cfg0.N
theorem Wa_arr (c : Dev nD) (w : Fin cfg0.W) :
    Wa m ρ c (Proc.devRef .tc (Pipeline.arrRef spec0 w)) = (dat0 (V0 m ρ) c).arrAt w cfg0.N := by
  unfold Wa; exact Pipeline.withArrays_arr spec0 launch0.win.arr_inj c _ _ w
theorem Wa_of_ne (c : Dev nD) (b : Ref sig .tc) (hb : ∀ w, Pipeline.arrRef spec0 w ≠ b) :
    Wa m ρ c (Proc.devRef .tc b) = W0 m ρ c (Proc.devRef .tc b) := by
  unfold Wa; exact Pipeline.withArrays_of_ne spec0 c _ _ b hb
/-- The same read at the TensorCore's references (region 0's exit contents). -/
abbrev Va : (c : Dev nD) → (b : Ref sig .tc) → Buf (Elt F) ((c : Thread nD τ).loc b) := fun c b => Wa m ρ c b
/-- At region 0's exit each of its arrays holds what the pipeline leaves and every other buffer what it held at entry. -/
theorem hF0 (c : Dev nD) (w : Fin cfg0.W) : (dat0 (V0 m ρ) c).arrAt w cfg0.N = Va m ρ c (Pipeline.arrRef spec0 w) :=
  (Wa_arr m ρ c w).symm
theorem hrest0 (c : Dev nD) : ∀ b, b ∉ Finset.univ.image (Pipeline.arrRef spec0) → Va m ρ c b = V0 m ρ c b :=
  fun b hb => Wa_of_ne m ρ c b fun w e => hb (Finset.mem_image.mpr ⟨w, Finset.mem_univ _, e⟩)

/-- After the nineteen host operations (region 1's entry). -/
abbrev Wb : Dev nD → Valuation τ sig (Elt F) := fun c => StableHlo.after hostOps1 (Wa m ρ c)
/-- The same read at the TensorCore's references (what region 1's proof data take). -/
abbrev Vb : (c : Dev nD) → (b : Ref sig .tc) → Buf (Elt F) ((c : Thread nD τ).loc b) := fun c b => Wb m ρ c b
/-- At region 1's exit: its arrays at what the pipeline leaves, every other buffer as entered. -/
def Wc (c : Dev nD) : Valuation τ sig (Elt F) :=
  Pipeline.withArrays spec1 c (Wb m ρ c) fun w => (dat1 (Vb m ρ) c).arrAt w cfg1.N
theorem Wc_arr (c : Dev nD) (w : Fin cfg1.W) :
    Wc m ρ c (Proc.devRef .tc (Pipeline.arrRef spec1 w)) = (dat1 (Vb m ρ) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m ρ c (Proc.devRef .tc b) = Wb m ρ c (Proc.devRef .tc b) := by
  unfold Wc; exact Pipeline.withArrays_of_ne spec1 c _ _ b hb
/-- The same read at the TensorCore's references (region 1's exit contents). -/
abbrev Vc : (c : Dev nD) → (b : Ref sig .tc) → Buf (Elt F) ((c : Thread nD τ).loc b) := fun c b => Wc m ρ c b
theorem hF1 (c : Dev nD) (w : Fin cfg1.W) : (dat1 (Vb m ρ) c).arrAt w cfg1.N = Vc m ρ c (Pipeline.arrRef spec1 w) :=
  (Wc_arr m ρ c w).symm
theorem hrest1 (c : Dev nD) : ∀ b, b ∉ Finset.univ.image (Pipeline.arrRef spec1) → Vc m ρ c b = Vb m ρ c b :=
  fun b hb => Wc_of_ne m ρ c b fun w e => hb (Finset.mem_image.mpr ⟨w, Finset.mem_univ _, e⟩)

/-! ### What region 0 leaves in its result arrays, and in the two arguments it does not touch -/

theorem Wa_main_v0_0 (c : Dev nD) : Wa m ρ c (Proc.devRef .tc main_v0_0) = (dat0 (V0 m ρ) c).arrAt 2 cfg0.N := Wa_arr m ρ c 2
theorem Wa_main_v0_1 (c : Dev nD) : Wa m ρ c (Proc.devRef .tc main_v0_1) = (dat0 (V0 m ρ) c).arrAt 3 cfg0.N := Wa_arr m ρ c 3
theorem Wa_main_v0_2 (c : Dev nD) : Wa m ρ c (Proc.devRef .tc main_v0_2) = (dat0 (V0 m ρ) c).arrAt 4 cfg0.N := Wa_arr m ρ c 4
theorem Wa_main_arg2 (c : Dev nD) : Wa m ρ c (Proc.devRef .tc main_arg2) = m ((c : Thread nD τ).loc main_arg2) :=
  (Wa_of_ne m ρ c main_arg2 (by decide)).trans rfl
theorem Wa_main_arg3 (c : Dev nD) : Wa m ρ c (Proc.devRef .tc main_arg3) = m ((c : Thread nD τ).loc main_arg3) :=
  (Wa_of_ne m ρ c main_arg3 (by decide)).trans rfl

/-! ### The arguments end as launched, and region 1's result array at what its pipeline leaves -/

theorem Wc_main_arg0 (c : Dev nD) : Wc m ρ c (Proc.devRef .tc main_arg0) = m ((c : Thread nD τ).loc main_arg0) :=
  calc Wc m ρ c (Proc.devRef .tc main_arg0)
    _ = Wb m ρ c (Proc.devRef .tc main_arg0) := Wc_of_ne m ρ c main_arg0 (by decide)
    _ = Wa m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (Wa_arr m ρ c 0).trans (((dat0 (V0 m ρ) c).arrAt_in 0 rfl _).trans (A_eq0 (V0 m ρ) c 0))
    _ = m ((c : Thread nD τ).loc main_arg0) := rfl
theorem Wc_main_arg1 (c : Dev nD) : Wc m ρ c (Proc.devRef .tc main_arg1) = m ((c : Thread nD τ).loc main_arg1) :=
  calc Wc m ρ c (Proc.devRef .tc main_arg1)
    _ = Wb m ρ c (Proc.devRef .tc main_arg1) := Wc_of_ne m ρ c main_arg1 (by decide)
    _ = Wa m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (Wa_arr m ρ c 1).trans (((dat0 (V0 m ρ) c).arrAt_in 1 rfl _).trans (A_eq0 (V0 m ρ) c 1))
    _ = m ((c : Thread nD τ).loc main_arg1) := rfl
theorem Wc_main_arg2 (c : Dev nD) : Wc m ρ c (Proc.devRef .tc main_arg2) = m ((c : Thread nD τ).loc main_arg2) :=
  calc Wc m ρ c (Proc.devRef .tc main_arg2)
    _ = Wb m ρ c (Proc.devRef .tc main_arg2) := Wc_of_ne m ρ c main_arg2 (by decide)
    _ = Wa m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := Wa_main_arg2 m ρ c
theorem Wc_main_arg3 (c : Dev nD) : Wc m ρ c (Proc.devRef .tc main_arg3) = m ((c : Thread nD τ).loc main_arg3) :=
  calc Wc m ρ c (Proc.devRef .tc main_arg3)
    _ = Wb m ρ c (Proc.devRef .tc main_arg3) := Wc_of_ne m ρ c main_arg3 (by decide)
    _ = Wa m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := Wa_main_arg3 m ρ c
theorem Wc_main_v17 (c : Dev nD) : Wc m ρ c (Proc.devRef .tc main_v17) = (dat1 (Vb m ρ) c).arrAt 3 cfg1.N := Wc_arr m ρ c 3

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (Vb m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (Wc m ρ c) ∗ ∃ r, prngReg c r)

/-! ## The regions as segments -/

-- a library lemma stated over `pin pcs a p` unifies with the pinned configuration only when unification may
-- unfold plain definitions in a metavariable's type
set_option backward.isDefEq.respectTransparency.types false in
/-- REGION 0 (custom_call 0) over the thread state: its arrays split out of the unscoped buffers and put back at
    the exit contents; the generator register into the class invariant and out; nothing owed; no semaphore of the
    kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (Wa m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun w => A_eq0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the class invariant first, then region 0's own invariant at the first point from it
    have h0 := hin0 (V0 m ρ) c
    rw [show (pdats m ρ 0 c).Φ 0 = (dat0 (V0 m ρ) c).Φ 0 from rfl]
    iintro ⟨Hp, -, Hr⟩
    iapply h0
    unfold Pipeline.ΦA
    isplitl [Hr]; · iexact Hr
    iexact Hp
  hout c := by
    -- region 0's own invariant at the last point gives the class invariant back, which is then taken apart
    have h0 := hout0 (V0 m ρ) c
    unfold Pipeline.ΦA at h0
    rw [Pipeline.ownSems0_none, show (pdats m ρ 0 c).Φ (Fin.last _) = (dat0 (V0 m ρ) c).Φ (Fin.last cfg0.N) from rfl]
    iintro H
    ihave H' := h0 $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (Va m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 1 (custom_call 1) over the thread state: its arrays split out of the unscoped buffers and put back at
    the exit contents; the generator register into the class invariant and out; nothing owed; no semaphore of the
    kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (Wb m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun w => A_eq1 (Vb m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .region (reg0 m ρ),
    .host (hseg hostOps1 hostOps1_sub hostOps1_fresh (Wa m ρ)),
    .region (reg1 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at the last boundary's
    contents `Wc`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wc m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc m ρ c b)
    (hfin := fun c s' => by
      iintro ⟨⟨Hh, -⟩, HSI⟩
      unfold StableHlo.held
      imodintro
      iapply (pointsTo_read_all (Pipeline.ucRefs τ sig) (fun b => (((c : Thread nD τ)).1, b)) (Wc m ρ c) s')
      isplitl [Hh] <;> iassumption)
    (hQ := fun _ h => h)

/-- THE FRAME, at any `F`: every final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Wc_main_arg0 m ρ c),
     (h c _ (mem_uc main_arg1 (by decide))).trans (Wc_main_arg1 m ρ c),
     (h c _ (mem_uc main_arg2 (by decide))).trans (Wc_main_arg2 m ρ c),
     (h c _ (mem_uc main_arg3 (by decide))).trans (Wc_main_arg3 m ρ c)⟩) (run_all m ρ)

end Cert.KernelIdeal.Hand

end
-- ==== Proof.KernelBits.Stage1Shared.lean ====
import proofs.«125851_j120259085186_1_alg».proof.Proof.Gen.Kernel.Launch
import proofs.«125851_j120259085186_1_alg».proof.Proof.Gen.Kernel.Skeleton
import proofs.«125851_j120259085186_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t` of the first kernel's grid, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    the region-entry contents and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved, and the block the point before left in place is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if` (the reset of the two accumulators), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 32). -/
theorem hcond0_0 : ∀ t : Fin cfg0.N, cond0_0 (grid0.coords t) ↔ t.val % 32 = 0 :=
  (by decide +kernel : ∀ t : Fin grid0.N, cond0_0 (grid0.coords t) ↔ t.val % 32 = 0)

/-- The condition of the body's second `scf.if` (the write of the two accumulators to their outputs). -/
abbrev cond0_1 (i : grid0.Coords) : Prop := k0_cond2 i = 1#1
/-- It holds at the points ≡ 31 (mod 32). -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

/-- Windows 0, 1 (inputs) and 2 (an output stored at every point) are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Where the second condition fails, outputs 3 and 4 are idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- Where it holds, they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The staging and scratch memrefs -/

/-- One staging buffer of each output window, through which its contents are stated (the choice does not matter). -/
abbrev VO0_2 : View sig .tc .vmem S512x1024 .f32 := (Memref.whole cc0_stg2_0 : Memref sig .tc .vmem S512x1024 .f32).view
abbrev VO0_3 : View sig .tc .vmem S1x1024 .f32 := (Memref.whole cc0_stg3_0 : Memref sig .tc .vmem S1x1024 .f32).view
abbrev VO0_4 : View sig .tc .vmem S1x1024 .f32 := (Memref.whole cc0_stg4_0 : Memref sig .tc .vmem S1x1024 .f32).view
/-- Each window's current staging memref at point `t`, as the pipeline passes it, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1x1024 .f32 := Memref.whole cc0_scratch0
abbrev scM0_1 : Memref sig .tc .vmem S1x1024 .f32 := Memref.whole cc0_scratch1
/-- The two accumulators the kernel carries between points, as views: what they hold is stated through them. -/
abbrev VS0_0 : View sig .tc .vmem S1x1024 .f32 := scM0_0.view
abbrev VS0_1 : View sig .tc .vmem S1x1024 .f32 := scM0_1.view

/-- The other scoped buffers of the core (the second kernel's staging buffers), each whole at some contents: they
    ride along untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's invariant with the two accumulators as memrefs owned at some contents, the other scoped buffers
    and the generator register beside them: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS (F := F) c) ∗ (∃ r, prngReg c r)) := by
  unfold Pipeline.ΦA restS; rw [scopedRest0_eq]; simp only [scM0_0, scM0_1, owns_whole]; try rfl

end Cert.Kernel.Hand

end
-- ==== Proof.KernelBits.Stage1RunA.lean ====
import proofs.«125851_j120259085186_1_alg».proof.Proof.KernelBits.Stage1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- What the body's stores leave in output 2's staging memref and in the two accumulators, as pieces (last first), where
    the first condition holds and the second does not (the first point of each row of the grid): on whole memrefs — the
    inputs' at their contents, output 2's at anything, outputs 3 and 4 (idle here) at contents handed back untouched, the
    two accumulators at anything — the body runs to the continuation holding the inputs' as they were, output 2's buffer
    and the two accumulators with their pieces written. -/
noncomputable def kernelRun0_A (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) :
    Σ' (L2 : List (View.Piece (Elt F) S512x1024 .f32)) (LS0 : List (View.Piece (Elt F) S1x1024 .f32)), { LS1 : List (View.Piece (Elt F) S1x1024 .f32) //
      ∀ (xi3 xi4 : Vec F S1x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8) K } := by
  refine ⟨?_, ?_, ?_, fun xi3 xi4 E K => ?run⟩
  case run =>
    simp only [cc0__stage1_kernel_eq_skeleton]; unfold cc0__stage1_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.KernelBits.Stage1RunB.lean ====
import proofs.«125851_j120259085186_1_alg».proof.Proof.KernelBits.Stage1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- The same where neither condition holds (the inner points of each row of the grid): the two accumulators are handed
    over at what the point before left in them. -/
noncomputable def kernelRun0_B (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) :
    Σ' (L2 : List (View.Piece (Elt F) S512x1024 .f32)) (LS0 : List (View.Piece (Elt F) S1x1024 .f32)), { LS1 : List (View.Piece (Elt F) S1x1024 .f32) //
      ∀ (xi3 xi4 : Vec F S1x1024 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8) K } := by
  refine ⟨?_, ?_, ?_, fun xi3 xi4 E K => ?run⟩
  case run =>
    simp only [cc0__stage1_kernel_eq_skeleton]; unfold cc0__stage1_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.KernelBits.Stage1RunC.lean ====
import proofs.«125851_j120259085186_1_alg».proof.Proof.KernelBits.Stage1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- The same where the second condition holds and the first does not (the last point of each row of the grid): outputs 3
    and 4 are live, handed over at anything and left with their pieces written. -/
noncomputable def kernelRun0_C (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) :
    Σ' (L2 : List (View.Piece (Elt F) S512x1024 .f32)) (L3 : List (View.Piece (Elt F) S1x1024 .f32)) (L4 : List (View.Piece (Elt F) S1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stage1_kernel i arg2 harg2 arg3 harg3 arg4 harg4 arg5 harg5 arg6 harg6 arg7 harg7 arg8 harg8) K } := by
  refine ⟨?_, ?_, ?_, ?_, ?_, fun E K => ?run⟩
  case run =>
    simp only [cc0__stage1_kernel_eq_skeleton]; unfold cc0__stage1_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.Hand

end
-- ==== Proof.KernelBits.Stage1Frame.lean ====
import proofs.«125851_j120259085186_1_alg».proof.Proof.KernelBits.Stage1RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- In the case of the reset the pieces stored into output 2 tile it, so they cover it. -/
theorem cover0_A_2 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) (y : S512x1024.Idx) :
    ∃ pc ∈ (kernelRun0_A c i arg2 harg2 arg3 harg3 arg4 harg4 arg5 harg5 arg6 harg6 arg7 harg7 arg8 harg8 hc0 hc1 x0 x1).1, y ∈ pc.1.set :=
  View.cover_of_tiledL (kernelRun0_A c i arg2 harg2 arg3 harg3 arg4 harg4 arg5 harg5 arg6 harg6 arg7 harg7 arg8 harg8 hc0 hc1 x0 x1).1 S512x1024.size (by sl_kernel_rfl) y

/-- What the case of the reset leaves in output 2: its pieces read back over junk. -/
def out0_A_2 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) : Vec F S512x1024 .f32 :=
  VO0_2.read (Elt F) (VO0_2.writes (Elt F) VO0_2.junk (kernelRun0_A c i arg2 harg2 arg3 harg3 arg4 harg4 arg5 harg5 arg6 harg6 arg7 harg7 arg8 harg8 hc0 hc1 x0 x1).1)

/-- In the case of the reset the pieces stored into the first accumulator tile it, so they cover it. -/
theorem scover0_A_0 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) (y : S1x1024.Idx) :
    ∃ pc ∈ (kernelRun0_A c i arg2 harg2 arg3 harg3 arg4 harg4 arg5 harg5 arg6 harg6 arg7 harg7 arg8 harg8 hc0 hc1 x0 x1).2.1, y ∈ pc.1.set :=
  View.cover_of_tiledL (kernelRun0_A c i arg2 harg2 arg3 harg3 arg4 harg4 arg5 harg5 arg6 harg6 arg7 harg7 arg8 harg8 hc0 hc1 x0 x1).2.1 S1x1024.size (by sl_kernel_rfl) y

/-- What the case of the reset leaves in the first accumulator: its pieces read back over junk. -/
def sout0_A_0 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) : Vec F S1x1024 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1).2.1)

/-- In the case of the reset the pieces stored into the second accumulator tile it, so they cover it. -/
theorem scover0_A_1 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) (y : S1x1024.Idx) :
    ∃ pc ∈ (kernelRun0_A c i arg2 harg2 arg3 harg3 arg4 harg4 arg5 harg5 arg6 harg6 arg7 harg7 arg8 harg8 hc0 hc1 x0 x1).2.2.1, y ∈ pc.1.set :=
  View.cover_of_tiledL (kernelRun0_A c i arg2 harg2 arg3 harg3 arg4 harg4 arg5 harg5 arg6 harg6 arg7 harg7 arg8 harg8 hc0 hc1 x0 x1).2.2.1 S1x1024.size (by sl_kernel_rfl) y

/-- What the case of the reset leaves in the second accumulator: its pieces read back over junk. -/
def sout0_A_1 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) : Vec F S1x1024 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1).2.2.1)

/-- In the inner case the pieces stored into output 2 tile it, so they cover it. -/
theorem cover0_B_2 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) (y : S512x1024.Idx) :
    ∃ pc ∈ (kernelRun0_B c i arg2 harg2 arg3 harg3 arg4 harg4 arg5 harg5 arg6 harg6 arg7 harg7 arg8 harg8 hc0 hc1 x0 x1 xs0 xs1).1, y ∈ pc.1.set :=
  View.cover_of_tiledL (kernelRun0_B c i arg2 harg2 arg3 harg3 arg4 harg4 arg5 harg5 arg6 harg6 arg7 harg7 arg8 harg8 hc0 hc1 x0 x1 xs0 xs1).1 S512x1024.size (by sl_kernel_rfl) y

/-- What the inner case leaves in output 2: its pieces read back over junk. -/
def out0_B_2 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) : Vec F S512x1024 .f32 :=
  VO0_2.read (Elt F) (VO0_2.writes (Elt F) VO0_2.junk (kernelRun0_B c i arg2 harg2 arg3 harg3 arg4 harg4 arg5 harg5 arg6 harg6 arg7 harg7 arg8 harg8 hc0 hc1 x0 x1 xs0 xs1).1)

/-- In the inner case the pieces stored into the first accumulator tile it, so they cover it. -/
theorem scover0_B_0 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) (y : S1x1024.Idx) :
    ∃ pc ∈ (kernelRun0_B c i arg2 harg2 arg3 harg3 arg4 harg4 arg5 harg5 arg6 harg6 arg7 harg7 arg8 harg8 hc0 hc1 x0 x1 xs0 xs1).2.1, y ∈ pc.1.set :=
  View.cover_of_tiledL (kernelRun0_B c i arg2 harg2 arg3 harg3 arg4 harg4 arg5 harg5 arg6 harg6 arg7 harg7 arg8 harg8 hc0 hc1 x0 x1 xs0 xs1).2.1 S1x1024.size (by sl_kernel_rfl) y

/-- What the inner case leaves in the first accumulator: its pieces read back over junk. -/
def sout0_B_0 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) : Vec F S1x1024 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 xs0 xs1).2.1)

/-- In the inner case the pieces stored into the second accumulator tile it, so they cover it. -/
theorem scover0_B_1 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) (y : S1x1024.Idx) :
    ∃ pc ∈ (kernelRun0_B c i arg2 harg2 arg3 harg3 arg4 harg4 arg5 harg5 arg6 harg6 arg7 harg7 arg8 harg8 hc0 hc1 x0 x1 xs0 xs1).2.2.1, y ∈ pc.1.set :=
  View.cover_of_tiledL (kernelRun0_B c i arg2 harg2 arg3 harg3 arg4 harg4 arg5 harg5 arg6 harg6 arg7 harg7 arg8 harg8 hc0 hc1 x0 x1 xs0 xs1).2.2.1 S1x1024.size (by sl_kernel_rfl) y

/-- What the inner case leaves in the second accumulator: its pieces read back over junk. -/
def sout0_B_1 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) : Vec F S1x1024 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 xs0 xs1).2.2.1)

/-- In the case of the write-out the pieces stored into output 2 tile it, so they cover it. -/
theorem cover0_C_2 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) (y : S512x1024.Idx) :
    ∃ pc ∈ (kernelRun0_C c i arg2 harg2 arg3 harg3 arg4 harg4 arg5 harg5 arg6 harg6 arg7 harg7 arg8 harg8 hc0 hc1 x0 x1 xs0 xs1).1, y ∈ pc.1.set :=
  View.cover_of_tiledL (kernelRun0_C c i arg2 harg2 arg3 harg3 arg4 harg4 arg5 harg5 arg6 harg6 arg7 harg7 arg8 harg8 hc0 hc1 x0 x1 xs0 xs1).1 S512x1024.size (by sl_kernel_rfl) y

/-- What the case of the write-out leaves in output 2: its pieces read back over junk. -/
def out0_C_2 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) : Vec F S512x1024 .f32 :=
  VO0_2.read (Elt F) (VO0_2.writes (Elt F) VO0_2.junk (kernelRun0_C c i arg2 harg2 arg3 harg3 arg4 harg4 arg5 harg5 arg6 harg6 arg7 harg7 arg8 harg8 hc0 hc1 x0 x1 xs0 xs1).1)

/-- In the case of the write-out the pieces stored into output 3 tile it, so they cover it. -/
theorem cover0_C_3 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) (y : S1x1024.Idx) :
    ∃ pc ∈ (kernelRun0_C c i arg2 harg2 arg3 harg3 arg4 harg4 arg5 harg5 arg6 harg6 arg7 harg7 arg8 harg8 hc0 hc1 x0 x1 xs0 xs1).2.1, y ∈ pc.1.set :=
  View.cover_of_tiledL (kernelRun0_C c i arg2 harg2 arg3 harg3 arg4 harg4 arg5 harg5 arg6 harg6 arg7 harg7 arg8 harg8 hc0 hc1 x0 x1 xs0 xs1).2.1 S1x1024.size (by sl_kernel_rfl) y

/-- What the case of the write-out leaves in output 3: its pieces read back over junk. -/
def out0_C_3 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) : Vec F S1x1024 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 xs0 xs1).2.1)

/-- In the case of the write-out the pieces stored into output 4 tile it, so they cover it. -/
theorem cover0_C_4 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) (y : S1x1024.Idx) :
    ∃ pc ∈ (kernelRun0_C c i arg2 harg2 arg3 harg3 arg4 harg4 arg5 harg5 arg6 harg6 arg7 harg7 arg8 harg8 hc0 hc1 x0 x1 xs0 xs1).2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.1 S1x1024.size (by sl_kernel_rfl) y

/-- What the case of the write-out leaves in output 4: its pieces read back over junk. -/
def out0_C_4 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) : Vec F S1x1024 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 xs0 xs1).2.2.1)

/-- In the case of the write-out the pieces stored into the first accumulator tile it, so they cover it. -/
theorem scover0_C_0 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) (y : S1x1024.Idx) :
    ∃ pc ∈ (kernelRun0_C c i arg2 harg2 arg3 harg3 arg4 harg4 arg5 harg5 arg6 harg6 arg7 harg7 arg8 harg8 hc0 hc1 x0 x1 xs0 xs1).2.2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.2.1 S1x1024.size (by sl_kernel_rfl) y

/-- What the case of the write-out leaves in the first accumulator: its pieces read back over junk. -/
def sout0_C_0 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) : Vec F S1x1024 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 xs0 xs1).2.2.2.1)

/-- In the case of the write-out the pieces stored into the second accumulator tile it, so they cover it. -/
theorem scover0_C_1 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) (y : S1x1024.Idx) :
    ∃ pc ∈ (kernelRun0_C c i arg2 harg2 arg3 harg3 arg4 harg4 arg5 harg5 arg6 harg6 arg7 harg7 arg8 harg8 hc0 hc1 x0 x1 xs0 xs1).2.2.2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.2.2.1 S1x1024.size (by sl_kernel_rfl) y

/-- What the case of the write-out leaves in the second accumulator: its pieces read back over junk. -/
def sout0_C_1 (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) : Vec F S1x1024 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 xs0 xs1).2.2.2.2.1)

/-! ## What the outputs and the two accumulators hold after each point -/

/-- Placeholders for outputs 3 and 4 at the points where they are idle: nothing consults them there (the window is
    neither written back at such a point nor read at the next). -/
def idle0_3 : Vec F S1x1024 .f32 := VO0_3.read (Elt F) VO0_3.junk
def idle0_4 : Vec F S1x1024 .f32 := VO0_4.read (Elt F) VO0_4.junk

/-- THE ACCUMULATION. What the three outputs' staging buffers and the two accumulators hold after the body at position
    `n` (a tuple: outputs 2, 3, 4, then the two accumulators): the case the closed forms select at `n`, run at the
    point's memrefs and input blocks, the accumulators at what this leaves at `n - 1` where the case reads them. -/
def outsAt0 (c : Dev nD) : (n : ℕ) → n < cfg0.N → Vec F S512x1024 .f32 × Vec F S1x1024 .f32 × Vec F S1x1024 .f32 × Vec F S1x1024 .f32 × Vec F S1x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), idle0_3, idle0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 32 = 0 then
      if h1 : (n + 1) % 32 = 31 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), idle0_3, idle0_4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, idle0_3, idle0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2)

/-- `outsAt0` at a point of the reset: that case's contents. -/
theorem outsAt0_A (c : Dev nD) (t : Fin cfg0.N) (h0 : t.val % 32 = 0) (h1 : ¬t.val % 32 = 31) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t), idle0_3, idle0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at an inner point: that case's contents, over what the point before left. -/
theorem outsAt0_B (c : Dev nD) (t : Fin cfg0.N) (h0 : ¬t.val % 32 = 0) (h1 : ¬t.val % 32 = 31) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, idle0_3, idle0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of the write-out: that case's contents, over what the point before left. -/
theorem outsAt0_C (c : Dev nD) (t : Fin cfg0.N) (h0 : ¬t.val % 32 = 0) (h1 : t.val % 32 = 31) :
    outsAt0 V c t.val t.isLt = (out0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no staging
    buffer at anything); afterwards the two accumulators at what the point before left in them, the other scoped buffers
    at anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restS (F := F) c) ∗ (∃ r, prngReg c r)) := by
  cases n with
  | zero => exact absurd rfl hz
  | succ n => rfl

/-! ## The pipeline's proof data -/

/-- The proof data of the first kernel on core `c`: the arrays as the region finds them; after the body at point `t`
    each input's buffer at its block and the outputs' at `outsAt0`'s components; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' memrefs hold their blocks; the closed forms say which case the point is in; the
    invariant hands the body the two accumulators at what the point before left (at anything at the first point) and
    takes them back at this point's contents; outputs 3 and 4 are handed back untouched where they are idle; the core
    owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 32 = 0
  · by_cases h1 : t.val % 32 = 31
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold out0_A_2 sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t)).2.2.2 _ _ Set.univ _)
        isplitl [H0]; · iexact H0
        isplitl [H1]; · iexact H1
        isplitl [H2]; · iexists _; iexact H2
        isplitl [H3]; · iexact H3
        isplitl [H4]; · iexact H4
        isplitl [HS0]; · iexact HS0
        isplitl [HS1]; · iexact HS1
        iintro ⟨H0, H1, ⟨%e2, H2⟩, H3, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _)
        isplitl [H3]; · iexists _; iexact H3
        iexists _; iexact H4
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t)).2.2.2 _ _ Set.univ _)
        isplitl [H0]; · iexact H0
        isplitl [H1]; · iexact H1
        isplitl [H2]; · iexists _; iexact H2
        isplitl [H3]; · iexact H3
        isplitl [H4]; · iexact H4
        isplitl [HS0]; · iexists _; iexact HS0
        isplitl [HS1]; · iexists _; iexact HS1
        iintro ⟨H0, H1, ⟨%e2, H2⟩, H3, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _)
        isplitl [H3]; · iexists _; iexact H3
        iexists _; iexact H4
  · have hz : t.val ≠ 0 := fun e => h0 (by rw [e])
    by_cases h1 : t.val % 32 = 31
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_2 out0_C_3 out0_C_4 sout0_C_0 sout0_C_1; (try dsimp only)
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) _ _).2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        iintro ⟨H0, H1, ⟨%e2, H2⟩, ⟨%e3, H3⟩, ⟨%e4, H4⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold out0_B_2 sout0_B_0 sout0_B_1; (try dsimp only)
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩⟩
        iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) _ _).2.2.2 _ _ Set.univ _)
        isplitl [H0]; · iexact H0
        isplitl [H1]; · iexact H1
        isplitl [H2]; · iexists _; iexact H2
        isplitl [H3]; · iexact H3
        isplitl [H4]; · iexact H4
        isplitl [HS0]; · iexact HS0
        isplitl [HS1]; · iexact HS1
        iintro ⟨H0, H1, ⟨%e2, H2⟩, H3, H4, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_B_2 c _ _ _ _ _ _ _ _ _ _ _ _ _ _ _ _ _ _ _ _ _)
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.KernelBits.Stage1.lean ====
import proofs.«125851_j120259085186_1_alg».proof.Proof.KernelBits.Stage1Frame

/-! # The first kernel region: what its outputs and its two accumulators hold, in terms of the payloads

The body's stores, as the runs of its three control cases find them, are unit rectangles at offset zero of whole
buffers, so each staging buffer and each accumulator is left at a bare payload of the input blocks: output 2 at
`k0_pay3` (the product), the accumulators at `k0_pay4` / `k0_pay5` (the column sums and sums of squares added to what
they held, or to the zero row at a reset), outputs 3 and 4 at the accumulators where they are written out. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The offset of every access of the body: zero on both axes. -/
private theorem hz0 : (![0, 0] : Fin 2 → Nat) = fun _ => 0 := funext fun a => by fin_cases a <;> rfl

/-! ## One lemma per piece the runs found -/

/-- At a point of the reset output 2 is left at the product of the two input blocks: its one store covers it, and the store's operands are loads of the whole input buffers. -/
private theorem out0_A_2_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) :
    out0_A_2 c i arg2 harg2 arg3 harg3 arg4 harg4 arg5 harg5 arg6 harg6 arg7 harg7 arg8 harg8 hc0 hc1 x0 x1 = k0_pay3 x1 x0 := by
  unfold out0_A_2
  rw [View.read_writes_junk_eq_canon]
  unfold kernelRun0_A
  dsimp only
  sl_unfold_words
  rw [View.canon_unit_zero (S := S512x1024) hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- At a point of the reset the first accumulator is left at the column sums added to the zero row: the zero row is stored, read back, and the update stored over it. -/
private theorem sout0_A_0_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) :
    sout0_A_0 c i arg2 harg2 arg3 harg3 arg4 harg4 arg5 harg5 arg6 harg6 arg7 harg7 arg8 harg8 hc0 hc1 x0 x1 = k0_pay4 x1 x0 k0_pay1 := by
  unfold sout0_A_0
  rw [View.read_writes_junk_eq_canon]
  unfold kernelRun0_A
  dsimp only
  sl_unfold_words
  rw [View.canon_cons_unit_zero (S := S1x1024) hz0, View.readCov_unit_zero (S := S1x1024) _ hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- The same for the second accumulator and the column sums of squares. -/
private theorem sout0_A_1_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : cond0_0 i) (hc1 : ¬cond0_1 i)
    (x0 : Vec F S512x2048 .f32) (x1 : Vec F S1024x2048 .f32) :
    sout0_A_1 c i arg2 harg2 arg3 harg3 arg4 harg4 arg5 harg5 arg6 harg6 arg7 harg7 arg8 harg8 hc0 hc1 x0 x1 = k0_pay5 x1 x0 k0_pay2 := by
  unfold sout0_A_1
  rw [View.read_writes_junk_eq_canon]
  unfold kernelRun0_A
  dsimp only
  sl_unfold_words
  rw [View.canon_cons_unit_zero (S := S1x1024) hz0, View.readCov_unit_zero (S := S1x1024) _ hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- At an inner point output 2 is left at the product of the two input blocks. -/
private theorem out0_B_2_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) :
    out0_B_2 c i arg2 harg2 arg3 harg3 arg4 harg4 arg5 harg5 arg6 harg6 arg7 harg7 arg8 harg8 hc0 hc1 x0 x1 xs0 xs1 = k0_pay3 x1 x0 := by
  unfold out0_B_2
  rw [View.read_writes_junk_eq_canon]
  unfold kernelRun0_B
  dsimp only
  sl_unfold_words
  rw [View.canon_unit_zero (S := S512x1024) hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- At an inner point the first accumulator is left at the column sums added to what it held. -/
private theorem sout0_B_0_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) :
    sout0_B_0 c i arg2 harg2 arg3 harg3 arg4 harg4 arg5 harg5 arg6 harg6 arg7 harg7 arg8 harg8 hc0 hc1 x0 x1 xs0 xs1 = k0_pay4 x1 x0 xs0 := by
  unfold sout0_B_0
  rw [View.read_writes_junk_eq_canon]
  unfold kernelRun0_B
  dsimp only
  sl_unfold_words
  rw [View.canon_unit_zero (S := S1x1024) hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- The same for the second accumulator and the column sums of squares. -/
private theorem sout0_B_1_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : ¬cond0_1 i)
    (x0 : Vec F S512x2048 .f32) (x1 : Vec F S1024x2048 .f32) (xs0 xs1 : Vec F S1x1024 .f32) :
    sout0_B_1 c i arg2 harg2 arg3 harg3 arg4 harg4 arg5 harg5 arg6 harg6 arg7 harg7 arg8 harg8 hc0 hc1 x0 x1 xs0 xs1 = k0_pay5 x1 x0 xs1 := by
  unfold sout0_B_1
  rw [View.read_writes_junk_eq_canon]
  unfold kernelRun0_B
  dsimp only
  sl_unfold_words
  rw [View.canon_unit_zero (S := S1x1024) hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- At a point of the write-out output 2 is left at the product of the two input blocks. -/
private theorem out0_C_2_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) :
    out0_C_2 c i arg2 harg2 arg3 harg3 arg4 harg4 arg5 harg5 arg6 harg6 arg7 harg7 arg8 harg8 hc0 hc1 x0 x1 xs0 xs1 = k0_pay3 x1 x0 := by
  unfold out0_C_2
  rw [View.read_writes_junk_eq_canon]
  unfold kernelRun0_C
  dsimp only
  sl_unfold_words
  rw [View.canon_unit_zero (S := S512x1024) hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- At a point of the write-out the first accumulator is left at the column sums added to what it held, -/
private theorem sout0_C_0_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) :
    sout0_C_0 c i arg2 harg2 arg3 harg3 arg4 harg4 arg5 harg5 arg6 harg6 arg7 harg7 arg8 harg8 hc0 hc1 x0 x1 xs0 xs1 = k0_pay4 x1 x0 xs0 := by
  unfold sout0_C_0
  rw [View.read_writes_junk_eq_canon]
  unfold kernelRun0_C
  dsimp only
  sl_unfold_words
  rw [View.canon_unit_zero (S := S1x1024) hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- the second at the column sums of squares added to what it held, -/
private theorem sout0_C_1_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) :
    sout0_C_1 c i arg2 harg2 arg3 harg3 arg4 harg4 arg5 harg5 arg6 harg6 arg7 harg7 arg8 harg8 hc0 hc1 x0 x1 xs0 xs1 = k0_pay5 x1 x0 xs1 := by
  unfold sout0_C_1
  rw [View.read_writes_junk_eq_canon]
  unfold kernelRun0_C
  dsimp only
  sl_unfold_words
  rw [View.canon_unit_zero (S := S1x1024) hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- and outputs 3 and 4 are left at the accumulators just updated: each is one store of a load of the accumulator after its update. -/
private theorem out0_C_3_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) :
    out0_C_3 c i arg2 harg2 arg3 harg3 arg4 harg4 arg5 harg5 arg6 harg6 arg7 harg7 arg8 harg8 hc0 hc1 x0 x1 xs0 xs1 = k0_pay4 x1 x0 xs0 := by
  unfold out0_C_3
  rw [View.read_writes_junk_eq_canon]
  unfold kernelRun0_C
  dsimp only
  sl_unfold_words
  rw [View.canon_unit_zero (S := S1x1024) hz0, View.readCov_unit_zero (S := S1x1024) _ hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-- The same for output 4 and the second accumulator. -/
private theorem out0_C_4_eq (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (hc0 : ¬cond0_0 i) (hc1 : cond0_1 i)
    (x0 : Vec F S512x2048 .f32) (x1 : Vec F S1024x2048 .f32) (xs0 xs1 : Vec F S1x1024 .f32) :
    out0_C_4 c i arg2 harg2 arg3 harg3 arg4 harg4 arg5 harg5 arg6 harg6 arg7 harg7 arg8 harg8 hc0 hc1 x0 x1 xs0 xs1 = k0_pay5 x1 x0 xs1 := by
  unfold out0_C_4
  rw [View.read_writes_junk_eq_canon]
  unfold kernelRun0_C
  dsimp only
  sl_unfold_words
  rw [View.canon_unit_zero (S := S1x1024) hz0, View.readCov_unit_zero (S := S1x1024) _ hz0]
  simp only [View.readAt_eq_ld, harg2.read_unread, harg3.read_unread, harg7.read_unread, harg8.read_unread, View.ld_unit_zero (S := S512x2048) hz0, View.ld_unit_zero (S := S1024x2048) hz0, View.ld_unit_zero (S := S1x1024) hz0]

/-! ## The accumulators after each point, and the outputs at the payloads -/

/-- What the two accumulators hold after point `n`: the last two components of the accumulation. -/
def acc0 (c : Dev nD) (n : ℕ) (hn : n < cfg0.N) : Vec F S1x1024 .f32 × Vec F S1x1024 .f32 :=
  ((outsAt0 V c n hn).2.2.2.1, (outsAt0 V c n hn).2.2.2.2)

/-- Output 2's staging buffer after the body, at every point: the product of the point's two input blocks. -/
theorem after0_2_eq (c : Dev nD) (t : Fin cfg0.N) : (dat0 V c).after 2 t = k0_pay3 (iblk0 V c 1 t) (iblk0 V c 0 t) := by
  rw [after0_2]
  by_cases h0 : t.val % 32 = 0
  · have h1 : ¬t.val % 32 = 31 := by omega
    rw [outsAt0_A V c t h0 h1]; dsimp only
    exact out0_A_2_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (fun h => h1 ((hcond0_1 t).mp h)) (iblk0 V c 0 t) (iblk0 V c 1 t)
  · by_cases h1 : t.val % 32 = 31
    · rw [outsAt0_C V c t h0 h1]; dsimp only
      exact out0_C_2_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]; dsimp only
      exact out0_B_2_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- At the first point of a row of the grid the accumulators restart from the zero rows. -/
theorem acc0_reset (c : Dev nD) (t : Fin cfg0.N) (h : t.val % 32 = 0) :
    acc0 V c t.val t.isLt = (k0_pay4 (iblk0 V c 1 t) (iblk0 V c 0 t) k0_pay1, k0_pay5 (iblk0 V c 1 t) (iblk0 V c 0 t) k0_pay2) := by
  have h0 : t.val % 32 = 0 := h
  have h1 : ¬t.val % 32 = 31 := by omega
  unfold acc0
  rw [outsAt0_A V c t h0 h1]; dsimp only
  exact congrArg₂ Prod.mk (sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (fun h => h1 ((hcond0_1 t).mp h)) (iblk0 V c 0 t) (iblk0 V c 1 t)) (sout0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (fun h => h1 ((hcond0_1 t).mp h)) (iblk0 V c 0 t) (iblk0 V c 1 t))

/-- At every other point they add the point's column sums to what the point before left. -/
theorem acc0_step (c : Dev nD) (t : Fin cfg0.N) (h : t.val % 32 ≠ 0) :
    acc0 V c t.val t.isLt = (k0_pay4 (iblk0 V c 1 t) (iblk0 V c 0 t) (acc0 V c (t.val - 1) (Nat.lt_of_le_of_lt (Nat.sub_le _ _) t.isLt)).1,
      k0_pay5 (iblk0 V c 1 t) (iblk0 V c 0 t) (acc0 V c (t.val - 1) (Nat.lt_of_le_of_lt (Nat.sub_le _ _) t.isLt)).2) := by
  have h0 : ¬t.val % 32 = 0 := h
  unfold acc0
  dsimp only
  by_cases h1 : t.val % 32 = 31
  · rw [outsAt0_C V c t h0 h1]; dsimp only
    exact congrArg₂ Prod.mk (sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)
  · rw [outsAt0_B V c t h0 h1]; dsimp only
    exact congrArg₂ Prod.mk (sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (sout0_B_1_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2)

/-- At the last point of a row output 3's staging buffer is left at the first accumulator, -/
theorem after0_3_flush (c : Dev nD) (t : Fin cfg0.N) (h : t.val % 32 = 31) : (dat0 V c).after 3 t = (acc0 V c t.val t.isLt).1 := by
  have h0 : ¬t.val % 32 = 0 := by omega
  have h1 : t.val % 32 = 31 := h
  rw [after0_3]; unfold acc0; dsimp only
  rw [outsAt0_C V c t h0 h1]; dsimp only
  exact (out0_C_3_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans (sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm

/-- and output 4's at the second. -/
theorem after0_4_flush (c : Dev nD) (t : Fin cfg0.N) (h : t.val % 32 = 31) : (dat0 V c).after 4 t = (acc0 V c t.val t.isLt).2 := by
  have h0 : ¬t.val % 32 = 0 := by omega
  have h1 : t.val % 32 = 31 := h
  rw [after0_4]; unfold acc0; dsimp only
  rw [outsAt0_C V c t h0 h1]; dsimp only
  exact (out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans (sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm

end Cert.Kernel.Hand

end
-- ==== Proof.KernelBits.Stage2.lean ====
import proofs.«125851_j120259085186_1_alg».proof.Proof.Gen.Kernel.Launch
import proofs.«125851_j120259085186_1_alg».proof.Proof.Gen.Kernel.Skeleton
import proofs.«125851_j120259085186_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second kernel region (custom_call 1, `cc1__stage2_kernel`), its class-A half

The region is a pointwise kernel over a 16×2 grid: at every point it reads a 1024×1024 block of the first
region's result and two 1×1024 rows (a scale and a shift), and stores `max (x · scale + shift) 0` into the
1024×1024 block of its result. Every window is fetched, and the output written back, at every point. All is
stated at a parameter `V`: the TensorCore's buffer contents when the region is entered. -/

-- membership in a rectangle of 1024×1024 extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t` of the second kernel's grid, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1 (the scale row). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for input window 2 (the shift row). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its staging buffer -/

abbrev r1_0 : Rect S1024x1024 := Rect.unit (s := S1024x1024) ![0, 0] S1024x1024.size inb_S1024x1024_S1024x1024_0_0
abbrev r1_1 : Rect S1x1024 := Rect.unit (s := S1x1024) ![0, 0] S1x1024.size inb_S1x1024_S1x1024_0_0
abbrev r1_2 : Rect S1x1024 := Rect.unit (s := S1x1024) ![0, 0] S1x1024.size inb_S1x1024_S1x1024_0_0
abbrev r1_3 : Rect S1024x1024 := Rect.unit (s := S1024x1024) ![0, 0] S1024x1024.size inb_S1024x1024_S1024x1024_0_0

/-! ## What the body leaves in the output window's buffer -/

/-- Window 3's staging buffer after the body, from the input windows' blocks: its one store as a piece, the
    payload the skeleton's. -/
def out1_3 (x0 : Vec F S1024x1024 .f32) (x1 x2 : Vec F S1x1024 .f32) : Vec F S1024x1024 .f32 :=
  View.canon [⟨r1_3, k1_pay1 (View.ld x0 r1_0) (View.ld x1 r1_1) (View.ld x2 r1_2)⟩]

/-- The one store is the whole buffer, so it covers it. -/
theorem cover1_3 (p0 : Vec F S1024x1024 .f32) (y : S1024x1024.Idx) :
    ∃ pc ∈ ([⟨r1_3, p0⟩] : List (View.Piece (Elt F) S1024x1024 .f32)), y ∈ pc.1.set :=
  View.cover_of_tiled [⟨r1_3, p0⟩] S1024x1024.size (by rfl) y

/-! ## The body's triple -/

set_option maxHeartbeats 1000000 in
/-- The kernel body on whole staging memrefs, the inputs' at read contents and the output's at anything (the body
    loads the output's buffer before storing into it, and never uses what it loaded), runs to the continuation
    holding the inputs' as they were and the output's at `out1_3` of the inputs'. -/
theorem sound_kernel1 (c : Dev nD) (E : Set ℕ) (i : grid1.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole)
    (x0 : Vec F S1024x1024 .f32) (x1 x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__stage2_kernel i arg2 harg2 arg3 harg3 arg4 harg4 arg5 harg5) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer at its block and the output's at `out1_3` of the input blocks; the invariant the class's
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelBits.MainRun.lean ====
import proofs.«125851_j120259085186_1_alg».proof.Proof.Gen.Kernel.Launch
import proofs.«125851_j120259085186_1_alg».proof.Proof.Gen.Kernel.Skeleton
import proofs.«125851_j120259085186_1_alg».proof.Proof.Gen.Kernel.Points
import proofs.«125851_j120259085186_1_alg».proof.Proof.KernelBits.Stage1
import proofs.«125851_j120259085186_1_alg».proof.Proof.KernelBits.Stage2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: region 0, the nineteen host operations, region 1

@main is three segments. The buffer contents at each boundary are a fold from the launch memory: a region leaves
its windows' arrays at what its write-backs fold to and every other buffer as entered; the host stretch leaves
`StableHlo.after` of its operations. Each region's proof data are taken at its entry contents. The run ends with
every unscoped buffer at the last boundary's contents, from which the argument arrays are read back to the launch
memory: no host operation writes one, and a region reads one through an input window or bypasses it. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch (region 0's entry: no host operation comes before it). -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded), every other buffer as entered. -/
def Wa (c : Dev nD) : Valuation τ sig (Elt F) :=
  Pipeline.withArrays spec0 c (W0 m ρ c) fun w => (dat0 (V0 m ρ) c).arrAt w cfg0.N
theorem Wa_arr (c : Dev nD) (w : Fin cfg0.W) :
    Wa m ρ c (Proc.devRef .tc (Pipeline.arrRef spec0 w)) = (dat0 (V0 m ρ) c).arrAt w cfg0.N := by
  unfold Wa; exact Pipeline.withArrays_arr spec0 launch0.win.arr_inj c _ _ w
theorem Wa_of_ne (c : Dev nD) (b : Ref sig .tc) (hb : ∀ w, Pipeline.arrRef spec0 w ≠ b) :
    Wa m ρ c (Proc.devRef .tc b) = W0 m ρ c (Proc.devRef .tc b) := by
  unfold Wa; exact Pipeline.withArrays_of_ne spec0 c _ _ b hb
/-- The same read at the TensorCore's references (region 0's exit contents). -/
abbrev Va : (c : Dev nD) → (b : Ref sig .tc) → Buf (Elt F) ((c : Thread nD τ).loc b) := fun c b => Wa m ρ c b
/-- At region 0's exit each of its arrays holds what the pipeline leaves and every other buffer what it held at entry. -/
theorem hF0 (c : Dev nD) (w : Fin cfg0.W) : (dat0 (V0 m ρ) c).arrAt w cfg0.N = Va m ρ c (Pipeline.arrRef spec0 w) :=
  (Wa_arr m ρ c w).symm
theorem hrest0 (c : Dev nD) : ∀ b, b ∉ Finset.univ.image (Pipeline.arrRef spec0) → Va m ρ c b = V0 m ρ c b :=
  fun b hb => Wa_of_ne m ρ c b fun w e => hb (Finset.mem_image.mpr ⟨w, Finset.mem_univ _, e⟩)

/-- After the nineteen host operations (region 1's entry). -/
abbrev Wb : Dev nD → Valuation τ sig (Elt F) := fun c => StableHlo.after hostOps1 (Wa m ρ c)
/-- The same read at the TensorCore's references (what region 1's proof data take). -/
abbrev Vb : (c : Dev nD) → (b : Ref sig .tc) → Buf (Elt F) ((c : Thread nD τ).loc b) := fun c b => Wb m ρ c b
/-- At region 1's exit: its arrays at what the pipeline leaves, every other buffer as entered. -/
def Wc (c : Dev nD) : Valuation τ sig (Elt F) :=
  Pipeline.withArrays spec1 c (Wb m ρ c) fun w => (dat1 (Vb m ρ) c).arrAt w cfg1.N
theorem Wc_arr (c : Dev nD) (w : Fin cfg1.W) :
    Wc m ρ c (Proc.devRef .tc (Pipeline.arrRef spec1 w)) = (dat1 (Vb m ρ) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m ρ c (Proc.devRef .tc b) = Wb m ρ c (Proc.devRef .tc b) := by
  unfold Wc; exact Pipeline.withArrays_of_ne spec1 c _ _ b hb
/-- The same read at the TensorCore's references (region 1's exit contents). -/
abbrev Vc : (c : Dev nD) → (b : Ref sig .tc) → Buf (Elt F) ((c : Thread nD τ).loc b) := fun c b => Wc m ρ c b
theorem hF1 (c : Dev nD) (w : Fin cfg1.W) : (dat1 (Vb m ρ) c).arrAt w cfg1.N = Vc m ρ c (Pipeline.arrRef spec1 w) :=
  (Wc_arr m ρ c w).symm
theorem hrest1 (c : Dev nD) : ∀ b, b ∉ Finset.univ.image (Pipeline.arrRef spec1) → Vc m ρ c b = Vb m ρ c b :=
  fun b hb => Wc_of_ne m ρ c b fun w e => hb (Finset.mem_image.mpr ⟨w, Finset.mem_univ _, e⟩)

/-! ### What region 0 leaves in its result arrays, and in the two arguments it does not touch -/

theorem Wa_main_v0_0 (c : Dev nD) : Wa m ρ c (Proc.devRef .tc main_v0_0) = (dat0 (V0 m ρ) c).arrAt 2 cfg0.N := Wa_arr m ρ c 2
theorem Wa_main_v0_1 (c : Dev nD) : Wa m ρ c (Proc.devRef .tc main_v0_1) = (dat0 (V0 m ρ) c).arrAt 3 cfg0.N := Wa_arr m ρ c 3
theorem Wa_main_v0_2 (c : Dev nD) : Wa m ρ c (Proc.devRef .tc main_v0_2) = (dat0 (V0 m ρ) c).arrAt 4 cfg0.N := Wa_arr m ρ c 4
theorem Wa_main_arg2 (c : Dev nD) : Wa m ρ c (Proc.devRef .tc main_arg2) = m ((c : Thread nD τ).loc main_arg2) :=
  (Wa_of_ne m ρ c main_arg2 (by decide)).trans rfl
theorem Wa_main_arg3 (c : Dev nD) : Wa m ρ c (Proc.devRef .tc main_arg3) = m ((c : Thread nD τ).loc main_arg3) :=
  (Wa_of_ne m ρ c main_arg3 (by decide)).trans rfl

/-! ### The arguments end as launched, and region 1's result array at what its pipeline leaves -/

theorem Wc_main_arg0 (c : Dev nD) : Wc m ρ c (Proc.devRef .tc main_arg0) = m ((c : Thread nD τ).loc main_arg0) :=
  calc Wc m ρ c (Proc.devRef .tc main_arg0)
    _ = Wb m ρ c (Proc.devRef .tc main_arg0) := Wc_of_ne m ρ c main_arg0 (by decide)
    _ = Wa m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (Wa_arr m ρ c 0).trans (((dat0 (V0 m ρ) c).arrAt_in 0 rfl _).trans (A_eq0 (V0 m ρ) c 0))
    _ = m ((c : Thread nD τ).loc main_arg0) := rfl
theorem Wc_main_arg1 (c : Dev nD) : Wc m ρ c (Proc.devRef .tc main_arg1) = m ((c : Thread nD τ).loc main_arg1) :=
  calc Wc m ρ c (Proc.devRef .tc main_arg1)
    _ = Wb m ρ c (Proc.devRef .tc main_arg1) := Wc_of_ne m ρ c main_arg1 (by decide)
    _ = Wa m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (Wa_arr m ρ c 1).trans (((dat0 (V0 m ρ) c).arrAt_in 1 rfl _).trans (A_eq0 (V0 m ρ) c 1))
    _ = m ((c : Thread nD τ).loc main_arg1) := rfl
theorem Wc_main_arg2 (c : Dev nD) : Wc m ρ c (Proc.devRef .tc main_arg2) = m ((c : Thread nD τ).loc main_arg2) :=
  calc Wc m ρ c (Proc.devRef .tc main_arg2)
    _ = Wb m ρ c (Proc.devRef .tc main_arg2) := Wc_of_ne m ρ c main_arg2 (by decide)
    _ = Wa m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := Wa_main_arg2 m ρ c
theorem Wc_main_arg3 (c : Dev nD) : Wc m ρ c (Proc.devRef .tc main_arg3) = m ((c : Thread nD τ).loc main_arg3) :=
  calc Wc m ρ c (Proc.devRef .tc main_arg3)
    _ = Wb m ρ c (Proc.devRef .tc main_arg3) := Wc_of_ne m ρ c main_arg3 (by decide)
    _ = Wa m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := Wa_main_arg3 m ρ c
theorem Wc_main_v17 (c : Dev nD) : Wc m ρ c (Proc.devRef .tc main_v17) = (dat1 (Vb m ρ) c).arrAt 3 cfg1.N := Wc_arr m ρ c 3

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (Vb m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (Wc m ρ c) ∗ ∃ r, prngReg c r)

/-! ## The regions as segments -/

-- a library lemma stated over `pin pcs a p` unifies with the pinned configuration only when unification may
-- unfold plain definitions in a metavariable's type
set_option backward.isDefEq.respectTransparency.types false in
/-- REGION 0 (custom_call 0) over the thread state: its arrays split out of the unscoped buffers and put back at
    the exit contents; the generator register into the class invariant and out; nothing owed; no semaphore of the
    kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (Wa m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun w => A_eq0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the class invariant first, then region 0's own invariant at the first point from it
    have h0 := hin0 (V0 m ρ) c
    rw [show (pdats m ρ 0 c).Φ 0 = (dat0 (V0 m ρ) c).Φ 0 from rfl]
    iintro ⟨Hp, -, Hr⟩
    iapply h0
    unfold Pipeline.ΦA
    isplitl [Hr]; · iexact Hr
    iexact Hp
  hout c := by
    -- region 0's own invariant at the last point gives the class invariant back, which is then taken apart
    have h0 := hout0 (V0 m ρ) c
    unfold Pipeline.ΦA at h0
    rw [Pipeline.ownSems0_none, show (pdats m ρ 0 c).Φ (Fin.last _) = (dat0 (V0 m ρ) c).Φ (Fin.last cfg0.N) from rfl]
    iintro H
    ihave H' := h0 $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (Va m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 1 (custom_call 1) over the thread state: its arrays split out of the unscoped buffers and put back at
    the exit contents; the generator register into the class invariant and out; nothing owed; no semaphore of the
    kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (Wb m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun w => A_eq1 (Vb m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .region (reg0 m ρ),
    .host (hseg hostOps1 hostOps1_sub hostOps1_fresh (Wa m ρ)),
    .region (reg1 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at the last boundary's
    contents `Wc`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wc m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc m ρ c b)
    (hfin := fun c s' => by
      iintro ⟨⟨Hh, -⟩, HSI⟩
      unfold StableHlo.held
      imodintro
      iapply (pointsTo_read_all (Pipeline.ucRefs τ sig) (fun b => (((c : Thread nD τ)).1, b)) (Wc m ρ c) s')
      isplitl [Hh] <;> iassumption)
    (hQ := fun _ h => h)

/-- THE FRAME, at any `F`: every final state has the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Wc_main_arg0 m ρ c),
     (h c _ (mem_uc main_arg1 (by decide))).trans (Wc_main_arg1 m ρ c),
     (h c _ (mem_uc main_arg2 (by decide))).trans (Wc_main_arg2 m ρ c),
     (h c _ (mem_uc main_arg3 (by decide))).trans (Wc_main_arg3 m ρ c)⟩) (run_all m ρ)

end Cert.Kernel.Hand

end
-- ==== Proof.Spec.lean ====
/-
  The function both programs compute, written once, index by index, on the extended reals.

  For an input x : [16384, 2048], a weight w : [2048, 2048], a gain g and an offset b : [2048]:
  the weight is replaced by its sign (+1 where w ≥ 0, else −1); the linear layer's entry is
  Y r o = ∑ k, x r k · sgn (w o k); per output channel o the batch statistics are taken over the
  16384 rows. The kernel's program forms the variance as E[Y²] − E[Y]² and folds the normalisation
  into a scale and a shift; the reference forms E[(Y − E[Y])²] and normalises the centred entry.
  Both end with a maximum against zero. `outK` and `outR` are the two formulas; `Law.lean` shows they
  agree where every entry of Y and the gain and offset are real numbers.
-/
import Idealize.ShloMosaic.PureOps.Ideal
import Idealize.ShloMosaic.PureOps.Ideal.Laws
import Idealize.ShloMosaic.Lib.ValueIdx

noncomputable section

namespace Cert.SignBN

open Idealize.ShloMosaic Idealize.ShloMosaic.ValueIdx
open scoped BigOperators

/-- The shapes of the four arguments and of the result. -/
abbrev SX : Shape := ⟨2, ![16384, 2048]⟩
abbrev SW : Shape := ⟨2, ![2048, 2048]⟩
abbrev SV : Shape := ⟨1, ![2048]⟩

/-- The five float literals of the two programs, as the extended reals their words denote:
    0, 1, −1, the row count 16384 and the variance's epsilon. -/
abbrev zeroW : EReal := Ideal.ofBits .f32 0x00000000#32
abbrev oneW : EReal := Ideal.ofBits .f32 0x3F800000#32
abbrev negOneW : EReal := Ideal.ofBits .f32 0xBF800000#32
abbrev rowsW : EReal := Ideal.ofBits .f32 0x46800000#32
abbrev epsW : EReal := Ideal.ofBits .f32 0x3727C5AC#32

/-- The binarized weight: +1 where the weight is at least zero, −1 elsewhere. -/
def sgn (v : EReal) : EReal :=
  Scalar.select (FloatOps.cmpf (F := Ideal) (φ := .f32) .oge v zeroW) oneW negOneW

/-- The linear layer: row r of x against the signs of row o of w. -/
def Y (x : SX.Idx → EReal) (w : SW.Idx → EReal) (r : Fin 16384) (o : Fin 2048) : EReal :=
  ∑ k : Fin 2048, x (ix2 r k) * sgn (w (ix2 o k))

/-- Channel o's sum and sum of squares over the batch. -/
def colSum (x : SX.Idx → EReal) (w : SW.Idx → EReal) (o : Fin 2048) : EReal := ∑ r : Fin 16384, Y x w r o
def colSumSq (x : SX.Idx → EReal) (w : SW.Idx → EReal) (o : Fin 2048) : EReal :=
  ∑ r : Fin 16384, Y x w r o * Y x w r o

/-- The batch mean of channel o. -/
def mean (x : SX.Idx → EReal) (w : SW.Idx → EReal) (o : Fin 2048) : EReal := Ideal.div (colSum x w o) rowsW

/-- The kernel's variance, scale and shift, and its result entry. -/
def varK (x : SX.Idx → EReal) (w : SW.Idx → EReal) (o : Fin 2048) : EReal :=
  Ideal.div (colSumSq x w o) rowsW - mean x w o * mean x w o
def scaleK (x : SX.Idx → EReal) (w : SW.Idx → EReal) (g : SV.Idx → EReal) (o : Fin 2048) : EReal :=
  g (ix1 o) * Ideal.rsqrt (varK x w o + epsW)
def shiftK (x : SX.Idx → EReal) (w : SW.Idx → EReal) (g b : SV.Idx → EReal) (o : Fin 2048) : EReal :=
  b (ix1 o) - mean x w o * scaleK x w g o
def outK (x : SX.Idx → EReal) (w : SW.Idx → EReal) (g b : SV.Idx → EReal) (r : Fin 16384) (o : Fin 2048) : EReal :=
  max (Y x w r o * scaleK x w g o + shiftK x w g b o) zeroW

/-- The reference's variance and its result entry. -/
def varR (x : SX.Idx → EReal) (w : SW.Idx → EReal) (o : Fin 2048) : EReal :=
  Ideal.div (∑ r : Fin 16384, (Y x w r o - mean x w o) * (Y x w r o - mean x w o)) rowsW
def outR (x : SX.Idx → EReal) (w : SW.Idx → EReal) (g b : SV.Idx → EReal) (r : Fin 16384) (o : Fin 2048) : EReal :=
  max ((Y x w r o - mean x w o) * (g (ix1 o) * Ideal.rsqrt (varR x w o + epsW)) + b (ix1 o)) zeroW

/-- The two results as arrays. -/
def resK (x : SX.Idx → EReal) (w : SW.Idx → EReal) (g b : SV.Idx → EReal) : SX.Idx → EReal :=
  fun i => outK x w g b (i 0) (i 1)
def resR (x : SX.Idx → EReal) (w : SW.Idx → EReal) (g b : SV.Idx → EReal) : SX.Idx → EReal :=
  fun i => outR x w g b (i 0) (i 1)

end Cert.SignBN

end
-- ==== Proof.Payloads.lean ====
/-
  The stored values of the two kernels, read at an index, on the extended reals.

  The first kernel's body computes, from a block X : [512, 2048] of the input and a block W : [1024, 2048] of the
  weight, the block of the linear layer
      Y p q = ∑ k, X p k · sgn (W q k)
  (the weight's signs against the input's rows, contracted over both operands' second axis), and adds to two
  running rows s : [1, 1024] the column sums ∑ p, Y p q and ∑ p, Y p q · Y p q; at the first step of the
  reduction it stores zero rows. The second kernel's body computes max (y p q · s q + sh q) 0 from a block
  y : [1024, 1024] and two rows s, sh : [1, 1024]. On the extended reals every operation is exact and a change
  of format is the identity, so each stored value at an index is the formula itself.
-/
import proofs.«125851_j120259085186_1_alg».proof.Proof.Gen.KernelIdeal.Skeleton
import proofs.«125851_j120259085186_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.SignBN Idealize.ShloMosaic Idealize.ShloMosaic.ValueIdx
open scoped BigOperators

variable [Cert.KernelIdeal.Facts]

/-! ## The zero rows stored at the first step -/

/-- The first zero row: the zero word everywhere. -/
theorem pay1_apply (q : Fin 1024) : k0_pay1 (F := Ideal) (ix2 (0 : Fin 1) q) = 0 := by
  unfold k0_pay1
  rw [shapeCast_self]
  exact Ideal.ofBits_zero_f32

/-- The second zero row likewise. -/
theorem pay2_apply (q : Fin 1024) : k0_pay2 (F := Ideal) (ix2 (0 : Fin 1) q) = 0 := by
  unfold k0_pay2
  rw [shapeCast_self]
  exact Ideal.ofBits_zero_f32

/-! ## The second kernel: scale, shift, maximum with zero -/

/-- The second kernel's stored value at (p, q): the block's entry times the scale row's entry q plus the shift row's
    entry q, against zero. -/
theorem stage2_apply (y : Vec Ideal S1024x1024 .f32) (s sh : Vec Ideal S1x1024 .f32) (p q : Fin 1024) :
    k1_pay1 (F := Ideal) y s sh (ix2 p q) = max (y (ix2 p q) * s (ix2 (0 : Fin 1) q) + sh (ix2 (0 : Fin 1) q)) zeroW := by
  unfold k1_pay1
  simp only [shapeCast_self]
  show max (y (ix2 p q) * broadcastTo S1024x1024 s broadcasts_S1x1024_S1024x1024 (ix2 p q)
      + broadcastTo S1024x1024 sh broadcasts_S1x1024_S1024x1024 (ix2 p q)) zeroW = _
  rw [broadcastTo_1b_ab_apply, broadcastTo_1b_ab_apply]

/-! ## The linear layer's block -/

/-- The left operand's index at output index i and contraction index c: its row is the output's row … -/
theorem lhs_pay3_0 (i : S512x1024.Idx) (c : dot_S512x2048_S1024x2048_S512x1024_1_1_0_0_n_n.contr.Idx) :
    (dot_S512x2048_S1024x2048_S512x1024_1_1_0_0_n_n.lhsIdx i c 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
/-- … and its column is the contraction coordinate. -/
theorem lhs_pay3_1 (i : S512x1024.Idx) (c : dot_S512x2048_S1024x2048_S512x1024_1_1_0_0_n_n.contr.Idx) :
    (dot_S512x2048_S1024x2048_S512x1024_1_1_0_0_n_n.lhsIdx i c 1).val = (c ⟨0, by decide⟩).val :=
  dot_S512x2048_S1024x2048_S512x1024_1_1_0_0_n_n.lhsIdx_val_of_single rfl i c
/-- The right operand's index: its row is the output's column … -/
theorem rhs_pay3_0 (i : S512x1024.Idx) (c : dot_S512x2048_S1024x2048_S512x1024_1_1_0_0_n_n.contr.Idx) :
    (dot_S512x2048_S1024x2048_S512x1024_1_1_0_0_n_n.rhsIdx i c 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
/-- … and its column is the contraction coordinate. -/
theorem rhs_pay3_1 (i : S512x1024.Idx) (c : dot_S512x2048_S1024x2048_S512x1024_1_1_0_0_n_n.contr.Idx) :
    (dot_S512x2048_S1024x2048_S512x1024_1_1_0_0_n_n.rhsIdx i c 1).val = (c ⟨0, by decide⟩).val :=
  dot_S512x2048_S1024x2048_S512x1024_1_1_0_0_n_n.rhsIdx_val_of_single rfl i c

/-- The block of the linear layer at (p, q): row p of the input block against the signs of row q of the weight block. -/
theorem pay3_apply (W : Vec Ideal S1024x2048 .f32) (X : Vec Ideal S512x2048 .f32) (p : Fin 512) (q : Fin 1024) :
    k0_pay3 (F := Ideal) W X (ix2 p q) = ∑ k : Fin 2048, X (ix2 p k) * sgn (W (ix2 q k)) := by
  unfold k0_pay3
  refine (Ideal.matmul_constant_zero_apply dot_S512x2048_S1024x2048_S512x1024_1_1_0_0_n_n none _ _ (ix2 p q)).trans ?_
  rw [← Equiv.sum_comp (ValueIdx.contrEquiv1 dot_S512x2048_S1024x2048_S512x1024_1_1_0_0_n_n 2048 rfl rfl).symm]
  refine Finset.sum_congr rfl fun k _ => ?_
  have hk := ValueIdx.contrEquiv1_symm_val dot_S512x2048_S1024x2048_S512x1024_1_1_0_0_n_n 2048 rfl rfl k
  have el : dot_S512x2048_S1024x2048_S512x1024_1_1_0_0_n_n.lhsIdx (ix2 p q) ((ValueIdx.contrEquiv1 dot_S512x2048_S1024x2048_S512x1024_1_1_0_0_n_n 2048 rfl rfl).symm k) = ix2 p k := funext fun a => Fin.ext (by
    match a with
    | ⟨0, _⟩ => exact lhs_pay3_0 _ _
    | ⟨1, _⟩ => exact (lhs_pay3_1 _ _).trans hk)
  have er : dot_S512x2048_S1024x2048_S512x1024_1_1_0_0_n_n.rhsIdx (ix2 p q) ((ValueIdx.contrEquiv1 dot_S512x2048_S1024x2048_S512x1024_1_1_0_0_n_n 2048 rfl rfl).symm k) = ix2 q k := funext fun a => Fin.ext (by
    match a with
    | ⟨0, _⟩ => exact rhs_pay3_0 _ _
    | ⟨1, _⟩ => exact (rhs_pay3_1 _ _).trans hk)
  rw [el, er]
  rfl

/-! ## The running column sums -/

/-- The sum over the rows of a [512, 1024] block, as a [1, 1024] row, read at column q. -/
theorem colsum_apply (v : FVec Ideal S512x1024 .f32) (q : Fin 1024) :
    shapeCast S1x1024 (multiReduction (F := Ideal) .add [0] S1024 v 0x00000000#32 reduces_S512x1024_S1024 (.inl rfl) rfl)
        shapeCasts_S1024_S1x1024 (ix2 (0 : Fin 1) q)
      = ∑ p : Fin 512, v (ix2 p q) := by
  refine (shapeCast_a_1a_apply _ shapeCasts_S1024_S1x1024 (0 : Fin 1) q).trans ?_
  refine (Ideal.multiReduction_add_single (φ := .f32) v 0x00000000#32 reduces_S512x1024_S1024 (.inl rfl) rfl (ix1 q)).trans ?_
  refine Finset.sum_congr rfl fun p _ => ?_
  exact congrArg v (funext fun a => Fin.ext (by match a with | ⟨0, _⟩ => rfl | ⟨1, _⟩ => rfl))

/-- The first running row after the step: the row before it plus the block's column sums. -/
theorem pay4_apply (W : Vec Ideal S1024x2048 .f32) (X : Vec Ideal S512x2048 .f32) (s : Vec Ideal S1x1024 .f32) (q : Fin 1024) :
    k0_pay4 (F := Ideal) W X s (ix2 (0 : Fin 1) q) = s (ix2 (0 : Fin 1) q) + ∑ p : Fin 512, k0_pay3 (F := Ideal) W X (ix2 p q) := by
  unfold k0_pay4
  rw [shapeCast_self]
  exact congrArg (s (ix2 (0 : Fin 1) q) + ·) (colsum_apply (k0_pay3 (F := Ideal) W X) q)

/-- The second running row after the step: the row before it plus the column sums of the block's squares. -/
theorem pay5_apply (W : Vec Ideal S1024x2048 .f32) (X : Vec Ideal S512x2048 .f32) (s : Vec Ideal S1x1024 .f32) (q : Fin 1024) :
    k0_pay5 (F := Ideal) W X s (ix2 (0 : Fin 1) q) = s (ix2 (0 : Fin 1) q) + ∑ p : Fin 512, k0_pay3 (F := Ideal) W X (ix2 p q) * k0_pay3 (F := Ideal) W X (ix2 p q) := by
  unfold k0_pay5
  rw [shapeCast_self]
  exact congrArg (s (ix2 (0 : Fin 1) q) + ·)
    (colsum_apply (mulf (k0_pay3 (F := Ideal) W X) (k0_pay3 (F := Ideal) W X)) q)

end Cert.KernelIdeal.Hand

end
-- ==== Proof.Stage1Blocks.lean ====
/-
  The first kernel's grid, read as arithmetic. Its 64 points are t = o·32 + b with o = t / 32 the tile of 1024
  output channels and b = t % 32 the tile of 512 batch rows. The printed index maps of its five windows are
  decided once over the grid; the two input blocks at a point are then rows of the two argument arrays, and
  the matmul payload on those blocks is the linear layer's entry Y at the row and channel the point covers.
-/
import proofs.«125851_j120259085186_1_alg».proof.Proof.Stage1
import proofs.«125851_j120259085186_1_alg».proof.Proof.Payloads
import proofs.«125851_j120259085186_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SignBN Idealize.ShloMosaic.ValueIdx
open scoped BigOperators

local notation "𝕄" => MT nD τ sig Unit (Elt Ideal) ℕ (UR sig nD τ) ℕ

variable (V : (c : Dev nD) → (b : Ref sig .tc) → Buf (Elt Ideal) ((c : Thread nD τ).loc b))

/-- The printed index maps over the 64 grid points: point t is batch tile t % 32 of output-channel tile t / 32. -/
theorem idx0 : ∀ t : Fin cfg0.N, (cfg0.win 0).index t (0 : Fin 2) = t.val % 32 ∧ (cfg0.win 0).index t (1 : Fin 2) = 0 :=
  (by decide +kernel : ∀ t : Fin grid0.N, win0_0.index t 0 = t.val % 32 ∧ win0_0.index t 1 = 0)
theorem idx1 : ∀ t : Fin cfg0.N, (cfg0.win 1).index t (0 : Fin 2) = t.val / 32 ∧ (cfg0.win 1).index t (1 : Fin 2) = 0 :=
  (by decide +kernel : ∀ t : Fin grid0.N, win0_1.index t 0 = t.val / 32 ∧ win0_1.index t 1 = 0)
theorem idx2 : ∀ t : Fin cfg0.N, (cfg0.win 2).index t (0 : Fin 2) = t.val % 32 ∧ (cfg0.win 2).index t (1 : Fin 2) = t.val / 32 :=
  (by decide +kernel : ∀ t : Fin grid0.N, win0_2.index t 0 = t.val % 32 ∧ win0_2.index t 1 = t.val / 32)
theorem idx3 : ∀ t : Fin cfg0.N, (cfg0.win 3).index t (0 : Fin 2) = 0 ∧ (cfg0.win 3).index t (1 : Fin 2) = t.val / 32 :=
  (by decide +kernel : ∀ t : Fin grid0.N, win0_3.index t 0 = 0 ∧ win0_3.index t 1 = t.val / 32)
theorem idx4 : ∀ t : Fin cfg0.N, (cfg0.win 4).index t (0 : Fin 2) = 0 ∧ (cfg0.win 4).index t (1 : Fin 2) = t.val / 32 :=
  (by decide +kernel : ∀ t : Fin grid0.N, win0_4.index t 0 = 0 ∧ win0_4.index t 1 = t.val / 32)

/-- A grid point's batch-tile row and output-channel-tile column stay inside the arrays. -/
theorem row_lt (t : Fin cfg0.N) (p : Fin 512) : (t.val % 32) * 512 + p.val < 16384 := by
  have := p.isLt; omega
theorem col_lt (t : Fin cfg0.N) (q : Fin 1024) : (t.val / 32) * 1024 + q.val < 2048 := by
  have := t.isLt; have : cfg0.N = 64 := N_0; have := q.isLt; omega

/-- The block of window 0 (the input x) at point t is rows (t % 32)·512 … (t % 32)·512 + 511 of the first argument. -/
theorem iblk0_0_apply (c : Dev nD) (t : Fin cfg0.N) (p : Fin 512) (k : Fin 2048) :
    iblk0 V c 0 t (ix2 p k) = V c main_arg0 (ix2 ⟨(t.val % 32) * 512 + p.val, row_lt t p⟩ k) := by
  obtain ⟨e0, e1⟩ := idx0 t
  unfold iblk0
  rw [View.read_apply]
  show V c main_arg0 _ = V c main_arg0 _
  congr 1
  funext a
  apply Fin.ext
  match a with
  | ⟨0, _⟩ => show win0_0.index t 0 * 512 + 1 * p.val = (t.val % 32) * 512 + p.val; rw [e0]; omega
  | ⟨1, _⟩ => show win0_0.index t 1 * 2048 + 1 * k.val = k.val; rw [e1]; omega

/-- The block of window 1 (the weight) at point t is rows (t / 32)·1024 … (t / 32)·1024 + 1023 of the second argument. -/
theorem iblk0_1_apply (c : Dev nD) (t : Fin cfg0.N) (q : Fin 1024) (k : Fin 2048) :
    iblk0 V c 1 t (ix2 q k) = V c main_arg1 (ix2 ⟨(t.val / 32) * 1024 + q.val, col_lt t q⟩ k) := by
  obtain ⟨e0, e1⟩ := idx1 t
  unfold iblk0
  rw [View.read_apply]
  show V c main_arg1 _ = V c main_arg1 _
  congr 1
  funext a
  apply Fin.ext
  match a with
  | ⟨0, _⟩ => show win0_1.index t 0 * 1024 + 1 * q.val = (t.val / 32) * 1024 + q.val; rw [e0]; omega
  | ⟨1, _⟩ => show win0_1.index t 1 * 2048 + 1 * k.val = k.val; rw [e1]; omega

/-- The matmul payload on the point's two blocks is the linear layer's entry at the row and channel the point covers. -/
theorem pay3_at (c : Dev nD) (t : Fin cfg0.N) (p : Fin 512) (q : Fin 1024) :
    k0_pay3 (F := Ideal) (iblk0 V c 1 t) (iblk0 V c 0 t) (ix2 p q)
      = Y (V c main_arg0) (V c main_arg1) ⟨(t.val % 32) * 512 + p.val, row_lt t p⟩ ⟨(t.val / 32) * 1024 + q.val, col_lt t q⟩ := by
  rw [pay3_apply]
  unfold Y
  refine Finset.sum_congr rfl fun k _ => ?_
  rw [iblk0_0_apply, iblk0_1_apply]

end Cert.KernelIdeal.Hand

end
-- ==== Proof.Stage1ValueY.lean ====
/-
  The first result of the first kernel. Window 2's block at grid point t = o·32 + b is rows b·512 … and
  channels o·1024 … of the [16384, 2048] array, every point writes its block back, and what it writes is the
  matmul payload on the point's two input blocks: the linear layer's entries Y at those rows and channels.
  The 64 blocks tile the array, so it ends holding Y at every row and channel.
-/
import proofs.«125851_j120259085186_1_alg».proof.Proof.Stage1
import proofs.«125851_j120259085186_1_alg».proof.Proof.Payloads
import proofs.«125851_j120259085186_1_alg».proof.Proof.Stage1Blocks
import proofs.«125851_j120259085186_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SignBN Idealize.ShloMosaic.ValueIdx
open scoped BigOperators

local notation "𝕄" => MT nD τ sig Unit (Elt Ideal) ℕ (UR sig nD τ) ℕ

variable (V : (c : Dev nD) → (b : Ref sig .tc) → Buf (Elt Ideal) ((c : Thread nD τ).loc b))

/-- What window 2's array ends holding: the linear layer's entry at each row and channel. -/
abbrev GY (c : Dev nD) : S16384x2048.Idx → EReal := fun i => Y (V c main_arg0) (V c main_arg1) (i 0) (i 1)

/-- What point t writes back through window 2, at an index of the block, is the linear layer's entry there. -/
theorem flushed2_apply (c : Dev nD) (t : Fin cfg0.N) (p : Fin 512) (q : Fin 1024) :
    (dat0 V c).flushed 2 t (ix2 p q) = ((cfg0.win 2).blk t).view.read (Elt Ideal) (GY V c) (ix2 p q) := by
  obtain ⟨e0, e1⟩ := idx2 t
  rw [View.read_apply]
  show (cfg0.win 2).cut (grid0.coords t) ((dat0 V c).after 2 t) (ix2 p q) = GY V c (((cfg0.win 2).blk t).view.emb (ix2 p q))
  rw [after0_2_eq]
  show k0_pay3 (F := Ideal) (iblk0 V c 1 t) (iblk0 V c 0 t) (ix2 p q) = _
  rw [pay3_at]
  have h0 : (⟨(t.val % 32) * 512 + p.val, row_lt t p⟩ : Fin 16384) = ((cfg0.win 2).blk t).view.emb (ix2 p q) 0 := by
    apply Fin.ext
    show (t.val % 32) * 512 + p.val = win0_2.index t 0 * 512 + 1 * p.val
    rw [e0]; omega
  have h1 : (⟨(t.val / 32) * 1024 + q.val, col_lt t q⟩ : Fin 2048) = ((cfg0.win 2).blk t).view.emb (ix2 p q) 1 := by
    apply Fin.ext
    show (t.val / 32) * 1024 + q.val = win0_2.index t 1 * 1024 + 1 * q.val
    rw [e1]; omega
  rw [h0, h1]

/-- So point t's write-back is block t of that array. -/
theorem flushed2_eq (c : Dev nD) (t : Fin cfg0.N) :
    (dat0 V c).flushed 2 t = ((cfg0.win 2).blk t).view.read (Elt Ideal) (GY V c) := by
  funext j
  have hj : j = ix2 (j 0 : Fin 512) (j 1 : Fin 1024) := eq_ix2 (n0 := 512) (n1 := 1024) j
  calc (dat0 V c).flushed 2 t j = (dat0 V c).flushed 2 t (ix2 (j 0 : Fin 512) (j 1 : Fin 1024)) := congrArg _ hj
    _ = ((cfg0.win 2).blk t).view.read (Elt Ideal) (GY V c) (ix2 (j 0 : Fin 512) (j 1 : Fin 1024)) := flushed2_apply V c t _ _
    _ = ((cfg0.win 2).blk t).view.read (Elt Ideal) (GY V c) j := congrArg _ hj.symm

/-- An index of the array is in point t's block iff each coordinate is in the block's range on its axis. -/
theorem mem_blk2 (t : Fin cfg0.N) (i : S16384x2048.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0_0).slice (win0_2.rect t)).set ↔ _
  rw [View.set_slice_whole, Rect.mem_set_unit]
  exact Iff.rfl

/-- Every row and channel is in the block of the point of its batch tile and channel tile. -/
theorem cover2 (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  have hN : cfg0.N = 64 := N_0
  obtain ⟨t, ht⟩ : ∃ t : Fin cfg0.N, t.val = ((i 1).val / 1024) * 32 + (i 0).val / 512 := ⟨⟨_, by omega⟩, rfl⟩
  refine ⟨t, flush0_2 t, ?_⟩
  rw [mem_blk2]
  obtain ⟨e0, e1⟩ := idx2 t
  intro a
  match a with
  | ⟨0, _⟩ => show win0_2.index t 0 * 512 ≤ (i 0).val ∧ (i 0).val < win0_2.index t 0 * 512 + 512; rw [e0]; omega
  | ⟨1, _⟩ => show win0_2.index t 1 * 1024 ≤ (i 1).val ∧ (i 1).val < win0_2.index t 1 * 1024 + 1024; rw [e1]; omega

/-- THE FIRST RESULT after the first kernel's region: the linear layer's entry at every row and channel. -/
theorem stage1_y (c : Dev nD) :
    (dat0 (F := Ideal) V c).arrAt 2 cfg0.N = fun i => Y (V c main_arg0) (V c main_arg1) (i 0) (i 1) :=
  (dat0 V c).arrAt_eq_of_cover 2 (GY V c) (fun t _ => flushed2_eq V c t) cover2

end Cert.KernelIdeal.Hand

end
-- ==== Proof.Stage1ValueSums.lean ====
/-
  The second and third results of the first kernel: the two [1, 2048] rows of sums.

  The grid's 64 points are t = o·32 + b. Over the run of 32 points of one channel tile o the body keeps two
  running rows s₁, s₂ : [1, 1024]: at the run's first point (b = 0) it stores zero rows, and at every point it adds
  to s₁ the column sums ∑ p, Y p q of the point's [512, 1024] block of the linear layer and to s₂ the column sums of
  the block's squares. So after the run's last point (b = 31) the rows hold, at column q,
      ∑ b < 32, ∑ p < 512, Y (b·512 + p) (o·1024 + q)   and the same with squares,
  which re-indexed over r = b·512 + p are the sums over all 16384 rows: the Spec's colSum and colSumSq of channel
  o·1024 + q. Windows 3 and 4 write the rows back at exactly those last points, into columns o·1024 … of their
  [1, 2048] arrays; the two blocks tile each array, so the arrays end holding colSum and colSumSq at every channel.
-/
import proofs.«125851_j120259085186_1_alg».proof.Proof.Gen.KernelIdeal.Launch
import proofs.«125851_j120259085186_1_alg».proof.Proof.Gen.KernelIdeal.Skeleton
import proofs.«125851_j120259085186_1_alg».proof.Proof.Gen.KernelIdeal.Points
import proofs.«125851_j120259085186_1_alg».proof.Proof.Stage1
import proofs.«125851_j120259085186_1_alg».proof.Proof.Stage1Blocks
import proofs.«125851_j120259085186_1_alg».proof.Proof.Payloads
import proofs.«125851_j120259085186_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SignBN Idealize.ShloMosaic.ValueIdx
open scoped BigOperators

local notation "𝕄" => MT nD τ sig Unit (Elt Ideal) ℕ (UR sig nD τ) ℕ

variable (V : (c : Dev nD) → (b : Ref sig .tc) → Buf (Elt Ideal) ((c : Thread nD τ).loc b))

/-! ## Re-indexing: 32 tiles of 512 rows are the 16384 rows -/

/-- A sum over m runs of n consecutive naturals is the sum over the first m·n naturals. -/
theorem sum_range_mul_fin (m n : ℕ) (g : ℕ → EReal) :
    ∑ s ∈ Finset.range m, ∑ p : Fin n, g (s * n + p.val) = ∑ r : Fin (m * n), g r.val := by
  rw [Finset.sum_range, ← Equiv.sum_comp finProdFinEquiv (fun r : Fin (m * n) => g r.val), Fintype.sum_prod_type]
  refine Finset.sum_congr rfl fun s _ => Finset.sum_congr rfl fun p _ => ?_
  congr 1
  rw [finProdFinEquiv_apply_val, Nat.mul_comm, Nat.add_comm]

/-- The 32 batch tiles of 512 rows each are the 16384 rows. -/
theorem sum_rows (g : ℕ → EReal) :
    ∑ s ∈ Finset.range 32, ∑ p : Fin 512, g (s * 512 + p.val) = ∑ r : Fin 16384, g r.val :=
  sum_range_mul_fin 32 512 g

/-- The linear layer's entry depends on the row and the channel only through their values. -/
theorem Y_congr (x : SX.Idx → EReal) (w : SW.Idx → EReal) {a a' : Fin 16384} {b b' : Fin 2048}
    (ha : a.val = a'.val) (hb : b.val = b'.val) : Y x w a b = Y x w a' b' := by
  obtain rfl := Fin.ext ha
  obtain rfl := Fin.ext hb
  rfl

/-! ## The two running rows as folds over a run of 32 points -/

/-- The accumulator pair depends on the point only through its number. -/
theorem acc0_congr (c : Dev nD) {u v : ℕ} (hu : u < cfg0.N) (hv : v < cfg0.N) (e : u = v) :
    acc0 V c u hu = acc0 V c v hv := by subst e; rfl

/-- Point n's addend to the first running row at column q: the column sum of the point's block of the linear
    layer (zero past the grid, where it is never read). -/
def addSum (c : Dev nD) (n : ℕ) (q : Fin 1024) : EReal :=
  if hn : n < cfg0.N then
    ∑ p : Fin 512, k0_pay3 (F := Ideal) (iblk0 V c 1 ⟨n, hn⟩) (iblk0 V c 0 ⟨n, hn⟩) (ix2 p q)
  else 0

/-- Point n's addend to the second running row at column q: the column sum of the squares of the point's block. -/
def addSq (c : Dev nD) (n : ℕ) (q : Fin 1024) : EReal :=
  if hn : n < cfg0.N then
    ∑ p : Fin 512, k0_pay3 (F := Ideal) (iblk0 V c 1 ⟨n, hn⟩) (iblk0 V c 0 ⟨n, hn⟩) (ix2 p q)
      * k0_pay3 (F := Ideal) (iblk0 V c 1 ⟨n, hn⟩) (iblk0 V c 0 ⟨n, hn⟩) (ix2 p q)
  else 0

/-- At the last point 32·o + 31 of channel tile o's run, the first running row at column q is the sum of the 32
    points' addends: the reset point stores zero and adds its own, every later point adds its own. -/
theorem acc1_run (c : Dev nD) (o : ℕ) (h : 32 * o + 31 < cfg0.N) (q : Fin 1024) :
    (acc0 V c (32 * o + 31) h).1 (ix2 (0 : Fin 1) q) = ∑ s ∈ Finset.range 32, addSum V c (32 * o + s) q := by
  have e1 := Pipeline.eq_accAt (N := cfg0.N) (α := Fin 1024 → EReal)
    (fun n hn q => (acc0 V c n hn).1 (ix2 (0 : Fin 1) q)) 32
    (fun n hn q => 0 + addSum V c n q)
    (fun n hn s q => s q + addSum V c n q)
    (fun n hn hmod => by
      funext q
      show (acc0 V c n hn).1 (ix2 (0 : Fin 1) q) = 0 + addSum V c n q
      rw [show acc0 V c n hn = _ from acc0_reset V c ⟨n, hn⟩ hmod]
      show k0_pay4 (F := Ideal) (iblk0 V c 1 ⟨n, hn⟩) (iblk0 V c 0 ⟨n, hn⟩) (k0_pay1 (F := Ideal)) (ix2 (0 : Fin 1) q) = _
      rw [pay4_apply, pay1_apply, addSum, dif_pos hn])
    (fun n hn hne => by
      funext q
      show (acc0 V c (n + 1) hn).1 (ix2 (0 : Fin 1) q)
        = (acc0 V c n (Nat.lt_of_succ_lt hn)).1 (ix2 (0 : Fin 1) q) + addSum V c (n + 1) q
      rw [show acc0 V c (n + 1) hn = _ from acc0_step V c ⟨n + 1, hn⟩ hne]
      show k0_pay4 (F := Ideal) (iblk0 V c 1 ⟨n + 1, hn⟩) (iblk0 V c 0 ⟨n + 1, hn⟩)
        (acc0 V c (n + 1 - 1) _).1 (ix2 (0 : Fin 1) q) = _
      rw [pay4_apply, addSum, dif_pos hn]
      rfl)
    o 31 (by norm_num) h
  have e2 := Pipeline.accAt_add_apply (N := cfg0.N) (ι := Fin 1024) (β := EReal)
    (fun n hn q => 0 + addSum V c n q) (fun n hn s q => s q + addSum V c n q) (fun _ => 0) (addSum V c)
    (32 * o) 31 (fun _ _ => rfl) (fun _ _ _ _ _ _ => rfl) 31 le_rfl h q
  rw [zero_add] at e2
  exact (congrFun e1 q).trans e2

/-- The second running row likewise, with the squares. -/
theorem acc2_run (c : Dev nD) (o : ℕ) (h : 32 * o + 31 < cfg0.N) (q : Fin 1024) :
    (acc0 V c (32 * o + 31) h).2 (ix2 (0 : Fin 1) q) = ∑ s ∈ Finset.range 32, addSq V c (32 * o + s) q := by
  have e1 := Pipeline.eq_accAt (N := cfg0.N) (α := Fin 1024 → EReal)
    (fun n hn q => (acc0 V c n hn).2 (ix2 (0 : Fin 1) q)) 32
    (fun n hn q => 0 + addSq V c n q)
    (fun n hn s q => s q + addSq V c n q)
    (fun n hn hmod => by
      funext q
      show (acc0 V c n hn).2 (ix2 (0 : Fin 1) q) = 0 + addSq V c n q
      rw [show acc0 V c n hn = _ from acc0_reset V c ⟨n, hn⟩ hmod]
      show k0_pay5 (F := Ideal) (iblk0 V c 1 ⟨n, hn⟩) (iblk0 V c 0 ⟨n, hn⟩) (k0_pay2 (F := Ideal)) (ix2 (0 : Fin 1) q) = _
      rw [pay5_apply, pay2_apply, addSq, dif_pos hn])
    (fun n hn hne => by
      funext q
      show (acc0 V c (n + 1) hn).2 (ix2 (0 : Fin 1) q)
        = (acc0 V c n (Nat.lt_of_succ_lt hn)).2 (ix2 (0 : Fin 1) q) + addSq V c (n + 1) q
      rw [show acc0 V c (n + 1) hn = _ from acc0_step V c ⟨n + 1, hn⟩ hne]
      show k0_pay5 (F := Ideal) (iblk0 V c 1 ⟨n + 1, hn⟩) (iblk0 V c 0 ⟨n + 1, hn⟩)
        (acc0 V c (n + 1 - 1) _).2 (ix2 (0 : Fin 1) q) = _
      rw [pay5_apply, addSq, dif_pos hn]
      rfl)
    o 31 (by norm_num) h
  have e2 := Pipeline.accAt_add_apply (N := cfg0.N) (ι := Fin 1024) (β := EReal)
    (fun n hn q => 0 + addSq V c n q) (fun n hn s q => s q + addSq V c n q) (fun _ => 0) (addSq V c)
    (32 * o) 31 (fun _ _ => rfl) (fun _ _ _ _ _ _ => rfl) 31 le_rfl h q
  rw [zero_add] at e2
  exact (congrFun e1 q).trans e2

/-! ## The folds are the Spec's column sums -/

/-- Channel col's entries of the linear layer, and their squares, as functions of the row's number (zero past the
    last row, where they are never read). -/
def rowY (x : SX.Idx → EReal) (w : SW.Idx → EReal) (col : Fin 2048) (r : ℕ) : EReal :=
  if hr : r < 16384 then Y x w ⟨r, hr⟩ col else 0
def rowYSq (x : SX.Idx → EReal) (w : SW.Idx → EReal) (col : Fin 2048) (r : ℕ) : EReal :=
  if hr : r < 16384 then Y x w ⟨r, hr⟩ col * Y x w ⟨r, hr⟩ col else 0

/-- The addend of point 32·o + s of channel tile o's run (o < 2, s < 32) at column q: the linear layer's entries of
    rows s·512 … s·512 + 511 at channel o·1024 + q, summed. -/
theorem addSum_eq (c : Dev nD) (o s : ℕ) (ho : o < 2) (hs : s < 32) (q : Fin 1024) (hc : o * 1024 + q.val < 2048) :
    addSum V c (32 * o + s) q
      = ∑ p : Fin 512, rowY (V c main_arg0) (V c main_arg1) ⟨o * 1024 + q.val, hc⟩ (s * 512 + p.val) := by
  have hN : cfg0.N = 64 := N_0
  have hn : 32 * o + s < cfg0.N := by omega
  rw [addSum, dif_pos hn]
  refine Finset.sum_congr rfl fun p _ => ?_
  have hp : p.val < 512 := p.isLt
  have hr : s * 512 + p.val < 16384 := by omega
  rw [pay3_at V c ⟨32 * o + s, hn⟩ p q, rowY, dif_pos hr]
  exact Y_congr _ _ (show (32 * o + s) % 32 * 512 + p.val = s * 512 + p.val by omega)
    (show (32 * o + s) / 32 * 1024 + q.val = o * 1024 + q.val by omega)

/-- The same for the squares. -/
theorem addSq_eq (c : Dev nD) (o s : ℕ) (ho : o < 2) (hs : s < 32) (q : Fin 1024) (hc : o * 1024 + q.val < 2048) :
    addSq V c (32 * o + s) q
      = ∑ p : Fin 512, rowYSq (V c main_arg0) (V c main_arg1) ⟨o * 1024 + q.val, hc⟩ (s * 512 + p.val) := by
  have hN : cfg0.N = 64 := N_0
  have hn : 32 * o + s < cfg0.N := by omega
  rw [addSq, dif_pos hn]
  refine Finset.sum_congr rfl fun p _ => ?_
  have hp : p.val < 512 := p.isLt
  have hr : s * 512 + p.val < 16384 := by omega
  rw [pay3_at V c ⟨32 * o + s, hn⟩ p q, rowYSq, dif_pos hr]
  have e : Y (V c main_arg0) (V c main_arg1) ⟨(32 * o + s) % 32 * 512 + p.val, row_lt ⟨32 * o + s, hn⟩ p⟩
        ⟨(32 * o + s) / 32 * 1024 + q.val, col_lt ⟨32 * o + s, hn⟩ q⟩
      = Y (V c main_arg0) (V c main_arg1) ⟨s * 512 + p.val, hr⟩ ⟨o * 1024 + q.val, hc⟩ :=
    Y_congr _ _ (show (32 * o + s) % 32 * 512 + p.val = s * 512 + p.val by omega)
      (show (32 * o + s) / 32 * 1024 + q.val = o * 1024 + q.val by omega)
  exact congrArg₂ (· * ·) e e

/-- At a point that writes the rows back (t % 32 = 31), the first running row at column q is the Spec's column sum
    of channel (t / 32)·1024 + q over all 16384 rows. -/
theorem acc1_flush (c : Dev nD) (t : Fin cfg0.N) (h : t.val % 32 = 31) (q : Fin 1024)
    (hc : t.val / 32 * 1024 + q.val < 2048) :
    (acc0 V c t.val t.isLt).1 (ix2 (0 : Fin 1) q)
      = colSum (V c main_arg0) (V c main_arg1) ⟨t.val / 32 * 1024 + q.val, hc⟩ := by
  have hN : cfg0.N = 64 := N_0
  have htl : t.val < cfg0.N := t.isLt
  have ho : t.val / 32 < 2 := by omega
  have ht : t.val = 32 * (t.val / 32) + 31 := by omega
  have h' : 32 * (t.val / 32) + 31 < cfg0.N := by omega
  rw [acc0_congr V c t.isLt h' ht, acc1_run V c (t.val / 32) h' q,
    Finset.sum_congr rfl fun s hs => addSum_eq V c (t.val / 32) s ho (Finset.mem_range.mp hs) q hc,
    sum_rows (rowY (V c main_arg0) (V c main_arg1) ⟨t.val / 32 * 1024 + q.val, hc⟩)]
  unfold colSum
  refine Finset.sum_congr rfl fun r _ => ?_
  rw [rowY, dif_pos r.isLt]

/-- The second running row likewise is the Spec's column sum of squares. -/
theorem acc2_flush (c : Dev nD) (t : Fin cfg0.N) (h : t.val % 32 = 31) (q : Fin 1024)
    (hc : t.val / 32 * 1024 + q.val < 2048) :
    (acc0 V c t.val t.isLt).2 (ix2 (0 : Fin 1) q)
      = colSumSq (V c main_arg0) (V c main_arg1) ⟨t.val / 32 * 1024 + q.val, hc⟩ := by
  have hN : cfg0.N = 64 := N_0
  have htl : t.val < cfg0.N := t.isLt
  have ho : t.val / 32 < 2 := by omega
  have ht : t.val = 32 * (t.val / 32) + 31 := by omega
  have h' : 32 * (t.val / 32) + 31 < cfg0.N := by omega
  rw [acc0_congr V c t.isLt h' ht, acc2_run V c (t.val / 32) h' q,
    Finset.sum_congr rfl fun s hs => addSq_eq V c (t.val / 32) s ho (Finset.mem_range.mp hs) q hc,
    sum_rows (rowYSq (V c main_arg0) (V c main_arg1) ⟨t.val / 32 * 1024 + q.val, hc⟩)]
  unfold colSumSq
  refine Finset.sum_congr rfl fun r _ => ?_
  rw [rowYSq, dif_pos r.isLt]

/-! ## What the flushing points write back, and the two arrays after the region -/

/-- What window 3's array ends holding: each channel's sum over the batch; window 4's: its sum of squares. -/
abbrev GSum (c : Dev nD) : S1x2048.Idx → EReal := fun i => colSum (V c main_arg0) (V c main_arg1) (i 1)
abbrev GSq (c : Dev nD) : S1x2048.Idx → EReal := fun i => colSumSq (V c main_arg0) (V c main_arg1) (i 1)

/-- A point that writes window 3 back (t % 32 = 31) writes, at column q of its block, channel (t / 32)·1024 + q's
    column sum: the block sits at row 0 and columns (t / 32)·1024 … of the [1, 2048] array. -/
theorem flushed3_apply (c : Dev nD) (t : Fin cfg0.N) (h : t.val % 32 = 31) (q : Fin 1024) :
    (dat0 V c).flushed 3 t (ix2 (0 : Fin 1) q)
      = ((cfg0.win 3).blk t).view.read (Elt Ideal) (GSum V c) (ix2 (0 : Fin 1) q) := by
  obtain ⟨e0, e1⟩ := idx3 t
  rw [View.read_apply, cast_eq]
  show (cfg0.win 3).cut (grid0.coords t) ((dat0 V c).after 3 t) (ix2 (0 : Fin 1) q) = _
  rw [after0_3_flush V c t h]
  show (acc0 V c t.val t.isLt).1 (ix2 (0 : Fin 1) q) = _
  rw [acc1_flush V c t h q (col_lt t q)]
  have h1 : (⟨t.val / 32 * 1024 + q.val, col_lt t q⟩ : Fin 2048)
      = ((cfg0.win 3).blk t).view.emb (ix2 (0 : Fin 1) q) 1 := by
    apply Fin.ext
    show t.val / 32 * 1024 + q.val = win0_3.index t 1 * 1024 + 1 * q.val
    rw [e1]; omega
  exact congrArg (colSum (V c main_arg0) (V c main_arg1)) h1

/-- So such a point's write-back is its block of that row: a block index is (0, q), its first coordinate below 1. -/
theorem flushed3_eq (c : Dev nD) (t : Fin cfg0.N) (hf : (cfg0.win 3).flush t = true) :
    (dat0 V c).flushed 3 t = ((cfg0.win 3).blk t).view.read (Elt Ideal) (GSum V c) := by
  have h : t.val % 32 = 31 := (flush0_3 t).mp hf
  funext j
  have hj : j = ix2 (0 : Fin 1) (⟨(j 1).val, (j 1).isLt⟩ : Fin 1024) := by
    funext a
    apply Fin.ext
    match a with
    | ⟨0, _⟩ => show (j 0).val = 0; have : (j 0).val < 1 := (j 0).isLt; omega
    | ⟨1, _⟩ => rfl
  calc (dat0 V c).flushed 3 t j
      = (dat0 V c).flushed 3 t (ix2 (0 : Fin 1) (⟨(j 1).val, (j 1).isLt⟩ : Fin 1024)) := congrArg _ hj
    _ = ((cfg0.win 3).blk t).view.read (Elt Ideal) (GSum V c) (ix2 (0 : Fin 1) (⟨(j 1).val, (j 1).isLt⟩ : Fin 1024)) :=
        flushed3_apply V c t h _
    _ = ((cfg0.win 3).blk t).view.read (Elt Ideal) (GSum V c) j := congrArg _ hj.symm

/-- An index of the [1, 2048] array is in point t's block of window 3 iff each coordinate is in the block's range. -/
theorem mem_blk3 (t : Fin cfg0.N) (i : S1x2048.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v0_1).slice (win0_3.rect t)).set ↔ _
  rw [View.set_slice_whole, Rect.mem_set_unit]
  exact Iff.rfl

/-- Every channel is in the block of the last point of its channel tile's run, which writes the block back. -/
theorem cover3 (i : S1x2048.Idx) :
    ∃ t : Fin cfg0.N, (cfg0.win 3).flush t = true ∧ i ∈ ((cfg0.win 3).blk t).view.set := by
  have hi0 : (i 0).val < 1 := (i 0).isLt
  have hi1 : (i 1).val < 2048 := (i 1).isLt
  have hN : cfg0.N = 64 := N_0
  obtain ⟨t, ht⟩ : ∃ t : Fin cfg0.N, t.val = ((i 1).val / 1024) * 32 + 31 := ⟨⟨_, by omega⟩, rfl⟩
  refine ⟨t, (flush0_3 t).mpr (by omega), ?_⟩
  rw [mem_blk3]
  obtain ⟨e0, e1⟩ := idx3 t
  intro a
  match a with
  | ⟨0, _⟩ => show win0_3.index t 0 * 1 ≤ (i 0).val ∧ (i 0).val < win0_3.index t 0 * 1 + 1; rw [e0]; omega
  | ⟨1, _⟩ => show win0_3.index t 1 * 1024 ≤ (i 1).val ∧ (i 1).val < win0_3.index t 1 * 1024 + 1024; rw [e1]; omega

/-- THE SECOND RESULT after the first kernel's region: each channel's sum of the linear layer over the batch. -/
theorem stage1_sum (c : Dev nD) :
    (dat0 (F := Ideal) V c).arrAt 3 cfg0.N = fun i => colSum (V c main_arg0) (V c main_arg1) (i 1) :=
  (dat0 V c).arrAt_eq_of_cover 3 (GSum V c) (flushed3_eq V c) cover3

/-- Window 4 likewise, with the second running row: at column q of its block a flushing point writes channel
    (t / 32)·1024 + q's column sum of squares. -/
theorem flushed4_apply (c : Dev nD) (t : Fin cfg0.N) (h : t.val % 32 = 31) (q : Fin 1024) :
    (dat0 V c).flushed 4 t (ix2 (0 : Fin 1) q)
      = ((cfg0.win 4).blk t).view.read (Elt Ideal) (GSq V c) (ix2 (0 : Fin 1) q) := by
  obtain ⟨e0, e1⟩ := idx4 t
  rw [View.read_apply, cast_eq]
  show (cfg0.win 4).cut (grid0.coords t) ((dat0 V c).after 4 t) (ix2 (0 : Fin 1) q) = _
  rw [after0_4_flush V c t h]
  show (acc0 V c t.val t.isLt).2 (ix2 (0 : Fin 1) q) = _
  rw [acc2_flush V c t h q (col_lt t q)]
  have h1 : (⟨t.val / 32 * 1024 + q.val, col_lt t q⟩ : Fin 2048)
      = ((cfg0.win 4).blk t).view.emb (ix2 (0 : Fin 1) q) 1 := by
    apply Fin.ext
    show t.val / 32 * 1024 + q.val = win0_4.index t 1 * 1024 + 1 * q.val
    rw [e1]; omega
  exact congrArg (colSumSq (V c main_arg0) (V c main_arg1)) h1

/-- So such a point's write-back is its block of that row: a block index is (0, q), its first coordinate below 1. -/
theorem flushed4_eq (c : Dev nD) (t : Fin cfg0.N) (hf : (cfg0.win 4).flush t = true) :
    (dat0 V c).flushed 4 t = ((cfg0.win 4).blk t).view.read (Elt Ideal) (GSq V c) := by
  have h : t.val % 32 = 31 := (flush0_4 t).mp hf
  funext j
  have hj : j = ix2 (0 : Fin 1) (⟨(j 1).val, (j 1).isLt⟩ : Fin 1024) := by
    funext a
    apply Fin.ext
    match a with
    | ⟨0, _⟩ => show (j 0).val = 0; have : (j 0).val < 1 := (j 0).isLt; omega
    | ⟨1, _⟩ => rfl
  calc (dat0 V c).flushed 4 t j
      = (dat0 V c).flushed 4 t (ix2 (0 : Fin 1) (⟨(j 1).val, (j 1).isLt⟩ : Fin 1024)) := congrArg _ hj
    _ = ((cfg0.win 4).blk t).view.read (Elt Ideal) (GSq V c) (ix2 (0 : Fin 1) (⟨(j 1).val, (j 1).isLt⟩ : Fin 1024)) :=
        flushed4_apply V c t h _
    _ = ((cfg0.win 4).blk t).view.read (Elt Ideal) (GSq V c) j := congrArg _ hj.symm

/-- An index of the [1, 2048] array is in point t's block of window 4 iff each coordinate is in the block's range. -/
theorem mem_blk4 (t : Fin cfg0.N) (i : S1x2048.Idx) :
    i ∈ ((cfg0.win 4).blk t).view.set ↔ ∀ a : Fin 2, win0_4.index t a * S1x1024.size a ≤ (i a).val ∧ (i a).val < win0_4.index t a * S1x1024.size a + S1x1024.size a := by
  show i ∈ ((View.whole main_v0_2).slice (win0_4.rect t)).set ↔ _
  rw [View.set_slice_whole, Rect.mem_set_unit]
  exact Iff.rfl

/-- Every channel is in the block of the last point of its channel tile's run, which writes the block back. -/
theorem cover4 (i : S1x2048.Idx) :
    ∃ t : Fin cfg0.N, (cfg0.win 4).flush t = true ∧ i ∈ ((cfg0.win 4).blk t).view.set := by
  have hi0 : (i 0).val < 1 := (i 0).isLt
  have hi1 : (i 1).val < 2048 := (i 1).isLt
  have hN : cfg0.N = 64 := N_0
  obtain ⟨t, ht⟩ : ∃ t : Fin cfg0.N, t.val = ((i 1).val / 1024) * 32 + 31 := ⟨⟨_, by omega⟩, rfl⟩
  refine ⟨t, (flush0_4 t).mpr (by omega), ?_⟩
  rw [mem_blk4]
  obtain ⟨e0, e1⟩ := idx4 t
  intro a
  match a with
  | ⟨0, _⟩ => show win0_4.index t 0 * 1 ≤ (i 0).val ∧ (i 0).val < win0_4.index t 0 * 1 + 1; rw [e0]; omega
  | ⟨1, _⟩ => show win0_4.index t 1 * 1024 ≤ (i 1).val ∧ (i 1).val < win0_4.index t 1 * 1024 + 1024; rw [e1]; omega

/-- THE THIRD RESULT after the first kernel's region: each channel's sum of squares of the linear layer over the batch. -/
theorem stage1_sumsq (c : Dev nD) :
    (dat0 (F := Ideal) V c).arrAt 4 cfg0.N = fun i => colSumSq (V c main_arg0) (V c main_arg1) (i 1) :=
  (dat0 V c).arrAt_eq_of_cover 4 (GSq V c) (flushed4_eq V c) cover4

end Cert.KernelIdeal.Hand

end
-- ==== Proof.Between.lean ====
/-
  What the host operations between the two kernel regions compute, read at an index, on the extended reals.

  The first region leaves, per output channel o, the column sum s₁ o in a [1, 2048] array and the column
  sum of squares s₂ o in another. The host operations form the mean μ = s₁ / n and the second moment
  q = s₂ / n (n the row count), the variance q − μ·μ, the scale g · rsqrt (q − μ·μ + ε) and the shift
  b − μ · scale, and hand scale and shift to the second region as [1, 2048] arrays. Every other array
  keeps its contents.
-/
import proofs.«125851_j120259085186_1_alg».proof.Proof.Gen.KernelIdeal.Launch
import proofs.«125851_j120259085186_1_alg».proof.Proof.Gen.KernelIdeal.Regions
import proofs.«125851_j120259085186_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.SignBN Idealize.ShloMosaic Idealize.ShloMosaic.TcCoe Idealize.ShloMosaic.ValueIdx

/-! ## The operations' terms, over variables of the literal vector types -/

/-- A [1, 2048] array of sums divided entrywise by the row count, as a [2048] vector. -/
def avgVec (a : FVec Ideal S1x2048 .f32) : FVec Ideal S2048 .f32 :=
  Host.divf (shapeCast S2048 a shapeCasts_S1x2048_S2048)
    (broadcastInDim S2048 ![] bcast_S_S2048 (constant (F := Ideal) S_ .f32 0x46800000#32))

/-- The scale vector: the gain times the reciprocal square root of variance plus epsilon. -/
def scaleVec (a1 a2 : FVec Ideal S1x2048 .f32) (g : FVec Ideal S2048 .f32) : FVec Ideal S2048 .f32 :=
  mulf g (Host.rsqrt (addf (subf (avgVec a2) (mulf (avgVec a1) (avgVec a1)))
    (broadcastInDim S2048 ![] bcast_S_S2048 (constant (F := Ideal) S_ .f32 0x3727C5AC#32))))

/-- The shift vector: the offset minus mean times scale. -/
def shiftVec (a1 a2 : FVec Ideal S1x2048 .f32) (g b : FVec Ideal S2048 .f32) : FVec Ideal S2048 .f32 :=
  subf b (mulf (avgVec a1) (scaleVec a1 a2 g))

/-- The average at channel o is the sum at (0, o) divided by the row count. -/
theorem avgVec_apply (a : FVec Ideal S1x2048 .f32) (o : Fin 2048) :
    avgVec a (ix1 o) = Ideal.div (a (ix2 (0 : Fin 1) o)) rowsW := by
  show Ideal.div (shapeCast S2048 a shapeCasts_S1x2048_S2048 (ix1 o)) rowsW = _
  rw [shapeCast_1a_a_apply]

/-- The scale at channel o. -/
theorem scaleVec_apply (a1 a2 : FVec Ideal S1x2048 .f32) (g : FVec Ideal S2048 .f32) (o : Fin 2048) :
    scaleVec a1 a2 g (ix1 o)
      = g (ix1 o) * Ideal.rsqrt (Ideal.div (a2 (ix2 (0 : Fin 1) o)) rowsW
          - Ideal.div (a1 (ix2 (0 : Fin 1) o)) rowsW * Ideal.div (a1 (ix2 (0 : Fin 1) o)) rowsW + epsW) := by
  show g (ix1 o) * Ideal.rsqrt (avgVec a2 (ix1 o) - avgVec a1 (ix1 o) * avgVec a1 (ix1 o) + epsW) = _
  rw [avgVec_apply, avgVec_apply]

/-- The shift at channel o. -/
theorem shiftVec_apply (a1 a2 : FVec Ideal S1x2048 .f32) (g b : FVec Ideal S2048 .f32) (o : Fin 2048) :
    shiftVec a1 a2 g b (ix1 o)
      = b (ix1 o) - Ideal.div (a1 (ix2 (0 : Fin 1) o)) rowsW
          * (g (ix1 o) * Ideal.rsqrt (Ideal.div (a2 (ix2 (0 : Fin 1) o)) rowsW
              - Ideal.div (a1 (ix2 (0 : Fin 1) o)) rowsW * Ideal.div (a1 (ix2 (0 : Fin 1) o)) rowsW + epsW)) := by
  show b (ix1 o) - avgVec a1 (ix1 o) * scaleVec a1 a2 g (ix1 o) = _
  rw [avgVec_apply, scaleVec_apply]

/-! ## The two arrays handed to the second region -/

/-- After the host operations the scale array is the scale vector as a [1, 2048] array. -/
theorem after_main_v15 (W : Valuation τ sig (Elt Ideal)) :
    (StableHlo.after (hostOps1 (F := Ideal)) W (Proc.devRef .tc main_v15) : S1x2048.Idx → EReal)
      = shapeCast S1x2048 (scaleVec (W (Proc.devRef .tc main_v0_1)) (W (Proc.devRef .tc main_v0_2))
          (W (Proc.devRef .tc main_arg2))) shapeCasts_S2048_S1x2048 := by
  dsimp only [hostOps1]
  after_results
  rfl

/-- After the host operations the shift array is the shift vector as a [1, 2048] array. -/
theorem after_main_v16 (W : Valuation τ sig (Elt Ideal)) :
    (StableHlo.after (hostOps1 (F := Ideal)) W (Proc.devRef .tc main_v16) : S1x2048.Idx → EReal)
      = shapeCast S1x2048 (shiftVec (W (Proc.devRef .tc main_v0_1)) (W (Proc.devRef .tc main_v0_2))
          (W (Proc.devRef .tc main_arg2)) (W (Proc.devRef .tc main_arg3))) shapeCasts_S2048_S1x2048 := by
  dsimp only [hostOps1]
  after_results
  rfl

/-- The scale array at (0, o). -/
theorem between_scale (W : Valuation τ sig (Elt Ideal)) (o : Fin 2048) :
    (StableHlo.after (hostOps1 (F := Ideal)) W (Proc.devRef .tc main_v15) : S1x2048.Idx → EReal) (ix2 (0 : Fin 1) o)
      = HMul.hMul (α := EReal) (β := EReal) ((W (Proc.devRef .tc main_arg2)) (ix1 o))
          (Ideal.rsqrt (Ideal.div ((W (Proc.devRef .tc main_v0_2)) (ix2 (0 : Fin 1) o)) rowsW
              - Ideal.div ((W (Proc.devRef .tc main_v0_1)) (ix2 (0 : Fin 1) o)) rowsW
                * Ideal.div ((W (Proc.devRef .tc main_v0_1)) (ix2 (0 : Fin 1) o)) rowsW + epsW)) := by
  rw [after_main_v15, shapeCast_a_1a_apply, scaleVec_apply]

/-- The shift array at (0, o). -/
theorem between_shift (W : Valuation τ sig (Elt Ideal)) (o : Fin 2048) :
    (StableHlo.after (hostOps1 (F := Ideal)) W (Proc.devRef .tc main_v16) : S1x2048.Idx → EReal) (ix2 (0 : Fin 1) o)
      = HSub.hSub (α := EReal) (β := EReal) ((W (Proc.devRef .tc main_arg3)) (ix1 o))
          (Ideal.div ((W (Proc.devRef .tc main_v0_1)) (ix2 (0 : Fin 1) o)) rowsW
            * HMul.hMul (α := EReal) (β := EReal) ((W (Proc.devRef .tc main_arg2)) (ix1 o))
              (Ideal.rsqrt (Ideal.div ((W (Proc.devRef .tc main_v0_2)) (ix2 (0 : Fin 1) o)) rowsW
                  - Ideal.div ((W (Proc.devRef .tc main_v0_1)) (ix2 (0 : Fin 1) o)) rowsW
                    * Ideal.div ((W (Proc.devRef .tc main_v0_1)) (ix2 (0 : Fin 1) o)) rowsW + epsW))) := by
  rw [after_main_v16, shapeCast_a_1a_apply, shiftVec_apply]

/-- The scale array at (0, o), from the three entries it reads: the sum s₁, the sum of squares s₂, the gain γ. -/
theorem between_scale_of (W : Valuation τ sig (Elt Ideal)) (o : Fin 2048) {s₁ s₂ γ : EReal}
    (h₁ : (W (Proc.devRef .tc main_v0_1)) (ix2 (0 : Fin 1) o) = s₁)
    (h₂ : (W (Proc.devRef .tc main_v0_2)) (ix2 (0 : Fin 1) o) = s₂)
    (hγ : (W (Proc.devRef .tc main_arg2)) (ix1 o) = γ) :
    (StableHlo.after (hostOps1 (F := Ideal)) W (Proc.devRef .tc main_v15) : S1x2048.Idx → EReal) (ix2 (0 : Fin 1) o)
      = γ * Ideal.rsqrt (Ideal.div s₂ rowsW - Ideal.div s₁ rowsW * Ideal.div s₁ rowsW + epsW) := by
  subst h₁ h₂ hγ
  exact between_scale W o

/-- The shift array at (0, o), from the four entries it reads: s₁, s₂, the gain γ and the offset β. -/
theorem between_shift_of (W : Valuation τ sig (Elt Ideal)) (o : Fin 2048) {s₁ s₂ γ β : EReal}
    (h₁ : (W (Proc.devRef .tc main_v0_1)) (ix2 (0 : Fin 1) o) = s₁)
    (h₂ : (W (Proc.devRef .tc main_v0_2)) (ix2 (0 : Fin 1) o) = s₂)
    (hγ : (W (Proc.devRef .tc main_arg2)) (ix1 o) = γ)
    (hβ : (W (Proc.devRef .tc main_arg3)) (ix1 o) = β) :
    (StableHlo.after (hostOps1 (F := Ideal)) W (Proc.devRef .tc main_v16) : S1x2048.Idx → EReal) (ix2 (0 : Fin 1) o)
      = β - Ideal.div s₁ rowsW * (γ * Ideal.rsqrt (Ideal.div s₂ rowsW - Ideal.div s₁ rowsW * Ideal.div s₁ rowsW + epsW)) := by
  subst h₁ h₂ hγ hβ
  exact between_shift W o

/-! ## The arrays the host operations do not write -/

/-- An array none of the host operations writes keeps its contents. -/
theorem between_keep (W : Valuation τ sig (Elt Ideal)) (b : Ref sig .tc) (hb : b ∉ hostOps1_W) :
    StableHlo.after (hostOps1 (F := Ideal)) W (Proc.devRef .tc b) = W (Proc.devRef .tc b) :=
  StableHlo.after_of_writes_sub hostOps1 W hostOps1_writes hb

end Cert.KernelIdeal.Hand

end
-- ==== Proof.Stage2Value.lean ====
/-
  The second kernel as values. Every grid point of the second call normalises one 1024 × 1024 block of the
  linear layer's result: entry (r, o) of the block's array times the scale of channel o plus the shift of channel o,
  then the maximum with zero. The blocks tile the [16384, 2048] result, so after the call the whole array is that
  one function of the three arrays the call reads.
-/
import proofs.«125851_j120259085186_1_alg».proof.Proof.Gen.KernelIdeal.Launch
import proofs.«125851_j120259085186_1_alg».proof.Proof.Gen.KernelIdeal.Skeleton
import proofs.«125851_j120259085186_1_alg».proof.Proof.Gen.KernelIdeal.Points
import proofs.«125851_j120259085186_1_alg».proof.Proof.Stage2
import proofs.«125851_j120259085186_1_alg».proof.Proof.Payloads
import proofs.«125851_j120259085186_1_alg».proof.Proof.Spec
import Idealize.ShloMosaic.Lib.Pipeline.FrameBody
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.SignBN
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- The three arrays the second call reads, at their literal types: the linear layer's result and the two rows. -/
abbrev yArr (c : Dev nD) : S16384x2048.Idx → EReal := V c main_v0_0
abbrev sArr (c : Dev nD) : S1x2048.Idx → EReal := V c main_v15
abbrev hArr (c : Dev nD) : S1x2048.Idx → EReal := V c main_v16

theorem hz00 : (![0, 0] : Fin 2 → Nat) = fun _ => 0 := funext fun a => by fin_cases a <;> rfl

/-- An entry of the linear layer's result, scaled and shifted by its channel's row entries, cut off below at zero. -/
abbrev affineRelu (y : S16384x2048.Idx → EReal) (s sh : S1x2048.Idx → EReal) : S16384x2048.Idx → EReal :=
  fun i => max (y i * s (ix2 (0 : Fin 1) (i 1)) + sh (ix2 (0 : Fin 1) (i 1))) zeroW

/-- The stored block at any index of the block: the row entries are read at the index's column. -/
theorem stage2_at (y : Vec Ideal S1024x1024 .f32) (s sh : Vec Ideal S1x1024 .f32) (j : S1024x1024.Idx) :
    k1_pay1 (F := Ideal) y s sh j = max (y j * s (ix2 (0 : Fin 1) (j 1)) + sh (ix2 (0 : Fin 1) (j 1))) zeroW := by
  obtain ⟨p, q, rfl⟩ : ∃ (p : Fin 1024) (q : Fin 1024), j = ix2 p q := ⟨j 0, j 1, eq_ix2 j⟩
  exact stage2_apply y s sh p q

/-- The second call's index maps over its 32 grid points: point t works on row tile t / 2 and channel tile t % 2. -/
theorem idx_facts1 : ∀ t : Fin cfg1.N,
    win1_0.index t (0 : Fin 2) = t.val / 2 ∧ win1_0.index t (1 : Fin 2) = t.val % 2
    ∧ win1_1.index t (0 : Fin 2) = 0 ∧ win1_1.index t (1 : Fin 2) = t.val % 2
    ∧ win1_2.index t (0 : Fin 2) = 0 ∧ win1_2.index t (1 : Fin 2) = t.val % 2
    ∧ win1_3.index t (0 : Fin 2) = t.val / 2 ∧ win1_3.index t (1 : Fin 2) = t.val % 2 :=
  (by decide +kernel : ∀ t : Fin grid1.N, _)

/-- What point t writes back is block t of the normalised array. -/
theorem stage2_flushed_eq (c : Dev nD) (t : Fin cfg1.N) :
    (dat1 (F := Ideal) V c).flushed 3 t
      = ((cfg1.win 3).blk t).view.read (Elt Ideal) (affineRelu (yArr V c) (sArr V c) (hArr V c)) := by
  show (cfg1.win 3).cut (grid1.coords t) ((dat1 V c).after 3 t) = _
  rw [after1_3]
  unfold out1_3
  rw [View.canon_unit_zero hz00]
  simp only [View.ld_unit_zero (S := S1024x1024) hz00, View.ld_unit_zero (S := S1x1024) hz00]
  obtain ⟨e0, e1, e2, e3, e4, e5, e6, e7⟩ := idx_facts1 t
  funext j
  refine Eq.trans (stage2_at (iblk1 V c 0 t) (iblk1 V c 1 t) (iblk1 V c 2 t) ((cfg1.win 3).xinj (grid1.coords t) j)) ?_
  show max (yArr V c (((cfg1.win 0).blk t).view.emb ((cfg1.win 3).xinj (grid1.coords t) j))
        * sArr V c (((cfg1.win 1).blk t).view.emb (ix2 (0 : Fin 1) ((cfg1.win 3).xinj (grid1.coords t) j 1)))
        + hArr V c (((cfg1.win 2).blk t).view.emb (ix2 (0 : Fin 1) ((cfg1.win 3).xinj (grid1.coords t) j 1)))) zeroW
      = max (yArr V c (((cfg1.win 3).blk t).view.emb j)
        * sArr V c (ix2 (0 : Fin 1) ((((cfg1.win 3).blk t).view.emb j) 1))
        + hArr V c (ix2 (0 : Fin 1) ((((cfg1.win 3).blk t).view.emb j) 1))) zeroW
  have h0 : ((cfg1.win 0).blk t).view.emb ((cfg1.win 3).xinj (grid1.coords t) j) = ((cfg1.win 3).blk t).view.emb j := by
    funext a; apply Fin.ext
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 1024 + 1 * (j 1).val = win1_3.index t (1 : Fin 2) * 1024 + 1 * (j 1).val; omega
  have h1 : ((cfg1.win 1).blk t).view.emb (ix2 (0 : Fin 1) ((cfg1.win 3).xinj (grid1.coords t) j 1)) = ix2 (0 : Fin 1) ((((cfg1.win 3).blk t).view.emb j) 1) := by
    funext a; apply Fin.ext
    match a with
    | ⟨0, _⟩ => show win1_1.index t (0 : Fin 2) * 1 + 1 * 0 = 0; omega
    | ⟨1, _⟩ => show win1_1.index t (1 : Fin 2) * 1024 + 1 * (j 1).val = win1_3.index t (1 : Fin 2) * 1024 + 1 * (j 1).val; omega
  have h2 : ((cfg1.win 2).blk t).view.emb (ix2 (0 : Fin 1) ((cfg1.win 3).xinj (grid1.coords t) j 1)) = ix2 (0 : Fin 1) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 1024 + 1 * (j 1).val = win1_3.index t (1 : Fin 2) * 1024 + 1 * (j 1).val; omega
  rw [h0, h1, h2]
  rfl

/-- An index of the result array is in point t's block iff each coordinate is in the block's range. -/
theorem stage2_mem_blk (t : Fin cfg1.N) (i : S16384x2048.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v17).slice (win1_3.rect t)).set ↔ _
  rw [View.set_slice_whole, Rect.mem_set_unit]
  exact Iff.rfl

/-- The 32 blocks tile the result: entry (r, o) lies in the block of point (r / 1024) · 2 + o / 1024. -/
theorem stage2_cover (i : S16384x2048.Idx) :
    ∃ t : Fin cfg1.N, (cfg1.win 3).flush t = true ∧ i ∈ ((cfg1.win 3).blk t).view.set := by
  have hi0 : (i 0).val < 16384 := (i 0).isLt
  have hi1 : (i 1).val < 2048 := (i 1).isLt
  have hN : cfg1.N = 32 := N_1
  refine ⟨⟨((i 0).val / 1024) * 2 + (i 1).val / 1024, by omega⟩, flush1_3 _, ?_⟩
  rw [stage2_mem_blk]
  obtain ⟨-, -, -, -, -, -, e6, e7⟩ := idx_facts1 ⟨((i 0).val / 1024) * 2 + (i 1).val / 1024, by omega⟩
  intro a
  match a with
  | ⟨0, _⟩ =>
    show win1_3.index _ (0 : Fin 2) * 1024 ≤ (i 0).val ∧ (i 0).val < win1_3.index _ (0 : Fin 2) * 1024 + 1024
    rw [e6]; dsimp only; omega
  | ⟨1, _⟩ =>
    show win1_3.index _ (1 : Fin 2) * 1024 ≤ (i 1).val ∧ (i 1).val < win1_3.index _ (1 : Fin 2) * 1024 + 1024
    rw [e7]; dsimp only; omega

/-- After the second call the result array is the normalised, cut-off linear layer, entry by entry. -/
theorem stage2_out (c : Dev nD) :
    (dat1 (F := Ideal) V c).arrAt 3 cfg1.N = affineRelu (yArr V c) (sArr V c) (hArr V c) :=
  (dat1 (F := Ideal) V c).arrAt_eq_of_cover 3 _ (fun t _ => stage2_flushed_eq V c t) stage2_cover

end Cert.KernelIdeal.Hand

end
-- ==== Proof.KernelValue.lean ====
/-
  The kernel program's result, on the extended reals, is the specification's `resK` of its four arguments.

  The program runs in three stretches. The first call leaves the linear layer Y r o = ∑ k, x r k · sgn (w o k)
  in one array and, per channel o, the sum ∑ r, Y r o and the sum of squares ∑ r, Y r o · Y r o in two rows.
  The operations between the calls turn the two rows, the gain and the offset into the scale
  g o · rsqrt (E[Y²] − E[Y]² + ε) and the shift b o − E[Y] · scale, and leave the linear layer's array alone.
  The second call stores max (Y r o · scale o + shift o) 0. Read in that order, entry (r, o) of the result is
  `outK x w g b r o`.
-/
import proofs.«125851_j120259085186_1_alg».proof.Proof.MainRun
import proofs.«125851_j120259085186_1_alg».proof.Proof.Stage1ValueY
import proofs.«125851_j120259085186_1_alg».proof.Proof.Stage1ValueSums
import proofs.«125851_j120259085186_1_alg».proof.Proof.Between
import proofs.«125851_j120259085186_1_alg».proof.Proof.Stage2Value
import proofs.«125851_j120259085186_1_alg».proof.Proof.Spec

set_option maxRecDepth 16384

noncomputable section

namespace Cert.KernelIdeal.Hand

open Cert.KernelIdeal Cert.KernelIdeal.Gen Cert.SignBN
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg)

/-- The four arguments as launched, at their literal types: input, weight, gain, offset. -/
abbrev xArg (c : Dev nD) : SX.Idx → EReal := m ((c.tc : Thread nD τ).loc main_arg0)
abbrev wArg (c : Dev nD) : SW.Idx → EReal := m ((c.tc : Thread nD τ).loc main_arg1)
abbrev gArg (c : Dev nD) : SV.Idx → EReal := m ((c.tc : Thread nD τ).loc main_arg2)
abbrev bArg (c : Dev nD) : SV.Idx → EReal := m ((c.tc : Thread nD τ).loc main_arg3)

/-! ## What the second call reads -/

/-- The array the second call normalises is the linear layer of the launch arguments: the first call leaves it so
    and no operation between the calls writes it. -/
theorem entry2_y (c : Dev nD) :
    yArr (Vb (F := Ideal) m ρ) c = fun i => Y (xArg m c) (wArg m c) (i 0) (i 1) :=
  (between_keep (Wa (F := Ideal) m ρ c) main_v0_0 (by decide)).trans
    ((Wa_main_v0_0 (F := Ideal) m ρ c).trans (stage1_y (V0 (F := Ideal) m ρ) c))

/-- After the first call the row of sums holds, at channel o, the channel's sum over the batch … -/
theorem exit1_sum (c : Dev nD) (o : Fin 2048) :
    (Wa (F := Ideal) m ρ c (Proc.devRef .tc main_v0_1) : S1x2048.Idx → EReal) (ix2 (0 : Fin 1) o)
      = colSum (xArg m c) (wArg m c) o :=
  congrFun ((Wa_main_v0_1 (F := Ideal) m ρ c).trans (stage1_sum (V0 (F := Ideal) m ρ) c)) (ix2 (0 : Fin 1) o)

/-- … and the row of sums of squares the channel's sum of squares. -/
theorem exit1_sumsq (c : Dev nD) (o : Fin 2048) :
    (Wa (F := Ideal) m ρ c (Proc.devRef .tc main_v0_2) : S1x2048.Idx → EReal) (ix2 (0 : Fin 1) o)
      = colSumSq (xArg m c) (wArg m c) o :=
  congrFun ((Wa_main_v0_2 (F := Ideal) m ρ c).trans (stage1_sumsq (V0 (F := Ideal) m ρ) c)) (ix2 (0 : Fin 1) o)

/-- The gain and the offset are as launched when the first call ends. -/
theorem exit1_gain (c : Dev nD) (o : Fin 2048) :
    (Wa (F := Ideal) m ρ c (Proc.devRef .tc main_arg2) : S2048.Idx → EReal) (ix1 o) = gArg m c (ix1 o) :=
  congrFun (Wa_main_arg2 (F := Ideal) m ρ c) (ix1 o)
theorem exit1_offset (c : Dev nD) (o : Fin 2048) :
    (Wa (F := Ideal) m ρ c (Proc.devRef .tc main_arg3) : S2048.Idx → EReal) (ix1 o) = bArg m c (ix1 o) :=
  congrFun (Wa_main_arg3 (F := Ideal) m ρ c) (ix1 o)

/-- The scale row the second call reads is the specification's scale of the launch arguments. -/
theorem entry2_scale (c : Dev nD) (o : Fin 2048) :
    sArr (Vb (F := Ideal) m ρ) c (ix2 (0 : Fin 1) o) = scaleK (xArg m c) (wArg m c) (gArg m c) o :=
  between_scale_of (Wa (F := Ideal) m ρ c) o (exit1_sum m ρ c o) (exit1_sumsq m ρ c o) (exit1_gain m ρ c o)

/-- The shift row the second call reads is the specification's shift of the launch arguments. -/
theorem entry2_shift (c : Dev nD) (o : Fin 2048) :
    hArr (Vb (F := Ideal) m ρ) c (ix2 (0 : Fin 1) o) = shiftK (xArg m c) (wArg m c) (gArg m c) (bArg m c) o :=
  between_shift_of (Wa (F := Ideal) m ρ c) o (exit1_sum m ρ c o) (exit1_sumsq m ρ c o) (exit1_gain m ρ c o)
    (exit1_offset m ρ c o)

/-! ## The result -/

/-- The program's result array is `resK` of the four arguments as launched. -/
theorem kernel_value (c : Dev nD) :
    Wc (F := Ideal) m ρ c (Proc.devRef .tc main_v17)
      = resK (m ((c.tc : Thread nD τ).loc main_arg0)) (m ((c.tc : Thread nD τ).loc main_arg1))
          (m ((c.tc : Thread nD τ).loc main_arg2)) (m ((c.tc : Thread nD τ).loc main_arg3)) := by
  refine (Wc_main_v17 (F := Ideal) m ρ c).trans ((stage2_out (Vb (F := Ideal) m ρ) c).trans ?_)
  funext i
  obtain ⟨r, o, rfl⟩ : ∃ (r : Fin 16384) (o : Fin 2048), i = ix2 r o := ⟨i 0, i 1, eq_ix2 i⟩
  show max (yArr (Vb (F := Ideal) m ρ) c (ix2 r o) * sArr (Vb (F := Ideal) m ρ) c (ix2 (0 : Fin 1) o)
      + hArr (Vb (F := Ideal) m ρ) c (ix2 (0 : Fin 1) o)) zeroW
    = outK (xArg m c) (wArg m c) (gArg m c) (bArg m c) r o
  rw [entry2_y, entry2_scale, entry2_shift]
  rfl

end Cert.KernelIdeal.Hand

end
-- ==== Proof.RefValue.lean ====
/-
  The reference program's result, read index by index, is the specification's `resR`.

  Each stage of the reference is identified with the matching formula of the specification:
  the selected sign with `sgn`, the contraction with `Y`, the first sum over the rows with
  `colSum`, its quotient by the row count with `mean`, the sum of the squared centred entries
  divided by the row count with `varR`, and the final maximum against zero with `outR`.
  Both sums of the reference start from the zero word, which is the real number zero.
-/
import proofs.«125851_j120259085186_1_alg».proof.Proof.Gen.ReferenceIdeal.Read
import proofs.«125851_j120259085186_1_alg».proof.Proof.Spec

noncomputable section

namespace Cert.SignBN

open Idealize.ShloMosaic Idealize.ShloMosaic.ValueIdx
open Cert.ReferenceIdeal Cert.ReferenceIdeal.Read
open scoped BigOperators

/-- The weight's sign, as the reference selects it. -/
theorem ref_sgn (x1 : (⟨S2048x2048, .f32⟩ : BufTy).Contents (Elt Ideal)) (o k : Fin 2048) :
    val_main_v3 (F := Ideal) x1 (ix2 o k) = sgn (x1 (ix2 o k)) := by
  rw [val_main_v3_apply, val_main_v2_apply, val_main_v1_apply, val_main_v0_apply, val_main_cst_apply,
    val_main_call0_v0_apply, val_main_cst_0_apply, val_main_call0_v1_apply, val_main_cst_1_apply]
  rfl

/-- The contraction is the linear layer's entry. -/
theorem ref_Y (x0 : (⟨S16384x2048, .f32⟩ : BufTy).Contents (Elt Ideal))
    (x1 : (⟨S2048x2048, .f32⟩ : BufTy).Contents (Elt Ideal)) (r : Fin 16384) (o : Fin 2048) :
    val_main_v4 (F := Ideal) x0 x1 (ix2 r o) = Y x0 x1 r o := by
  rw [val_main_v4_apply]
  unfold Y
  refine Finset.sum_congr rfl fun k _ => ?_
  have hl : lidx_main_v4 (ix2 r o) k = ix2 r k :=
    funext fun a => Fin.ext (by match a with | ⟨0, _⟩ => rfl | ⟨1, _⟩ => rfl)
  have hr : ridx_main_v4 (ix2 r o) k = ix2 o k :=
    funext fun a => Fin.ext (by match a with | ⟨0, _⟩ => rfl | ⟨1, _⟩ => rfl)
  rw [hl, hr, ref_sgn]

/-- The first sum over the rows is the channel's sum. -/
theorem ref_colSum (x0 : (⟨S16384x2048, .f32⟩ : BufTy).Contents (Elt Ideal))
    (x1 : (⟨S2048x2048, .f32⟩ : BufTy).Contents (Elt Ideal)) (o : Fin 2048) :
    val_main_v5 (F := Ideal) x0 x1 (ix1 o) = colSum x0 x1 o := by
  rw [val_main_v5_apply, val_main_cst_2_apply, Ideal.ofBits_def, Ideal.ofBits_zero_f32, zero_add]
  unfold colSum
  refine Finset.sum_congr rfl fun r _ => ?_
  have hi : idx_main_v5 (ix1 o) r = ix2 r o :=
    funext fun a => Fin.ext (by match a with | ⟨0, _⟩ => rfl | ⟨1, _⟩ => rfl)
  rw [hi, ref_Y]

/-- The quotient by the row count is the batch mean. -/
theorem ref_mean (x0 : (⟨S16384x2048, .f32⟩ : BufTy).Contents (Elt Ideal))
    (x1 : (⟨S2048x2048, .f32⟩ : BufTy).Contents (Elt Ideal)) (o : Fin 2048) :
    val_main_v7 (F := Ideal) x0 x1 (ix1 o) = mean x0 x1 o := by
  rw [val_main_v7_apply, ref_colSum, val_main_v6_apply, val_main_cst_3_apply, Ideal.hostDivf_def,
    Ideal.ofBits_def]
  rfl

/-- The mean broadcast over the rows (first copy). -/
theorem ref_mean_bcast9 (x0 : (⟨S16384x2048, .f32⟩ : BufTy).Contents (Elt Ideal))
    (x1 : (⟨S2048x2048, .f32⟩ : BufTy).Contents (Elt Ideal)) (r : Fin 16384) (o : Fin 2048) :
    val_main_v9 (F := Ideal) x0 x1 (ix2 r o) = mean x0 x1 o := by
  rw [val_main_v9_apply, val_main_v8_apply]
  have hi : idx_main_v8 (idx_main_v9 (ix2 r o)) = ix1 o :=
    funext fun a => Fin.ext (by match a with | ⟨0, _⟩ => rfl)
  rw [hi, ref_mean]

/-- The mean broadcast over the rows (second copy). -/
theorem ref_mean_bcast16 (x0 : (⟨S16384x2048, .f32⟩ : BufTy).Contents (Elt Ideal))
    (x1 : (⟨S2048x2048, .f32⟩ : BufTy).Contents (Elt Ideal)) (r : Fin 16384) (o : Fin 2048) :
    val_main_v16 (F := Ideal) x0 x1 (ix2 r o) = mean x0 x1 o := by
  rw [val_main_v16_apply, val_main_v15_apply]
  have hi : idx_main_v15 (idx_main_v16 (ix2 r o)) = ix1 o :=
    funext fun a => Fin.ext (by match a with | ⟨0, _⟩ => rfl)
  rw [hi, ref_mean]

/-- The mean of the squared centred entries is the reference's variance. -/
theorem ref_varR (x0 : (⟨S16384x2048, .f32⟩ : BufTy).Contents (Elt Ideal))
    (x1 : (⟨S2048x2048, .f32⟩ : BufTy).Contents (Elt Ideal)) (o : Fin 2048) :
    val_main_v14 (F := Ideal) x0 x1 (ix1 o) = varR x0 x1 o := by
  rw [val_main_v14_apply, val_main_v12_apply, val_main_cst_4_apply, val_main_v13_apply,
    val_main_cst_5_apply, Ideal.hostDivf_def, Ideal.ofBits_def, Ideal.ofBits_def,
    Ideal.ofBits_zero_f32, zero_add]
  unfold varR
  refine congrArg (fun s => Ideal.div s rowsW) (Finset.sum_congr rfl fun r _ => ?_)
  have hi : idx_main_v12 (ix1 o) r = ix2 r o :=
    funext fun a => Fin.ext (by match a with | ⟨0, _⟩ => rfl | ⟨1, _⟩ => rfl)
  rw [hi, val_main_v11_apply, val_main_v10_apply, ref_Y, ref_mean_bcast9, Ideal.mulf_def,
    Ideal.subf_def]

/-- The gain times the reciprocal root of the variance plus epsilon. -/
theorem ref_scale (x0 : (⟨S16384x2048, .f32⟩ : BufTy).Contents (Elt Ideal))
    (x1 : (⟨S2048x2048, .f32⟩ : BufTy).Contents (Elt Ideal))
    (x2 : (⟨S2048, .f32⟩ : BufTy).Contents (Elt Ideal)) (o : Fin 2048) :
    val_main_v21 (F := Ideal) x0 x1 x2 (ix1 o) = x2 (ix1 o) * Ideal.rsqrt (varR x0 x1 o + epsW) := by
  rw [val_main_v21_apply, val_main_v20_apply, val_main_v19_apply, ref_varR, val_main_v18_apply,
    val_main_cst_6_apply, Ideal.mulf_def, Ideal.hostUnary_rsqrt_def, Ideal.addf_def, Ideal.ofBits_def]

theorem ref_is_resR (x0 : (⟨Cert.ReferenceIdeal.S16384x2048, .f32⟩ : BufTy).Contents (Elt Ideal)) (x1 : (⟨Cert.ReferenceIdeal.S2048x2048, .f32⟩ : BufTy).Contents (Elt Ideal))
    (x2 x3 : (⟨Cert.ReferenceIdeal.S2048, .f32⟩ : BufTy).Contents (Elt Ideal)) :
    Cert.ReferenceIdeal.Read.val_main_v28 (F := Ideal) x0 x1 x2 x3 = Cert.SignBN.resR x0 x1 x2 x3 := by
  funext i
  obtain ⟨r, o, rfl⟩ : ∃ (r : Fin 16384) (o : Fin 2048), i = ValueIdx.ix2 r o := ⟨i 0, i 1, ValueIdx.eq_ix2 i⟩
  have h23 : idx_main_v22 (idx_main_v23 (ix2 r o)) = ix1 o :=
    funext fun a => Fin.ext (by match a with | ⟨0, _⟩ => rfl)
  have h26 : idx_main_v25 (idx_main_v26 (ix2 r o)) = ix1 o :=
    funext fun a => Fin.ext (by match a with | ⟨0, _⟩ => rfl)
  rw [val_main_v28_apply, val_main_v27_apply, val_main_v24_apply, val_main_v17_apply, ref_Y,
    ref_mean_bcast16, val_main_v23_apply, val_main_v22_apply, h23, ref_scale, val_main_v26_apply,
    val_main_v25_apply, h26, val_main_call1_v0_apply, val_main_call1_cst_apply, Ideal.maximumf_def,
    Ideal.addf_def, Ideal.mulf_def, Ideal.subf_def, Ideal.ofBits_def]
  rfl

end Cert.SignBN

end
-- ==== Proof.Law.lean ====
/-
  The extended-real algebra: the kernel's formula and the reference's formula agree wherever every
  argument entry is a real number.

  With real entries the binarized weight is the real 1 or −1, so every entry of the linear layer Y is a
  real number y. The row count is the real N = 16384 and the epsilon a real e > 0. Writing
  μ = (∑ y)/N, the kernel's variance (∑ y²)/N − μ² equals the reference's (∑ (y − μ)²)/N, which is
  not negative, so variance + e > 0 and the reciprocal square root is the finite real (√(variance + e))⁻¹
  on both sides. With s = γ · (√(variance + e))⁻¹ the kernel's entry y·s + (β − μ·s) and the reference's
  (y − μ)·s + β are the same real, and so are their maxima against zero.
-/
import proofs.«125851_j120259085186_1_alg».proof.Proof.Spec

noncomputable section

namespace Cert.SignBN

open Idealize.ShloMosaic Idealize.ShloMosaic.ValueIdx
open scoped BigOperators

/-! ### The five literals as real numbers -/

/-- The word of `+0.0` denotes 0. -/
theorem zeroW_eq : zeroW = 0 := Ideal.ofBits_zero_f32

/-- The word `0x3F800000`: exponent field 127, significand field 0, so 2^23 · 2^(−23) = 1. -/
theorem oneW_eq : oneW = ((1 : ℝ) : EReal) := by
  simp [Ideal.ofBits, Ideal.ieee, -EReal.coe_mul]; norm_num

/-- The word `0xBF800000`: the same with the sign bit set, −1. -/
theorem negOneW_eq : negOneW = ((-1 : ℝ) : EReal) := by
  simp [Ideal.ofBits, Ideal.ieee, -EReal.coe_mul]; norm_num

/-- The word `0x46800000`: exponent field 141, significand field 0, so 2^23 · 2^(−9) = 2^14 = 16384. -/
theorem rowsW_eq : rowsW = ((16384 : ℝ) : EReal) := by
  simp [Ideal.ofBits, Ideal.ieee, -EReal.coe_mul]; norm_num

/-- The word `0x3727C5AC` is a normal pattern with a clear sign bit: a real number above zero. -/
theorem epsW_eq : ∃ e : ℝ, 0 < e ∧ epsW = (e : EReal) := by
  simp [Ideal.ofBits, Ideal.ieee, -EReal.coe_mul]

/-! ### The operations at real arguments -/

/-- The binarized weight at a real: 1 where the real is at least zero, −1 below it. -/
theorem sgn_coe (r : ℝ) : sgn (r : EReal) = (((if 0 ≤ r then 1 else -1 : ℝ)) : EReal) := by
  unfold sgn
  rw [Ideal.cmpf_def, oneW_eq, negOneW_eq, zeroW_eq]
  unfold Scalar.select Ideal.cmp
  by_cases h : 0 ≤ r
  · have h' : (0 : EReal) ≤ (r : EReal) := EReal.coe_nonneg.mpr h
    simp [h, h']
  · have h' : ¬ (0 : EReal) ≤ (r : EReal) := fun hh => h (EReal.coe_nonneg.mp hh)
    simp [h, h']

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real divided by a nonzero real is the real quotient, written as a product with the reciprocal. -/
theorem div_coe_coe (a N : ℝ) (hN : N ≠ 0) :
    Ideal.div (a : EReal) (N : EReal) = ((a * (1 / N) : ℝ) : EReal) := by
  rw [Ideal.div_coe hN, ← EReal.coe_mul]

/-- The reciprocal square root of a real above zero is the finite real (√r)⁻¹. -/
theorem rsqrt_of_pos (r : ℝ) (h : 0 < r) :
    Ideal.rsqrt (r : EReal) = (((Real.sqrt r)⁻¹ : ℝ) : EReal) := by
  rw [Ideal.rsqrt_coe, if_neg (not_lt.mpr h.le), if_neg h.ne']

/-! ### The variance identity over the reals -/

/-- E[y²] − E[y]² = E[(y − E[y])²] for a finite family of N reals, N ≠ 0. -/
theorem real_var {ι : Type*} [Fintype ι] (y : ι → ℝ) (N : ℝ) (hN : (Fintype.card ι : ℝ) = N)
    (hN0 : N ≠ 0) :
    (∑ r, y r * y r) * (1 / N) - ((∑ r, y r) * (1 / N)) * ((∑ r, y r) * (1 / N))
      = (∑ r, (y r - (∑ r, y r) * (1 / N)) * (y r - (∑ r, y r) * (1 / N))) * (1 / N) := by
  generalize hμ : (∑ r, y r) * (1 / N) = μ
  have hS : (∑ r, y r) = μ * N := by rw [← hμ]; field_simp
  have h1 : ∑ r, (y r - μ) * (y r - μ) = (∑ r, y r * y r) - 2 * μ * (∑ r, y r) + N * (μ * μ) := by
    have hexp : ∀ r, (y r - μ) * (y r - μ) = y r * y r - 2 * μ * y r + μ * μ := fun r => by ring
    simp only [hexp, Finset.sum_add_distrib, Finset.sum_sub_distrib, ← Finset.mul_sum,
      Finset.sum_const, Finset.card_univ, nsmul_eq_mul, hN]
    ring
  rw [h1, hS]; field_simp; ring

/-- The centred form of the variance is not negative. -/
theorem real_var_nonneg {ι : Type*} [Fintype ι] (y : ι → ℝ) (μ N : ℝ) (hpos : 0 < N) :
    0 ≤ (∑ r, (y r - μ) * (y r - μ)) * (1 / N) :=
  mul_nonneg (Finset.sum_nonneg fun r _ => mul_self_nonneg _) (by positivity)

/-! ### One channel: a column of reals -/

/-- For a column of N reals y, a real gain γ, offset β and epsilon e > 0, the kernel's entry
    y·s + (β − μ·s) with s = γ · rsqrt (E[y²] − μ² + e) and the reference's entry
    (y − μ) · (γ · rsqrt (E[(y − μ)²] + e)) + β have the same maximum against zero. -/
theorem column_law {ι : Type*} [Fintype ι] (Yc : ι → EReal) (y : ι → ℝ)
    (hY : ∀ r, Yc r = (y r : EReal)) (N e γ β : ℝ) (hN : (Fintype.card ι : ℝ) = N) (hpos : 0 < N)
    (he : 0 < e) (i : ι) :
    max (Yc i * ((γ : EReal) * Ideal.rsqrt
            (Ideal.div (∑ r, Yc r * Yc r) (N : EReal)
              - Ideal.div (∑ r, Yc r) (N : EReal) * Ideal.div (∑ r, Yc r) (N : EReal) + (e : EReal)))
          + ((β : EReal) - Ideal.div (∑ r, Yc r) (N : EReal) * ((γ : EReal) * Ideal.rsqrt
            (Ideal.div (∑ r, Yc r * Yc r) (N : EReal)
              - Ideal.div (∑ r, Yc r) (N : EReal) * Ideal.div (∑ r, Yc r) (N : EReal) + (e : EReal))))) 0
      = max ((Yc i - Ideal.div (∑ r, Yc r) (N : EReal)) * ((γ : EReal) * Ideal.rsqrt
            (Ideal.div (∑ r, (Yc r - Ideal.div (∑ r, Yc r) (N : EReal))
              * (Yc r - Ideal.div (∑ r, Yc r) (N : EReal))) (N : EReal) + (e : EReal))) + (β : EReal)) 0 := by
  have hN0 : N ≠ 0 := hpos.ne'
  -- the mean is the real μ
  have hm : Ideal.div (∑ r, Yc r) (N : EReal) = (((∑ r, y r) * (1 / N) : ℝ) : EReal) := by
    rw [show (∑ r, Yc r) = ((∑ r, y r : ℝ) : EReal) from by
      rw [coe_sum]; exact Finset.sum_congr rfl fun r _ => hY r]
    exact div_coe_coe _ _ hN0
  rw [hm]
  generalize hμ : (∑ r, y r) * (1 / N) = μ at hm ⊢
  -- the mean of the squares
  have hq : Ideal.div (∑ r, Yc r * Yc r) (N : EReal) = (((∑ r, y r * y r) * (1 / N) : ℝ) : EReal) := by
    rw [show (∑ r, Yc r * Yc r) = ((∑ r, y r * y r : ℝ) : EReal) from by
      rw [coe_sum]; exact Finset.sum_congr rfl fun r _ => by rw [hY r, EReal.coe_mul]]
    exact div_coe_coe _ _ hN0
  -- the mean of the centred squares
  have hc : Ideal.div (∑ r, (Yc r - (μ : EReal)) * (Yc r - (μ : EReal))) (N : EReal)
      = (((∑ r, (y r - μ) * (y r - μ)) * (1 / N) : ℝ) : EReal) := by
    rw [show (∑ r, (Yc r - (μ : EReal)) * (Yc r - (μ : EReal)))
        = ((∑ r, (y r - μ) * (y r - μ) : ℝ) : EReal) from by
      rw [coe_sum]; exact Finset.sum_congr rfl fun r _ => by rw [hY r, EReal.coe_mul, EReal.coe_sub]]
    exact div_coe_coe _ _ hN0
  -- the two variances are one real v ≥ 0
  have hv : (∑ r, y r * y r) * (1 / N) - μ * μ = (∑ r, (y r - μ) * (y r - μ)) * (1 / N) := by
    have := real_var y N hN hN0
    rw [hμ] at this
    exact this
  have hv0 : 0 ≤ (∑ r, (y r - μ) * (y r - μ)) * (1 / N) := real_var_nonneg y μ N hpos
  rw [hq, hc, ← EReal.coe_mul, ← EReal.coe_sub, hv, ← EReal.coe_add,
    rsqrt_of_pos _ (by linarith), hY i]
  simp only [← EReal.coe_mul, ← EReal.coe_sub, ← EReal.coe_add]
  congr 2
  ring

/-! ### The linear layer at real arguments, and the theorem -/

/-- With real entries every entry of the linear layer is a real number. -/
theorem Y_coe (x : SX.Idx → EReal) (w : SW.Idx → EReal) (xr : SX.Idx → ℝ) (wr : SW.Idx → ℝ)
    (hx : ∀ i, x i = (xr i : EReal)) (hw : ∀ i, w i = (wr i : EReal)) (r : Fin 16384) (o : Fin 2048) :
    Y x w r o
      = ((∑ k : Fin 2048, xr (ix2 r k) * (if 0 ≤ wr (ix2 o k) then 1 else -1) : ℝ) : EReal) := by
  unfold Y
  rw [coe_sum]
  exact Finset.sum_congr rfl fun k _ => by rw [hx, hw, sgn_coe, EReal.coe_mul]

/-- Where every entry of the input, the weight, the gain and the offset is a real number, the kernel's
    formula and the reference's formula give the same array. -/
theorem resK_eq_resR (x : SX.Idx → EReal) (w : SW.Idx → EReal) (g b : SV.Idx → EReal)
    (hx : ∀ i, ∃ r : ℝ, x i = (r : EReal)) (hw : ∀ i, ∃ r : ℝ, w i = (r : EReal))
    (hg : ∀ i, ∃ r : ℝ, g i = (r : EReal)) (hb : ∀ i, ∃ r : ℝ, b i = (r : EReal)) :
    resK x w g b = resR x w g b := by
  choose xr hxr using hx
  choose wr hwr using hw
  choose gr hgr using hg
  choose br hbr using hb
  obtain ⟨e, he, hee⟩ := epsW_eq
  funext i
  show outK x w g b (i 0) (i 1) = outR x w g b (i 0) (i 1)
  simp only [outK, outR, shiftK, scaleK, varK, varR, mean, colSum, colSumSq]
  rw [hgr, hbr, rowsW_eq, hee, zeroW_eq]
  exact column_law (fun r => Y x w r (i 1)) _ (fun r => Y_coe x w xr wr hxr hwr r (i 1)) 16384 e
    (gr _) (br _) (by simp) (by norm_num) he (i 0)

end Cert.SignBN

end
-- ==== Proof.Finite.lean ====
/-
  From the precondition to real entries. The precondition is the conjunction of four statements
  "every entry of the array has absolute value below +∞"; each conjunct, read at an index, says
  max a (−a) < ⊤ for the entry a, which excludes a = ⊤ and a = ⊥, so a is a real number.
-/
import proofs.«125851_j120259085186_1_alg».proof.Pre_finite_inputs
import proofs.«125851_j120259085186_1_alg».proof.Proof.Gen.Pre_finite_inputs
import Idealize.ShloMosaic.Lib.ReduceAll
import Idealize.ShloMosaic.Lib.ValueIdx
import Idealize.ShloMosaic.PureOps.Ideal.Laws
import Mathlib.Data.EReal.Basic

namespace Cert.SignBN

open Idealize.ShloMosaic

/-- The rank-0 shape has exactly one index. -/
instance : Subsingleton Cert.Pre_finite_inputs.S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value max a (−a) lies strictly below +∞ is a real number. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- One conjunct read at an index: the comparison |x| < +∞, with +∞ a scalar broadcast to the array's shape,
    being 1 at i makes x i a real number. -/
theorem real_of_cmp {T : Shape} (hb : Cert.Pre_finite_inputs.S_.BroadcastsInDim T (![] : Fin 0 → Fin T.rank))
    (x : FVec Ideal T .f32) (i : T.Idx)
    (h : cmpf .olt (Host.absf x)
      (broadcastInDim T ![] hb (constant (F := Ideal) Cert.Pre_finite_inputs.S_ .f32 0x7F800000#32)) i = 1#1) :
    ∃ r : ℝ, x i = (r : EReal) :=
  real_of_abs_lt_inf (x i) h

/-- Under the precondition every entry of the four inputs is a real number. -/
theorem real_of_pre [Cert.Pre_finite_inputs.Facts]
    (x : FVec Ideal Cert.Pre_finite_inputs.S16384x2048 .f32) (w : FVec Ideal Cert.Pre_finite_inputs.S2048x2048 .f32)
    (g b : FVec Ideal Cert.Pre_finite_inputs.S2048 .f32)
    (h : Cert.Pre_finite_inputs.fn (F := Ideal) x w g b = fun _ => 1#1) :
    (∀ i, ∃ r : ℝ, x i = (r : EReal)) ∧ (∀ i, ∃ r : ℝ, w i = (r : EReal)) ∧ (∀ i, ∃ r : ℝ, g i = (r : EReal)) ∧ (∀ i, ∃ r : ℝ, b i = (r : EReal)) := by
  have h0 := congrFun h ValueIdx.ix0
  dsimp only [Cert.Pre_finite_inputs.fn, Cert.Pre_finite_inputs.fn_part1, andi] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_cmp _ x i (Host.reduce_andi_all _ _ _ _ _ h1 i)
  · exact real_of_cmp _ w i (Host.reduce_andi_all _ _ _ _ _ h2 i)
  · exact real_of_cmp _ g i (Host.reduce_andi_all _ _ _ _ _ h3 i)
  · exact real_of_cmp _ b i (Host.reduce_andi_all _ _ _ _ _ h4 i)

end Cert.SignBN
-- ==== Proof.lean ====
/-
  The five claims of the certificate.

  Both programs compute a binarized linear layer followed by batch normalisation and a maximum with zero. With
  Y r o = ∑ k, x r k · sgn (w o k) and, per channel o, the batch mean μ o = (∑ r, Y r o) / n, the kernel's program
  forms the variance as (∑ r, Y r o · Y r o) / n − μ o · μ o and stores max (Y r o · scale o + shift o) 0 with
  scale o = g o · rsqrt (variance + ε) and shift o = b o − μ o · scale o; the reference forms the variance as
  (∑ r, (Y r o − μ o)²) / n and stores max ((Y r o − μ o) · (g o · rsqrt (variance + ε)) + b o) 0.

  • The three frame claims: each program runs to its end without a fault and leaves its four arguments as launched.
  • The idealization claim states nothing: the ideal program is the kernel's own text read on the extended reals.
  • The algebraic claim: on the extended reals the kernel's result is the first formula of its arguments
    (`kernel_value`) and the reference's the second (`ref_is_resR`). Under the precondition every entry of the four
    arguments is a real number (`real_of_pre`), so every Y r o is real, and for real entries the two formulas agree
    (`resK_eq_resR`): the mean of the squares minus the square of the mean is the mean of the squared deviations,
    and (Y − μ) · s + b = Y · s + (b − μ · s).
-/
import proofs.«125851_j120259085186_1_alg».proof.Defs
import proofs.«125851_j120259085186_1_alg».proof.Proof.Gen.Kernel
import proofs.«125851_j120259085186_1_alg».proof.Proof.Gen.Kernel.Skeleton
import proofs.«125851_j120259085186_1_alg».proof.Proof.Gen.Kernel.Launch
import proofs.«125851_j120259085186_1_alg».proof.Proof.Gen.Kernel.Regions
import proofs.«125851_j120259085186_1_alg».proof.Proof.Gen.Kernel.Points
import proofs.«125851_j120259085186_1_alg».proof.Proof.Gen.KernelIdeal
import proofs.«125851_j120259085186_1_alg».proof.Proof.Gen.KernelIdeal.Skeleton
import proofs.«125851_j120259085186_1_alg».proof.Proof.Gen.KernelIdeal.Launch
import proofs.«125851_j120259085186_1_alg».proof.Proof.Gen.KernelIdeal.Regions
import proofs.«125851_j120259085186_1_alg».proof.Proof.Gen.KernelIdeal.Points
import proofs.«125851_j120259085186_1_alg».proof.Proof.Gen.ReferenceIdeal
import proofs.«125851_j120259085186_1_alg».proof.Proof.Gen.ReferenceIdeal.Run
import proofs.«125851_j120259085186_1_alg».proof.Proof.Gen.ReferenceIdeal.Read
import proofs.«125851_j120259085186_1_alg».proof.Proof.Gen.Pre_finite_inputs
import Idealize.ShloMosaic.Adequacy
import Idealize.ShloMosaic.Init
import proofs.«125851_j120259085186_1_alg».proof.Proof.MainRun
import proofs.«125851_j120259085186_1_alg».proof.Proof.KernelBits.MainRun
import proofs.«125851_j120259085186_1_alg».proof.Proof.KernelValue
import proofs.«125851_j120259085186_1_alg».proof.Proof.RefValue
import proofs.«125851_j120259085186_1_alg».proof.Proof.Law
import proofs.«125851_j120259085186_1_alg».proof.Proof.Finite

noncomputable section

namespace Cert.Proof

open Idealize.ShloMosaic Idealize.SL.Sem

/-- The kernel's program as printed runs and leaves its arguments as launched. -/
theorem frame_kernel : Cert.frame_Kernel := fun m ρ _ => Cert.Kernel.Hand.frame (F := Bits) m ρ

/-- The same program on the extended reals runs and leaves its arguments as launched. -/
theorem frame_kernel_ideal : Cert.frame_KernelIdeal := fun m ρ _ => Cert.KernelIdeal.Hand.frame (F := Ideal) m ρ

/-- The reference runs and leaves its arguments as launched: its run with the result's equation dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten between the kernel's program and its reading on the extended reals. -/
theorem preserves : Cert.preserves_Kernel_KernelIdeal := trivial

section Algebraic
open Cert.KernelIdeal Cert.KernelIdeal.Hand Cert.SignBN

/-- From memories that agree on the four arguments, every entry of them a real number, the two programs end with one
    result: the kernel's formula of the arguments, which for real entries is the reference's. -/
theorem algebraic : Cert.algebraic_KernelIdeal_ReferenceIdeal := by
  intro m ρ m' ρ' hpre hagree
  refine ⟨fun c => resK (m ((c.tc : Thread nD τ).loc main_arg0)) (m ((c.tc : Thread nD τ).loc main_arg1))
      (m ((c.tc : Thread nD τ).loc main_arg2)) (m ((c.tc : Thread nD τ).loc main_arg3)), ?_, ?_⟩
  · exact (θ_run Cert.KernelIdeal.defs _ _).mono (fun r h c =>
      ⟨(h c _ (mem_uc main_v17 (by decide))).trans (kernel_value m ρ c),
       (h c _ (mem_uc main_arg0 (by decide))).trans (Wc_main_arg0 m ρ c),
       (h c _ (mem_uc main_arg1 (by decide))).trans (Wc_main_arg1 m ρ c),
       (h c _ (mem_uc main_arg2 (by decide))).trans (Wc_main_arg2 m ρ c),
       (h c _ (mem_uc main_arg3 (by decide))).trans (Wc_main_arg3 m ρ c)⟩) (run_all (F := Ideal) m ρ)
  · refine (θ_run Cert.ReferenceIdeal.defs _ _).mono (fun r h c => ⟨(h c).1.trans ?_, (h c).2⟩)
      (Cert.ReferenceIdeal.Value.run (F := Ideal) m' ρ')
    obtain ⟨hx, hw, hg, hb⟩ := real_of_pre _ _ _ _ (hpre c)
    rw [Cert.ReferenceIdeal.Read.val_main_v28_eq, ref_is_resR, (hagree c).1, (hagree c).2.1, (hagree c).2.2.1,
      (hagree c).2.2.2]
    exact (resK_eq_resR _ _ _ _ hx hw hg hb).symm

end Algebraic

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
